-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S512x2560 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1000000 : Shape := ⟨2, ![2, 1000000]⟩
abbrev S1000000 : Shape := ⟨1, ![1000000]⟩
abbrev S10000x64 : Shape := ⟨2, ![10000, 64]⟩
abbrev S3x64x64 : Shape := ⟨3, ![3, 64, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S100000 : S_.BroadcastsInDim S100000 (![] : Fin 0 → Fin S100000.rank)
  reducesTo_S100000_S_d0 : S100000.ReducesTo [0] S_
  bcast_S_S2x1000000 : S_.BroadcastsInDim S2x1000000 (![] : Fin 0 → Fin S2x1000000.rank)
  reducesTo_S2x1000000_S_d0_1 : S2x1000000.ReducesTo [0, 1] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg1 : IVec S2x1000000 32) (main_arg2 : IVec S1000000 32) (main_v28 : IVec S_ 1) (main_v33 : IVec S100000 1) : IVec S_ 1 :=
  let main_c_12 : IVec S_ 1 := constantI S_ 1 1#1
  let main_v34 : IVec S_ 1 := (fun x v => Host.reduce IntOp.andi x v reducesTo_S100000_S_d0 h_S_) main_v33 main_c_12
  let main_v35 : IVec S_ 1 := andi main_v28 main_v34
  let main_c_13 : IVec S_ 32 := constantI S_ 32 0#32
  let main_v36 : IVec S2x1000000 32 := broadcastInDim S2x1000000 ![] bcast_S_S2x1000000 main_c_13
  let main_v37 : IVec S2x1000000 1 := cmpi .sge main_arg1 main_v36
  let main_c_14 : IVec S_ 32 := constantI S_ 32 100000#32
  let main_v38 : IVec S2x1000000 32 := broadcastInDim S2x1000000 ![] bcast_S_S2x1000000 main_c_14
  let main_v39 : IVec S2x1000000 1 := cmpi .slt main_arg1 main_v38
  let main_v40 : IVec S2x1000000 1 := andi main_v37 main_v39
  let main_c_15 : IVec S_ 1 := constantI S_ 1 1#1
  let main_v41 : IVec S_ 1 := (fun x v => Host.reduce IntOp.andi x v reducesTo_S2x1000000_S_d0_1 h_S_) main_v40 main_c_15
  let main_v42 : IVec S_ 1 := andi main_v35 main_v41
  let main_c_16 : IVec S_ 32 := constantI S_ 32 0#32
  let main_v43 : IVec S1000000 32 := broadcastInDim S1000000 ![] bcast_S_S1000000 main_c_16
  let main_v44 : IVec S1000000 1 := cmpi .sge main_arg2 main_v43
  let main_c_17 : IVec S_ 32 := constantI S_ 32 3#32
  let main_v45 : IVec S1000000 32 := broadcastInDim S1000000 ![] bcast_S_S1000000 main_c_17
  let main_v46 : IVec S1000000 1 := cmpi .slt main_arg2 main_v45
  let main_v47 : IVec S1000000 1 := andi main_v44 main_v46
  let main_c_18 : IVec S_ 1 := constantI S_ 1 1#1
  let main_v48 : IVec S_ 1 := (fun x v => Host.reduce IntOp.andi x v reducesTo_S1000000_S_d0 h_S_) main_v47 main_c_18
  let main_v49 : IVec S_ 1 := andi main_v42 main_v48
  main_v49

def fn_part1 {F : FTy → Type} [FloatOps F] (main_arg0 : IVec S100000 32) (main_arg1 : IVec S2x1000000 32) (main_arg2 : IVec S1000000 32) (main_arg8 : FVec F S64x2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2 .f32 := Host.absf main_arg8
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S2 .f32 := Host.absf main_arg9
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_c_10 : IVec S_ 32 := constantI S_ 32 0#32
  let main_v29 : IVec S100000 32 := broadcastInDim S100000 ![] bcast_S_S100000 main_c_10
  let main_v30 : IVec S100000 1 := cmpi .sge main_arg0 main_v29
  let main_c_11 : IVec S_ 32 := constantI S_ 32 10000#32
  let main_v31 : IVec S100000 32 := broadcastInDim S100000 ![] bcast_S_S100000 main_c_11
  let main_v32 : IVec S100000 1 := cmpi .slt main_arg0 main_v31
  let main_v33 : IVec S100000 1 := andi main_v30 main_v32
  fn_part2 (F := F) main_arg1 main_arg2 main_v28 main_v33

def fn {F : FTy → Type} [FloatOps F] (main_arg0 : IVec S100000 32) (main_arg1 : IVec S2x1000000 32) (main_arg2 : IVec S1000000 32) (main_arg3 : IVec S100000 32) (main_arg4 : FVec F S10000x64 .f32) (main_arg5 : FVec F S3x64x64 .f32) (main_arg6 : FVec F S64x64 .f32) (main_arg7 : FVec F S64 .f32) (main_arg8 : FVec F S64x2 .f32) (main_arg9 : FVec F S2 .f32) : IVec S_ 1 :=
  let main_v0 : FVec F S10000x64 .f32 := Host.absf main_arg4
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S3x64x64 .f32 := Host.absf main_arg5
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg2 main_arg8 main_arg9 main_v13 main_v16
-- ==== Kernel.lean ====
abbrev S100000 : Shape := ⟨1, ![100000]⟩
abbrev S2x1000000 : Shape := ⟨2, ![2, 1000000]⟩
abbrev S1000000 : Shape := ⟨1, ![1000000]⟩
abbrev S10000x64 : Shape := ⟨2, ![10000, 64]⟩
abbrev S3x64x64 : Shape := ⟨3, ![3, 64, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x64 : Shape := ⟨2, ![1, 64]⟩
abbrev S1x64x64 : Shape := ⟨3, ![1, 64, 64]⟩
abbrev S10000x256 : Shape := ⟨2, ![10000, 256]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x256 : Shape := ⟨2, ![100000, 256]⟩
abbrev S100000x64 : Shape := ⟨2, ![100000, 64]⟩
abbrev S100000x192 : Shape := ⟨2, ![100000, 192]⟩
abbrev S300000x64 : Shape := ⟨2, ![300000, 64]⟩
abbrev S1x1000000 : Shape := ⟨2, ![1, 1000000]⟩
abbrev S1000000x1 : Shape := ⟨2, ![1000000, 1]⟩
abbrev S1000000x64 : Shape := ⟨2, ![1000000, 64]⟩
abbrev S300000 : Shape := ⟨1, ![300000]⟩
abbrev S100000x3x64 : Shape := ⟨3, ![100000, 3, 64]⟩
abbrev S100000x3 : Shape := ⟨2, ![100000, 3]⟩
abbrev S100000x3x1 : Shape := ⟨3, ![100000, 3, 1]⟩
abbrev S102400x64 : Shape := ⟨2, ![102400, 64]⟩
abbrev S102400 : Shape := ⟨1, ![102400]⟩
abbrev S1x102400 : Shape := ⟨2, ![1, 102400]⟩
abbrev S1x2 : Shape := ⟨2, ![1, 2]⟩
abbrev S512x2 : Shape := ⟨2, ![512, 2]⟩
abbrev S2560x64 : Shape := ⟨2, ![2560, 64]⟩
abbrev S1x2560 : Shape := ⟨2, ![1, 2560]⟩
abbrev S512x64 : Shape := ⟨2, ![512, 64]⟩
abbrev S512x1 : Shape := ⟨2, ![512, 1]⟩
abbrev S512x2560 : Shape := ⟨2, ![512, 2560]⟩
abbrev S512 : Shape := ⟨1, ![512]⟩

abbrev nBuf : Space → Nat
  | .hbm => 115
  | .vmem => 9
  | .smem => 0
  | _ => 0

abbrev bufTy : (tb : Table) → Fin (tcTables nBuf tb) → BufTy
  | .hbm, ⟨0, _⟩ => ⟨S100000, .i32⟩
  | .hbm, ⟨1, _⟩ => ⟨S2x1000000, .i32⟩
  | .hbm, ⟨2, _⟩ => ⟨S1000000, .i32⟩
  | .hbm, ⟨3, _⟩ => ⟨S100000, .i32⟩
  | .hbm, ⟨4, _⟩ => ⟨S10000x64, .f32⟩
  | .hbm, ⟨5, _⟩ => ⟨S3x64x64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S10000x64, .f32⟩
  | .hbm, ⟨11, _⟩ => ⟨S1x64, .f32⟩
  | .hbm, ⟨12, _⟩ => ⟨S10000x64, .f32⟩
  | .hbm, ⟨13, _⟩ => ⟨S10000x64, .f32⟩
  | .hbm, ⟨14, _⟩ => ⟨S1x64x64, .f32⟩
  | .hbm, ⟨15, _⟩ => ⟨S64x64, .f32⟩
  | .hbm, ⟨16, _⟩ => ⟨S10000x64, .f32⟩
  | .hbm, ⟨17, _⟩ => ⟨S1x64x64, .f32⟩
  | .hbm, ⟨18, _⟩ => ⟨S64x64, .f32⟩
  | .hbm, ⟨19, _⟩ => ⟨S10000x64, .f32⟩
  | .hbm, ⟨20, _⟩ => ⟨S1x64x64, .f32⟩
  | .hbm, ⟨21, _⟩ => ⟨S64x64, .f32⟩
  | .hbm, ⟨22, _⟩ => ⟨S10000x64, .f32⟩
  | .hbm, ⟨23, _⟩ => ⟨S10000x256, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S1, .i32⟩
  | .hbm, ⟨33, _⟩ => ⟨S_, .i32⟩
  | .hbm, ⟨34, _⟩ => ⟨S100000x1, .i32⟩
  | .hbm, ⟨35, _⟩ => ⟨S100000x1, .i1⟩
  | .hbm, ⟨36, _⟩ => ⟨S1x1, .i32⟩
  | .hbm, ⟨37, _⟩ => ⟨S100000x1, .i32⟩
  | .hbm, ⟨38, _⟩ => ⟨S100000x1, .i1⟩
  | .hbm, ⟨39, _⟩ => ⟨S100000x1, .i1⟩
  | .hbm, ⟨40, _⟩ => ⟨S_, .i1⟩
  | .hbm, ⟨41, _⟩ => ⟨S100000, .i1⟩
  | .hbm, ⟨42, _⟩ => ⟨S100000x256, .f32⟩
  | .hbm, ⟨43, _⟩ => ⟨S100000x256, .i1⟩
  | .hbm, ⟨44, _⟩ => ⟨S_, .f32⟩
  | .hbm, ⟨45, _⟩ => ⟨S100000x256, .f32⟩
  | .hbm, ⟨46, _⟩ => ⟨S100000x256, .f32⟩
  | .hbm, ⟨47, _⟩ => ⟨S100000x64, .f32⟩
  | .hbm, ⟨48, _⟩ => ⟨S100000x192, .f32⟩
  | .hbm, ⟨49, _⟩ => ⟨S300000x64, .f32⟩
  | .hbm, ⟨50, _⟩ => ⟨S1x1000000, .i32⟩
  | .hbm, ⟨51, _⟩ => ⟨S1000000, .i32⟩
  | .hbm, ⟨52, _⟩ => ⟨S1x1000000, .i32⟩
  | .hbm, ⟨53, _⟩ => ⟨S1000000, .i32⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S_, .i32⟩
  | .hbm, ⟨63, _⟩ => ⟨S1000000, .i32⟩
  | .hbm, ⟨64, _⟩ => ⟨S1000000, .i1⟩
  | .hbm, ⟨65, _⟩ => ⟨S_, .i32⟩
  | .hbm, ⟨66, _⟩ => ⟨S1000000, .i32⟩
  | .hbm, ⟨67, _⟩ => ⟨S1000000, .i32⟩
  | .hbm, ⟨68, _⟩ => ⟨S1000000, .i32⟩
  | .hbm, ⟨69, _⟩ => ⟨S1000000x1, .i32⟩
  | .hbm, ⟨70, _⟩ => ⟨S1, .i32⟩
  | .hbm, ⟨71, _⟩ => ⟨S_, .i32⟩
  | .hbm, ⟨72, _⟩ => ⟨S1000000x1, .i32⟩
  | .hbm, ⟨73, _⟩ => ⟨S1000000x1, .i1⟩
  | .hbm, ⟨74, _⟩ => ⟨S1x1, .i32⟩
  | .hbm, ⟨75, _⟩ => ⟨S1000000x1, .i32⟩
  | .hbm, ⟨76, _⟩ => ⟨S1000000x1, .i1⟩
  | .hbm, ⟨77, _⟩ => ⟨S1000000x1, .i1⟩
  | .hbm, ⟨78, _⟩ => ⟨S_, .i1⟩
  | .hbm, ⟨79, _⟩ => ⟨S1000000, .i1⟩
  | .hbm, ⟨80, _⟩ => ⟨S1000000x64, .f32⟩
  | .hbm, ⟨81, _⟩ => ⟨S1000000x64, .i1⟩
  | .hbm, ⟨82, _⟩ => ⟨S_, .f32⟩
  | .hbm, ⟨83, _⟩ => ⟨S1000000x64, .f32⟩
  | .hbm, ⟨84, _⟩ => ⟨S1000000x64, .f32⟩
  | .hbm, ⟨85, _⟩ => ⟨S_, .f32⟩
  | .hbm, ⟨86, _⟩ => ⟨S300000x64, .f32⟩
  | .hbm, ⟨87, _⟩ => ⟨S1000000x1, .i32⟩
  | .hbm, ⟨88, _⟩ => ⟨S300000x64, .f32⟩
  | .hbm, ⟨89, _⟩ => ⟨S_, .f32⟩
  | .hbm, ⟨90, _⟩ => ⟨S1000000, .f32⟩
  | .hbm, ⟨91, _⟩ => ⟨S_, .f32⟩
  | .hbm, ⟨92, _⟩ => ⟨S300000, .f32⟩
  | .hbm, ⟨93, _⟩ => ⟨S1000000x1, .i32⟩
  | .hbm, ⟨94, _⟩ => ⟨S300000, .f32⟩
  | .hbm, ⟨95, _⟩ => ⟨S100000x3x64, .f32⟩
  | .hbm, ⟨96, _⟩ => ⟨S100000x3, .f32⟩
  | .hbm, ⟨97, _⟩ => ⟨S_, .f32⟩
  | .hbm, ⟨98, _⟩ => ⟨S100000x3, .f32⟩
  | .hbm, ⟨99, _⟩ => ⟨S100000x3, .f32⟩
  | .hbm, ⟨100, _⟩ => ⟨S100000x3x1, .f32⟩
  | .hbm, ⟨101, _⟩ => ⟨S100000x3x64, .f32⟩
  | .hbm, ⟨102, _⟩ => ⟨S100000x3x64, .f32⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S_, .i32⟩
  | .hbm, ⟨107, _⟩ => ⟨S_, .f32⟩
  | .hbm, ⟨108, _⟩ => ⟨S102400x64, .f32⟩
  | .hbm, ⟨109, _⟩ => ⟨S_, .i32⟩
  | .hbm, ⟨110, _⟩ => ⟨S_, .i32⟩
  | .hbm, ⟨111, _⟩ => ⟨S102400, .i32⟩
  | .hbm, ⟨112, _⟩ => ⟨S1x102400, .i32⟩
  | .hbm, ⟨113, _⟩ => ⟨S1x2, .f32⟩
  | .hbm, ⟨114, _⟩ => ⟨S512x2, .f32⟩
  | .local _ .vmem, ⟨0, _⟩ => ⟨S2560x64, .f32⟩
  | .local _ .vmem, ⟨1, _⟩ => ⟨S2560x64, .f32⟩
  | .local _ .vmem, ⟨2, _⟩ => ⟨S1x2560, .i32⟩
  | .local _ .vmem, ⟨3, _⟩ => ⟨S1x2560, .i32⟩
  | .local _ .vmem, ⟨4, _⟩ => ⟨S64x2, .f32⟩
  | .local _ .vmem, ⟨5, _⟩ => ⟨S1x2, .f32⟩
  | .local _ .vmem, ⟨6, _⟩ => ⟨S512x2, .f32⟩
  | .local _ .vmem, ⟨7, _⟩ => ⟨S512x64, .f32⟩
  | .local _ .vmem, ⟨8, _⟩ => ⟨S512x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_c_0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v28 : Ref sig .tc := ⟨.hbm, 84, rfl⟩
abbrev main_cst : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_cst_1 : Ref sig .tc := ⟨.hbm, 89, rfl⟩
abbrev main_v32 : Ref sig .tc := ⟨.hbm, 90, rfl⟩
abbrev main_cst_2 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_cst_3 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_4 : Ref sig .tc := ⟨.hbm, 103, rfl⟩
abbrev main_v43 : Ref sig .tc := ⟨.hbm, 104, rfl⟩
abbrev main_v44 : Ref sig .tc := ⟨.hbm, 105, rfl⟩
abbrev main_c_5 : Ref sig .tc := ⟨.hbm, 106, rfl⟩
abbrev main_call2_v0 : Ref sig .tc := ⟨.hbm, 107, rfl⟩
abbrev main_v45 : Ref sig .tc := ⟨.hbm, 108, rfl⟩
abbrev main_c_6 : Ref sig .tc := ⟨.hbm, 109, rfl⟩
abbrev main_call3_v0 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c39_i32 : BitVec 32 := 39#32
  let v30 : BitVec 1 := Scalar.cmpi .eq arg0 c39_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2560x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2560 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  concatenates_S10000x64_S10000x64_S10000x64_S10000x64_S10000x256_d1 : Shape.Concatenates [S10000x64, S10000x64, S10000x64, S10000x64] S10000x256 1
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x256_0 : S100000.BroadcastsInDim S100000x256 (![0] : Fin 1 → Fin S100000x256.rank)
  bcast_S_S100000x256 : S_.BroadcastsInDim S100000x256 (![] : Fin 0 → Fin S100000x256.rank)
  slices_S100000x256_S100000x64_0_0 : S100000x256.Slices ![0, 0] S100000x64
  slices_S100000x256_S100000x192_0_64 : S100000x256.Slices ![0, 64] S100000x192
  shapeCasts_S100000x192_S300000x64 : S100000x192.ShapeCasts S300000x64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1x1_S1000000x1_0_1 : S1x1.BroadcastsInDim S1000000x1 (![0, 1] : Fin 2 → Fin S1000000x1.rank)
  reducesTo_S1000000x1_S1000000_d1 : S1000000x1.ReducesTo [1] S1000000
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S300000x64 : S_.BroadcastsInDim S300000x64 (![] : Fin 0 → Fin S300000x64.rank)
  bcast_S_S300000 : S_.BroadcastsInDim S300000 (![] : Fin 0 → Fin S300000.rank)
  shapeCasts_S300000x64_S100000x3x64 : S300000x64.ShapeCasts S100000x3x64
  shapeCasts_S300000_S100000x3 : S300000.ShapeCasts S100000x3
  bcast_S_S100000x3 : S_.BroadcastsInDim S100000x3 (![] : Fin 0 → Fin S100000x3.rank)
  bcast_S100000x3_S100000x3x1_0_1 : S100000x3.BroadcastsInDim S100000x3x1 (![0, 1] : Fin 2 → Fin S100000x3x1.rank)
  bcast_S100000x3x1_S100000x3x64_0_1_2 : S100000x3x1.BroadcastsInDim S100000x3x64 (![0, 1, 2] : Fin 3 → Fin S100000x3x64.rank)
  reducesTo_S100000x3x64_S100000x64_d1 : S100000x3x64.ReducesTo [1] S100000x64
  pads_S100000x64_S102400x64_024000_000 : S100000x64.Pads (![0, 0] : Fin 2 → Nat) ![2400, 0] ![0, 0] S102400x64
  pads_S100000_S102400_024000 : S100000.Pads (![0] : Fin 1 → Nat) ![2400] ![0] S102400
  shapeCasts_S102400_S1x102400 : S102400.ShapeCasts S1x102400
  shapeCasts_S2_S1x2 : S2.ShapeCasts S1x2
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2560x64_S2560x64_0_0 : ∀ a, (![0, 0] : Fin 2 → Nat) a + S2560x64.size a ≤ S2560x64.size a
  h_S2560x64 : 0 < S2560x64.numel
  shapeCasts_S2560x64_S2560x64 : S2560x64.ShapeCasts S2560x64
  bitsLt_bf16_f32 : FTy.bits .bf16 < FTy.bits .f32
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  iota_S512x2560_d0_w32 : S512x2560.Iotas .tc 32 [0]
  broadcasts_S1x2560_S512x2560 : S1x2560.Broadcasts S512x2560
  natLt_1_32 : 1 < 32
  reduces_S512x2560_S512 : S512x2560.Reduces [1] S512
  shapeCasts_S512_S512x1 : S512.ShapeCasts S512x1
  broadcasts_S512x1_S512x64 : S512x1.Broadcasts S512x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  dot_S10000x64_S64x64_S10000x64_1_0_0_1_n_n_wf : DotDims.WF S10000x64 S64x64 S10000x64 [1] [0] [0] [1] [] []
  gather_S10000x256_S100000x1_S100000x256_1_0_n_n_0_1_1256_wf : GatherDims.WF S10000x256 S100000x1 S100000x256 [1] [0] [] [0] [] 1 ![1, 256]
  gather_S300000x64_S1000000x1_S1000000x64_1_0_n_n_0_1_164_wf : GatherDims.WF S300000x64 S1000000x1 S1000000x64 [1] [0] [] [0] [] 1 ![1, 64]
  scatter_S300000x64_S1000000x1_S1000000x64_1_0_0_1_wf : ScatterDims.WF S300000x64 S1000000x1 S1000000x64 [1] [0] [0] 1
  scatter_S300000_S1000000x1_S1000000_n_0_0_1_wf : ScatterDims.WF S300000 S1000000x1 S1000000 [] [0] [0] 1
  dot_S512x2560_S2560x64_S512x64_1_0_0_1_n_n_wf : DotDims.WF S512x2560 S2560x64 S512x64 [1] [0] [0] [1] [] []
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x64.size a ≤ S102400x64.size a
  hwx0_0 : ∀ i : grid0.Coords, EltTy.bits .f32 = 32 ∨ (Rect.block (s := S102400x64) S2560x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2560.size a ≤ S1x102400.size a
  hwx0_1 : ∀ i : grid0.Coords, EltTy.bits .i32 = 32 ∨ (Rect.block (s := S1x102400) S1x2560.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2.size a ≤ S64x2.size a
  hwx0_2 : ∀ i : grid0.Coords, EltTy.bits .f32 = 32 ∨ (Rect.block (s := S64x2) S64x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2.size a ≤ S512x2.size a
  hwx0_4 : ∀ i : grid0.Coords, EltTy.bits .f32 = 32 ∨ (Rect.block (s := S512x2) S512x2.size (cc0_transform_4 i) (hinb0_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x256_S100000x1_S100000x256_1_0_n_n_0_1_1256 : GatherDims S10000x256 S100000x1 S100000x256 where
  offsetDims := [1]
  collapsedSliceDims := [0]
  operandBatchingDims := []
  startIndicesBatchingDims := []
  startIndexMap := [0]
  indexVectorDim := 1
  sliceSizes := ![1, 256]
  wf := gather_S10000x256_S100000x1_S100000x256_1_0_n_n_0_1_1256_wf
def gather_S300000x64_S1000000x1_S1000000x64_1_0_n_n_0_1_164 : GatherDims S300000x64 S1000000x1 S1000000x64 where
  offsetDims := [1]
  collapsedSliceDims := [0]
  operandBatchingDims := []
  startIndicesBatchingDims := []
  startIndexMap := [0]
  indexVectorDim := 1
  sliceSizes := ![1, 64]
  wf := gather_S300000x64_S1000000x1_S1000000x64_1_0_n_n_0_1_164_wf
def scatter_S300000x64_S1000000x1_S1000000x64_1_0_0_1 : ScatterDims S300000x64 S1000000x1 S1000000x64 where
  updateWindowDims := [1]
  insertedWindowDims := [0]
  scatterDimsToOperandDims := [0]
  indexVectorDim := 1
  wf := scatter_S300000x64_S1000000x1_S1000000x64_1_0_0_1_wf
def scatter_S300000_S1000000x1_S1000000_n_0_0_1 : ScatterDims S300000 S1000000x1 S1000000 where
  updateWindowDims := []
  insertedWindowDims := [0]
  scatterDimsToOperandDims := [0]
  indexVectorDim := 1
  wf := scatter_S300000_S1000000x1_S1000000_n_0_0_1_wf
def dot_S512x2560_S2560x64_S512x64_1_0_0_1_n_n : DotDims S512x2560 S2560x64 S512x64 where
  lhsContracting := [1]
  rhsContracting := [0]
  lhsNonContracting := [0]
  rhsNonContracting := [1]
  lhsBatch := []
  rhsBatch := []
  wf := dot_S512x2560_S2560x64_S512x64_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_v45) S2560x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S1x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S512x2.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S100000 : Shape := ⟨1, ![100000]⟩
abbrev S2x1000000 : Shape := ⟨2, ![2, 1000000]⟩
abbrev S1000000 : Shape := ⟨1, ![1000000]⟩
abbrev S10000x64 : Shape := ⟨2, ![10000, 64]⟩
abbrev S3x64x64 : Shape := ⟨3, ![3, 64, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S100000x1 : Shape := ⟨2, ![100000, 1]⟩
abbrev S100000x64 : Shape := ⟨2, ![100000, 64]⟩
abbrev S1x1000000 : Shape := ⟨2, ![1, 1000000]⟩
abbrev S1x64 : Shape := ⟨2, ![1, 64]⟩
abbrev S1x64x64 : Shape := ⟨3, ![1, 64, 64]⟩
abbrev S1000000x1 : Shape := ⟨2, ![1000000, 1]⟩
abbrev S1000000x64 : Shape := ⟨2, ![1000000, 64]⟩
abbrev S512x64 : Shape := ⟨2, ![512, 64]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 152
  | .vmem => 0
  | .smem => 0
  | _ => 0

abbrev hbmTy0_0 (i : Nat) : BufTy := match i % 128 with
  | 0 => ⟨S100000, .i32⟩
  | 1 => ⟨S2x1000000, .i32⟩
  | 2 => ⟨S1000000, .i32⟩
  | 3 => ⟨S100000, .i32⟩
  | 4 => ⟨S10000x64, .f32⟩
  | 5 => ⟨S3x64x64, .f32⟩
  | 6 => ⟨S64x64, .f32⟩
  | 7 => ⟨S64, .f32⟩
  | 8 => ⟨S64x2, .f32⟩
  | 9 => ⟨S2, .f32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S100000x64, .f32⟩
  | 19 => ⟨S1x1000000, .i32⟩
  | 20 => ⟨S1000000, .i32⟩
  | 21 => ⟨S1x1000000, .i32⟩
  | 22 => ⟨S1000000, .i32⟩
  | 23 => ⟨S100000x64, .f32⟩
  | 24 => ⟨S1x64, .f32⟩
  | 25 => ⟨S100000x64, .f32⟩
  | 26 => ⟨S100000x64, .f32⟩
  | 27 => ⟨S_, .i32⟩
  | 28 => ⟨S1000000, .i32⟩
  | 29 => ⟨S1000000, .i1⟩
  | 30 => ⟨S1000000, .f32⟩
  | 31 => ⟨S1x64x64, .f32⟩
  | 32 => ⟨S64x64, .f32⟩
  | 33 => ⟨S100000x64, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S1000000x1, .f32⟩
  | 44 => ⟨S1000000x64, .f32⟩
  | 45 => ⟨S1000000x64, .f32⟩
  | 46 => ⟨S_, .f32⟩
  | 47 => ⟨S100000x64, .f32⟩
  | 48 => ⟨S1000000x1, .i32⟩
  | 49 => ⟨S100000x64, .f32⟩
  | 50 => ⟨S_, .f32⟩
  | 51 => ⟨S100000, .f32⟩
  | 52 => ⟨S1000000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S_, .i32⟩
  | 62 => ⟨S1000000, .i32⟩
  | 63 => ⟨S1000000, .i1⟩
  | 64 => ⟨S1000000, .f32⟩
  | 65 => ⟨S1x64x64, .f32⟩
  | 66 => ⟨S64x64, .f32⟩
  | 67 => ⟨S100000x64, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S1000000x1, .f32⟩
  | 78 => ⟨S1000000x64, .f32⟩
  | 79 => ⟨S1000000x64, .f32⟩
  | 80 => ⟨S_, .f32⟩
  | 81 => ⟨S100000x64, .f32⟩
  | 82 => ⟨S1000000x1, .i32⟩
  | 83 => ⟨S100000x64, .f32⟩
  | 84 => ⟨S_, .f32⟩
  | 85 => ⟨S100000, .f32⟩
  | 86 => ⟨S1000000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x64, .f32⟩
  | 93 => ⟨S100000x64, .f32⟩
  | 94 => ⟨S100000x64, .f32⟩
  | 95 => ⟨S_, .i32⟩
  | 96 => ⟨S1000000, .i32⟩
  | 97 => ⟨S1000000, .i1⟩
  | 98 => ⟨S1000000, .f32⟩
  | 99 => ⟨S1x64x64, .f32⟩
  | 100 => ⟨S64x64, .f32⟩
  | 101 => ⟨S100000x64, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x64, .f32⟩
  | 111 => ⟨S1000000x1, .f32⟩
  | 112 => ⟨S1000000x64, .f32⟩
  | 113 => ⟨S1000000x64, .f32⟩
  | 114 => ⟨S_, .f32⟩
  | 115 => ⟨S100000x64, .f32⟩
  | 116 => ⟨S1000000x1, .i32⟩
  | 117 => ⟨S100000x64, .f32⟩
  | 118 => ⟨S_, .f32⟩
  | 119 => ⟨S100000, .f32⟩
  | 120 => ⟨S1000000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x64, .f32⟩
  | 127 => ⟨S100000x64, .f32⟩
  | _ => ⟨S100000, .i32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .f32⟩
  | 5 => ⟨S512x64, .f32⟩
  | 6 => ⟨S100000x1, .i32⟩
  | 7 => ⟨S512x64, .f32⟩
  | 8 => ⟨S_, .f32⟩
  | 9 => ⟨S100000, .f32⟩
  | 10 => ⟨S_, .f32⟩
  | 11 => ⟨S512, .f32⟩
  | 12 => ⟨S100000x1, .i32⟩
  | 13 => ⟨S512, .f32⟩
  | 14 => ⟨S_, .f32⟩
  | 15 => ⟨S512, .f32⟩
  | 16 => ⟨S512, .f32⟩
  | 17 => ⟨S512x1, .f32⟩
  | 18 => ⟨S512x64, .f32⟩
  | 19 => ⟨S512x64, .f32⟩
  | 20 => ⟨S512x2, .f32⟩
  | 21 => ⟨S1x2, .f32⟩
  | 22 => ⟨S512x2, .f32⟩
  | 23 => ⟨S512x2, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_13 : Ref sig .tc := ⟨.hbm, 102, rfl⟩
abbrev main_v77 : Ref sig .tc := ⟨.hbm, 103, rfl⟩
abbrev main_v78 : Ref sig .tc := ⟨.hbm, 104, rfl⟩
abbrev main_c_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_15 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_16 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_17 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_call0_cst : Ref sig .tc := ⟨.hbm, 129, rfl⟩
abbrev main_call0_v0 : Ref sig .tc := ⟨.hbm, 130, rfl⟩
abbrev main_v99 : Ref sig .tc := ⟨.hbm, 131, rfl⟩
abbrev main_cst_18 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_19 : Ref sig .tc := ⟨.hbm, 136, rfl⟩
abbrev main_v103 : Ref sig .tc := ⟨.hbm, 137, rfl⟩
abbrev main_cst_20 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_21 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  slices_S3x64x64_S1x64x64_0_0_0 : S3x64x64.Slices ![0, 0, 0] S1x64x64
  shapeCasts_S1x64x64_S64x64 : S1x64x64.ShapeCasts S64x64
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x64x64_S1x64x64_2_0_0 : S3x64x64.Slices ![2, 0, 0] S1x64x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S10000x64_S100000x1_S100000x64_1_0_n_n_0_1_164_wf : GatherDims.WF S10000x64 S100000x1 S100000x64 [1] [0] [] [0] [] 1 ![1, 64]
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x2_S512x2_1_0_0_1_n_n_wf : DotDims.WF S512x64 S64x2 S512x2 [1] [0] [0] [1] [] []

variable [Facts₀]

def gather_S10000x64_S100000x1_S100000x64_1_0_n_n_0_1_164 : GatherDims S10000x64 S100000x1 S100000x64 where
  offsetDims := [1]
  collapsedSliceDims := [0]
  operandBatchingDims := []
  startIndicesBatchingDims := []
  startIndexMap := [0]
  indexVectorDim := 1
  sliceSizes := ![1, 64]
  wf := gather_S10000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.K.Runs.lean ====
import proofs.«415698_j88648124990150_2_alg».proof.Proof.Gen.Kernel.Launch
import proofs.«415698_j88648124990150_2_alg».proof.Proof.Gen.Kernel.Skeleton
import proofs.«415698_j88648124990150_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- What core `c`'s TensorCore buffers hold on entry to the pooling region: the launch contents run through the nine
    host stretches (the graph convolution, the two paddings, the two reshapes). -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- `V0` at one TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is the nine host stretches followed by the pooling region and nothing else (`main_chain`), so the region is
    entered at `V`; for any variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-! ## The windows' blocks -/

/-- The block of window `w` that grid point `t` addresses, as a function of the index inside the block, taken from the
    entry contents `V` of the window's array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Before the body runs at ANY point, input window 0's staging buffer already holds that point's block `iblk m c 0 t`:
    either the pipeline has just fetched it, or the block index did not change since the last fetch and the body (`hafter`)
    left the buffer alone. `hA`: the proof data's array for the window is the entry contents. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Before the body runs at ANY point, input window 1's staging buffer already holds that point's block `iblk m c 1 t`:
    either the pipeline has just fetched it, or the block index did not change since the last fetch and the body (`hafter`)
    left the buffer alone. `hA`: the proof data's array for the window is the entry contents. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Before the body runs at ANY point, input window 2's staging buffer already holds that point's block `iblk m c 2 t`:
    either the pipeline has just fetched it, or the block index did not change since the last fetch and the body (`hafter`)
    left the buffer alone. `hA`: the proof data's array for the window is the entry contents. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Before the body runs at ANY point, input window 3's staging buffer already holds that point's block `iblk m c 3 t`:
    either the pipeline has just fetched it, or the block index did not change since the last fetch and the body (`hafter`)
    left the buffer alone. `hA`: the proof data's array for the window is the entry contents. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditionals of the body -/

/-- The condition of the body's first conditional (`k0_h1`), from the grid coordinates: the point is the first. -/
abbrev cond0_0 (i : grid0.Coords) : Prop := (Scalar.cmpi .ne (Scalar.extui (Scalar.cmpi .eq (BitVec.ofNat 32 (i 0).val) 0#32)) 0#32) = 1#1
/-- The condition of the body's second conditional (`k0_h2`): the point is the last. -/
abbrev cond0_1 (i : grid0.Coords) : Prop := k0_cond2 i = 1#1

/-- The first conditional is taken at the first point only — decided over the grid. -/
theorem hcond0_0 : ∀ t : Fin cfg0.N, cond0_0 (grid0.coords t) ↔ t.val % 40 = 0 :=
  (by decide +kernel : ∀ t : Fin grid0.N, cond0_0 (grid0.coords t) ↔ t.val % 40 = 0)
/-- The second conditional is taken at the last point only — decided over the grid. -/
theorem hcond0_1 : ∀ t : Fin cfg0.N, cond0_1 (grid0.coords t) ↔ t.val % 40 = 39 :=
  (by decide +kernel : ∀ t : Fin grid0.N, cond0_1 (grid0.coords t) ↔ t.val % 40 = 39)

/-! ## Which windows are idle where -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- At the first point the printed configuration calls output 4 idle: the body stores nothing into it there. -/
theorem idleAt0_4_A : ∀ t : Fin cfg0.N, cond0_0 (grid0.coords t) → ¬cond0_1 (grid0.coords t) → cfg0.idle 4 (grid0.coords t) = true := by decide +kernel
/-- At the first point the pipeline does not write output 4's block back. -/
theorem noFlush0_4_A : ∀ t : Fin cfg0.N, cond0_0 (grid0.coords t) → ¬cond0_1 (grid0.coords t) → (cfg0.win 4).flush t = false := by decide +kernel
/-- At the points strictly between the first and the last output 4 is idle as well. -/
theorem idleAt0_4_B : ∀ t : Fin cfg0.N, ¬cond0_0 (grid0.coords t) → ¬cond0_1 (grid0.coords t) → cfg0.idle 4 (grid0.coords t) = true := by decide +kernel
/-- And is not written back there. -/
theorem noFlush0_4_B : ∀ t : Fin cfg0.N, ¬cond0_0 (grid0.coords t) → ¬cond0_1 (grid0.coords t) → (cfg0.win 4).flush t = false := by decide +kernel
/-- At the last point output 4 is live: the body stores the pooled head into it. -/
theorem liveAt0_4_C : ∀ t : Fin cfg0.N, ¬cond0_0 (grid0.coords t) → cond0_1 (grid0.coords t) → cfg0.idle 4 (grid0.coords t) = false := by decide +kernel

/-! ## Names for the memrefs the body is called with -/

/-- Output window 4 has one staging buffer; its contents after a point are read through this view. -/
abbrev VO0_4 : View sig .tc .vmem S512x2 .f32 := (Memref.whole cc0_stg4_0 : Memref sig .tc .vmem S512x2 .f32).view
/-- For each window, the staging memref in use at point `t` (written the way `bodyAt0` passes it) and the fact that it is a whole buffer. -/
abbrev ms0_0 (t : Fin cfg0.N) : Memref sig .tc .vmem S2560x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2 .f32 := win0_4.stage (cfg0.slots t 4)
abbrev hs0_4 (t : Fin cfg0.N) : (ms0_4 t).IsWhole := hstage0_4 ((cfg0.slots t 4).cast nbuf0_4)
/-- The two scratch operands as memrefs: each is a whole scoped buffer. -/
abbrev scM0_0 : Memref sig .tc .vmem S512x64 .f32 := Memref.whole cc0_scratch0
abbrev scM0_1 : Memref sig .tc .vmem S512x1 .f32 := Memref.whole cc0_scratch1
/-- The two scratch operands the kernel carries between points (the running sums and the running counts), as views:
    what they hold is stated through them. -/
abbrev VS0_0 : View sig .tc .vmem S512x64 .f32 := scM0_0.view
abbrev VS0_1 : View sig .tc .vmem S512x1 .f32 := scM0_1.view

/-- The invariant the region starts from, spelled out for this kernel: both scratch memrefs owned at unspecified contents,
    and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frm

end
-- ==== Proof.K.RunA.lean ====
import proofs.«415698_j88648124990150_2_alg».proof.Proof.K.Runs

-- membership in a rectangle of these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the symbolic run below elaborates to a big term; the default heartbeat budget is too small for closing the definition
set_option maxHeartbeats 1000000 in
/-- What the body's stores leave in output window 4's staging memref and in the two scratch operands, as pieces (last
    first), IN CASE A (the first conditional taken, the second not: point 0), WITH the proof that on whole memrefs — the four inputs' at their contents
    `x0 … x3`, output 4's, which the case leaves idle, at contents `xi4` handed back untouched, the two scratch operands at anything (the body stores zeros over them before it reads them) — the body runs to the continuation holding the inputs' as they were and each scratch
    operand with its pieces written (`LS0`: the running sums, `LS1`: the running counts). The printed function is its
    skeleton, which the symbolic run steps through, each conditional decided by the case's hypotheses; the piece lists
    are what that run finds when the buffers are handed to the continuation. -/
noncomputable def kernelRun0_A (c : Dev nD) (i : grid0.Coords) (arg1 : Memref sig .tc .vmem S2560x64 .f32) (harg1 : arg1.IsWhole) (arg2 : Memref sig .tc .vmem S1x2560 .i32) (harg2 : arg2.IsWhole) (arg3 : Memref sig .tc .vmem S64x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x64 .f32) (harg6 : arg6.IsWhole) (arg7 : Memref sig .tc .vmem S512x1 .f32) (harg7 : arg7.IsWhole) (hc0 : cond0_0 i) (hc1 : ¬cond0_1 i)
    (x0 : Vec F S2560x64 .f32) (x1 : Vec F S1x2560 .i32) (x2 : Vec F S64x2 .f32) (x3 : Vec F S1x2 .f32) :
    Σ' (L4 : List (View.Piece (Elt F) S512x2 .f32)) (LS0 : List (View.Piece (Elt F) S512x64 .f32)), { LS1 : List (View.Piece (Elt F) S512x1 .f32) //
      ∀ (xi4 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨[], ?_, ?_, fun xi4 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Frm

end
-- ==== Proof.K.RunB.lean ====
import proofs.«415698_j88648124990150_2_alg».proof.Proof.K.RunA

-- membership in a rectangle of these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the symbolic run below elaborates to a big term; the default heartbeat budget is too small for closing the definition
set_option maxHeartbeats 1000000 in
/-- What the body's stores leave in output window 4's staging memref and in the two scratch operands, as pieces (last
    first), IN CASE B (neither conditional taken: points 1 to 38), WITH the proof that on whole memrefs — the four inputs' at their contents
    `x0 … x3`, output 4's, which the case leaves idle, at contents `xi4` handed back untouched, the two scratch operands at what the point before left (`xs0`, `xs1`) — the body runs to the continuation holding the inputs' as they were and each scratch
    operand with its pieces written (`LS0`: the running sums, `LS1`: the running counts). The printed function is its
    skeleton, which the symbolic run steps through, each conditional decided by the case's hypotheses; the piece lists
    are what that run finds when the buffers are handed to the continuation. -/
noncomputable def kernelRun0_B (c : Dev nD) (i : grid0.Coords) (arg1 : Memref sig .tc .vmem S2560x64 .f32) (harg1 : arg1.IsWhole) (arg2 : Memref sig .tc .vmem S1x2560 .i32) (harg2 : arg2.IsWhole) (arg3 : Memref sig .tc .vmem S64x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x64 .f32) (harg6 : arg6.IsWhole) (arg7 : Memref sig .tc .vmem S512x1 .f32) (harg7 : arg7.IsWhole) (hc0 : ¬cond0_0 i) (hc1 : ¬cond0_1 i)
    (x0 : Vec F S2560x64 .f32) (x1 : Vec F S1x2560 .i32) (x2 : Vec F S64x2 .f32) (x3 : Vec F S1x2 .f32) (xs0 : Vec F S512x64 .f32) (xs1 : Vec F S512x1 .f32) :
    Σ' (L4 : List (View.Piece (Elt F) S512x2 .f32)) (LS0 : List (View.Piece (Elt F) S512x64 .f32)), { LS1 : List (View.Piece (Elt F) S512x1 .f32) //
      ∀ (xi4 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨[], ?_, ?_, fun xi4 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Frm

end
-- ==== Proof.K.RunC.lean ====
import proofs.«415698_j88648124990150_2_alg».proof.Proof.K.RunB

-- membership in a rectangle of these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the symbolic run below elaborates to a big term; the default heartbeat budget is too small for closing the definition
set_option maxHeartbeats 1000000 in
/-- What the body's stores leave in output window 4's staging memref and in the two scratch operands, as pieces (last
    first), IN CASE C (the second conditional taken, the first not: point 39), WITH the proof that on whole memrefs — the four inputs' at their contents
    `x0 … x3`, output 4's at anything (the body loads it, uses nothing of the value, and stores it whole), the two scratch operands at what the point before left (`xs0`, `xs1`) — the body runs to the continuation holding the inputs' as they were, output 4's buffer with its pieces written (`L4`) and each scratch
    operand with its pieces written (`LS0`: the running sums, `LS1`: the running counts). The printed function is its
    skeleton, which the symbolic run steps through, each conditional decided by the case's hypotheses; the piece lists
    are what that run finds when the buffers are handed to the continuation. -/
noncomputable def kernelRun0_C (c : Dev nD) (i : grid0.Coords) (arg1 : Memref sig .tc .vmem S2560x64 .f32) (harg1 : arg1.IsWhole) (arg2 : Memref sig .tc .vmem S1x2560 .i32) (harg2 : arg2.IsWhole) (arg3 : Memref sig .tc .vmem S64x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x64 .f32) (harg6 : arg6.IsWhole) (arg7 : Memref sig .tc .vmem S512x1 .f32) (harg7 : arg7.IsWhole) (hc0 : ¬cond0_0 i) (hc1 : cond0_1 i)
    (x0 : Vec F S2560x64 .f32) (x1 : Vec F S1x2560 .i32) (x2 : Vec F S64x2 .f32) (x3 : Vec F S1x2 .f32) (xs0 : Vec F S512x64 .f32) (xs1 : Vec F S512x1 .f32) :
    Σ' (L4 : List (View.Piece (Elt F) S512x2 .f32)) (LS0 : List (View.Piece (Elt F) S512x64 .f32)), { LS1 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Frm

end
-- ==== Proof.K.FrameOf.lean ====
import proofs.«415698_j88648124990150_2_alg».proof.Proof.K.Runs

-- membership in a rectangle of these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The ten arguments on entry to the region, and the frame claim -/

/-- None of the 104 host operations has `main_arg0` as its result buffer, so on entry to the region it still holds its launch contents. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg1` as its result buffer, so on entry to the region it still holds its launch contents. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg2` as its result buffer, so on entry to the region it still holds its launch contents. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg3` as its result buffer, so on entry to the region it still holds its launch contents. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg4` as its result buffer, so on entry to the region it still holds its launch contents. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg5` as its result buffer, so on entry to the region it still holds its launch contents. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg6` as its result buffer, so on entry to the region it still holds its launch contents. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg7` as its result buffer, so on entry to the region it still holds its launch contents. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg8` as its result buffer, so on entry to the region it still holds its launch contents. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg9` as its result buffer, so on entry to the region it still holds its launch contents. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- From a run of @main that ends in the pipeline's frame post (stated at the entry contents `V`, for proof data whose
    arrays are those contents: `hA`) to the claim that all ten argument arrays end as launched. `main_arg8` (the head's
    weight) is window 2's array: an input window's array ends at its entry contents. The other nine arguments are arrays of no
    window, and the post says such buffers end at `V`. In both cases `V` at an argument is its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 2).trans (((dats 0 c).arrAt_in 2 rfl _).trans ((hA c 2).trans (V_main_arg8 m c))),
      ((h c).2 main_arg9 (Pipeline.mem_restRefs_of main_arg9 (by decide) (by decide))).trans (V_main_arg9 m c)⟩) h

end Cert.Kernel.Frm

end
-- ==== Proof.K.Frame.lean ====
/-
  The frame of the program, over its kernel body's three runs.

  The grid has 40 points; the body carries two accumulators between them (a [512,64] sum and a [512,1] count), zeroes
  both at the first point, adds the tile's contribution at every point, and at the last point stores the result into
  the one output window, which is idle (not written back) everywhere else. This module states, case by case and then
  point by point, what the output window's buffer and the two accumulators hold after the body (`outsAt0`), gives the
  pipeline's proof data over it (`dats`), proves the body obligation at a generic point (`sound_body`) from the three
  runs, and concludes the run (`run_main`) and the frame claim's post (`frame`), at any float model `F`.
-/
import proofs.«415698_j88648124990150_2_alg».proof.Proof.K.RunC
import proofs.«415698_j88648124990150_2_alg».proof.Proof.K.FrameOf

-- membership in a rectangle of these extents is decided structurally, one step per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, on any staging memrefs

The kernel body has two conditionals on the grid coordinate: the first (taken at the first point only) stores zeros
over the whole of both accumulators; the second (taken at the last point only) stores the result into window 4.
Between them the body always adds the tile's contribution into both accumulators. So there are three cases:
A (first point), B (the points strictly between) and C (last point). Per case, the body's run gives three piece
lists: window 4's, the sum accumulator's and the count accumulator's. -/

section Cases

variable (c : Dev nD) (i : grid0.Coords)
  (arg1 : Memref sig .tc .vmem S2560x64 .f32) (harg1 : arg1.IsWhole)
  (arg2 : Memref sig .tc .vmem S1x2560 .i32) (harg2 : arg2.IsWhole)
  (arg3 : Memref sig .tc .vmem S64x2 .f32) (harg3 : arg3.IsWhole)
  (arg4 : Memref sig .tc .vmem S1x2 .f32) (harg4 : arg4.IsWhole)
  (arg5 : Memref sig .tc .vmem S512x2 .f32) (harg5 : arg5.IsWhole)
  (arg6 : Memref sig .tc .vmem S512x64 .f32) (harg6 : arg6.IsWhole)
  (arg7 : Memref sig .tc .vmem S512x1 .f32) (harg7 : arg7.IsWhole)

-- each case's run at the section's memrefs (its remaining arguments: the two conditions, the four input blocks,
-- and in cases B and C what the two accumulators held)
local notation "𝓚A" => kernelRun0_A c i arg1 harg1 arg2 harg2 arg3 harg3 arg4 harg4 arg5 harg5 arg6 harg6 arg7 harg7
local notation "𝓚B" => kernelRun0_B c i arg1 harg1 arg2 harg2 arg3 harg3 arg4 harg4 arg5 harg5 arg6 harg6 arg7 harg7
local notation "𝓚C" => kernelRun0_C c i arg1 harg1 arg2 harg2 arg3 harg3 arg4 harg4 arg5 harg5 arg6 harg6 arg7 harg7

/-- Case A stores nothing into window 4 (the window is idle at the first point and not written back there): no
    pieces, so this is a placeholder that nothing consults. -/
def out0_A_4 (hc0 : cond0_0 i) (hc1 : ¬cond0_1 i)
    (x0 : Vec F S2560x64 .f32) (x1 : Vec F S1x2560 .i32) (x2 : Vec F S64x2 .f32) (x3 : Vec F S1x2 .f32) : Vec F S512x2 .f32 :=
  VO0_4.read (Elt F) (VO0_4.writes (Elt F) VO0_4.junk (𝓚A hc0 hc1 x0 x1 x2 x3).1)

/-- Case A's pieces for the sum accumulator cover it: the zero fill and the tile's sum are both whole-buffer stores. -/
theorem scover0_A_0 (hc0 : cond0_0 i) (hc1 : ¬cond0_1 i)
    (x0 : Vec F S2560x64 .f32) (x1 : Vec F S1x2560 .i32) (x2 : Vec F S64x2 .f32) (x3 : Vec F S1x2 .f32) (y : S512x64.Idx) :
    ∃ pc ∈ (𝓚A hc0 hc1 x0 x1 x2 x3).2.1, y ∈ pc.1.set :=
  View.cover_of_tiledL (𝓚A hc0 hc1 x0 x1 x2 x3).2.1 S512x64.size (by sl_kernel_rfl) y

/-- What case A leaves in the sum accumulator: its pieces read back (over contents that do not matter, by the cover). -/
def sout0_A_0 (hc0 : cond0_0 i) (hc1 : ¬cond0_1 i)
    (x0 : Vec F S2560x64 .f32) (x1 : Vec F S1x2560 .i32) (x2 : Vec F S64x2 .f32) (x3 : Vec F S1x2 .f32) : Vec F S512x64 .f32 :=
  VS0_0.read (Elt F) (VS0_0.writes (Elt F) VS0_0.junk (𝓚A hc0 hc1 x0 x1 x2 x3).2.1)

/-- Case A's pieces for the count accumulator cover it. -/
theorem scover0_A_1 (hc0 : cond0_0 i) (hc1 : ¬cond0_1 i)
    (x0 : Vec F S2560x64 .f32) (x1 : Vec F S1x2560 .i32) (x2 : Vec F S64x2 .f32) (x3 : Vec F S1x2 .f32) (y : S512x1.Idx) :
    ∃ pc ∈ (𝓚A hc0 hc1 x0 x1 x2 x3).2.2.1, y ∈ pc.1.set :=
  View.cover_of_tiledL (𝓚A hc0 hc1 x0 x1 x2 x3).2.2.1 S512x1.size (by sl_kernel_rfl) y

/-- What case A leaves in the count accumulator. -/
def sout0_A_1 (hc0 : cond0_0 i) (hc1 : ¬cond0_1 i)
    (x0 : Vec F S2560x64 .f32) (x1 : Vec F S1x2560 .i32) (x2 : Vec F S64x2 .f32) (x3 : Vec F S1x2 .f32) : Vec F S512x1 .f32 :=
  VS0_1.read (Elt F) (VS0_1.writes (Elt F) VS0_1.junk (𝓚A hc0 hc1 x0 x1 x2 x3).2.2.1)

/-- Case B stores nothing into window 4 either: a placeholder, as in case A. -/
def out0_B_4 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x2 .f32 :=
  VO0_4.read (Elt F) (VO0_4.writes (Elt F) VO0_4.junk (𝓚B hc0 hc1 x0 x1 x2 x3 xs0 xs1).1)

/-- Case B's piece for the sum accumulator (what it held plus the tile's sum, one whole-buffer store) covers it. -/
theorem scover0_B_0 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x64.Idx) :
    ∃ pc ∈ (𝓚B hc0 hc1 x0 x1 x2 x3 xs0 xs1).2.1, y ∈ pc.1.set :=
  View.cover_of_tiledL (𝓚B hc0 hc1 x0 x1 x2 x3 xs0 xs1).2.1 S512x64.size (by sl_kernel_rfl) y

/-- What case B leaves in the sum accumulator. -/
def sout0_B_0 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x64 .f32 :=
  VS0_0.read (Elt F) (VS0_0.writes (Elt F) VS0_0.junk (𝓚B hc0 hc1 x0 x1 x2 x3 xs0 xs1).2.1)

/-- Case B's piece for the count accumulator covers it. -/
theorem scover0_B_1 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x1.Idx) :
    ∃ pc ∈ (𝓚B hc0 hc1 x0 x1 x2 x3 xs0 xs1).2.2.1, y ∈ pc.1.set :=
  View.cover_of_tiledL (𝓚B hc0 hc1 x0 x1 x2 x3 xs0 xs1).2.2.1 S512x1.size (by sl_kernel_rfl) y

/-- What case B leaves in the count accumulator. -/
def sout0_B_1 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x1 .f32 :=
  VS0_1.read (Elt F) (VS0_1.writes (Elt F) VS0_1.junk (𝓚B hc0 hc1 x0 x1 x2 x3 xs0 xs1).2.2.1)

/-- Case C's piece for window 4 (the result, one whole-block store) covers its block. -/
theorem cover0_C_4 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x2.Idx) :
    ∃ pc ∈ (𝓚C hc0 hc1 x0 x1 x2 x3 xs0 xs1).1, y ∈ pc.1.set :=
  View.cover_of_tiledL (𝓚C hc0 hc1 x0 x1 x2 x3 xs0 xs1).1 S512x2.size (by sl_kernel_rfl) y

/-- What case C leaves in window 4's staging buffer: its piece read back. -/
def out0_C_4 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x2 .f32 :=
  VO0_4.read (Elt F) (VO0_4.writes (Elt F) VO0_4.junk (𝓚C hc0 hc1 x0 x1 x2 x3 xs0 xs1).1)

/-- Case C's piece for the sum accumulator covers it. -/
theorem scover0_C_0 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x64.Idx) :
    ∃ pc ∈ (𝓚C hc0 hc1 x0 x1 x2 x3 xs0 xs1).2.1, y ∈ pc.1.set :=
  View.cover_of_tiledL (𝓚C hc0 hc1 x0 x1 x2 x3 xs0 xs1).2.1 S512x64.size (by sl_kernel_rfl) y

/-- What case C leaves in the sum accumulator. -/
def sout0_C_0 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x64 .f32 :=
  VS0_0.read (Elt F) (VS0_0.writes (Elt F) VS0_0.junk (𝓚C hc0 hc1 x0 x1 x2 x3 xs0 xs1).2.1)

/-- Case C's piece for the count accumulator covers it. -/
theorem scover0_C_1 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x1.Idx) :
    ∃ pc ∈ (𝓚C hc0 hc1 x0 x1 x2 x3 xs0 xs1).2.2.1, y ∈ pc.1.set :=
  View.cover_of_tiledL (𝓚C hc0 hc1 x0 x1 x2 x3 xs0 xs1).2.2.1 S512x1.size (by sl_kernel_rfl) y

/-- What case C leaves in the count accumulator. -/
def sout0_C_1 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x1 .f32 :=
  VS0_1.read (Elt F) (VS0_1.writes (Elt F) VS0_1.junk (𝓚C hc0 hc1 x0 x1 x2 x3 xs0 xs1).2.2.1)

end Cases

/-! ## The three contents at a point of the grid

Each case's contents at point `t`: the case's terms at the point's coordinates, at the staging memrefs the pipeline
passes there and the two accumulators, at the four input blocks of the point — a triple (window 4, sum accumulator,
count accumulator). Cases B and C read what the accumulators held before the point. -/

/-- Case A at point `t`. -/
def outs0_A (c : Dev nD) (t : Fin cfg0.N) (hc0 : cond0_0 (grid0.coords t)) (hc1 : ¬cond0_1 (grid0.coords t)) :
    Vec F S512x2 .f32 × Vec F S512x64 .f32 × Vec F S512x1 .f32 :=
  (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t))

/-- Case B at point `t`, over what the accumulators held. -/
def outs0_B (c : Dev nD) (t : Fin cfg0.N) (hc0 : ¬cond0_0 (grid0.coords t)) (hc1 : ¬cond0_1 (grid0.coords t))
    (xs0 : Vec F S512x64 .f32) (xs1 : Vec F S512x1 .f32) :
    Vec F S512x2 .f32 × Vec F S512x64 .f32 × Vec F S512x1 .f32 :=
  (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1)

/-- Case C at point `t`, over what the accumulators held. -/
def outs0_C (c : Dev nD) (t : Fin cfg0.N) (hc0 : ¬cond0_0 (grid0.coords t)) (hc1 : cond0_1 (grid0.coords t))
    (xs0 : Vec F S512x64 .f32) (xs1 : Vec F S512x1 .f32) :
    Vec F S512x2 .f32 × Vec F S512x64 .f32 × Vec F S512x1 .f32 :=
  (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1,
   sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1,
   sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1)

/-! ## What the buffers hold after each point -/

/-- THE ACCUMULATION. What window 4's staging buffer and the two accumulators hold after the body at position `n`
    (a triple: window 4, sum accumulator, count accumulator): the case the closed forms of the two conditions select
    at `n`, cases B and C over what this leaves in the accumulators at `n - 1`. An assignment of the conditions no
    point meets is no case. -/
def outsAt0 (c : Dev nD) : (n : ℕ) → n < cfg0.N → Vec F S512x2 .f32 × Vec F S512x64 .f32 × Vec F S512x1 .f32
  | 0, hn => outs0_A m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 40 = 0 then
      if h1 : (n + 1) % 40 = 39 then
        False.elim (by omega)
      else
        outs0_A m c ⟨n + 1, hn⟩ ((hcond0_0 ⟨n + 1, hn⟩).mpr h0) (fun h => h1 ((hcond0_1 ⟨n + 1, hn⟩).mp h))
    else
      if h1 : (n + 1) % 40 = 39 then
        outs0_C m c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2
      else
        outs0_B m c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2

/-- `outsAt0` at a point of case A: that case's contents. -/
theorem outsAt0_A (c : Dev nD) (t : Fin cfg0.N) (h0 : t.val % 40 = 0) (h1 : ¬t.val % 40 = 39) :
    outsAt0 m c t.val t.isLt = outs0_A m c t ((hcond0_0 t).mpr h0) (fun h => h1 ((hcond0_1 t).mp h)) := by
  obtain ⟨n, hn⟩ := t
  cases n with
  | zero => exact rfl
  | succ n => exact (dif_pos h0).trans ((dif_neg h1).trans rfl)

/-- `outsAt0` at a point of case B: that case's contents, over what the point before left in the accumulators. -/
theorem outsAt0_B (c : Dev nD) (t : Fin cfg0.N) (h0 : ¬t.val % 40 = 0) (h1 : ¬t.val % 40 = 39) :
    outsAt0 m c t.val t.isLt = outs0_B m c t (fun h => h0 ((hcond0_0 t).mp h)) (fun h => h1 ((hcond0_1 t).mp h))
      (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the accumulators. -/
theorem outsAt0_C (c : Dev nD) (t : Fin cfg0.N) (h0 : ¬t.val % 40 = 0) (h1 : t.val % 40 = 39) :
    outsAt0 m c t.val t.isLt = outs0_C m c t (fun h => h0 ((hcond0_0 t).mp h)) ((hcond0_1 t).mpr h1)
      (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (both accumulators at anything);
    afterwards both accumulators at what the point before left in them (`outsAt0`'s second and third components),
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulators at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and window 4's at `outsAt0`'s first component; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents (the record projected, `V` never unfolded). -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the library's body obligation's precondition, the five windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The four inputs' memrefs hold their blocks (`before0_W`) and are handed back as they were
    (no input window is ever idle). The closed forms of the two conditions say which case the point is in. At the first
    point (case A) the invariant is the launch's, both accumulators at anything; at a later point (cases B, C) it names
    what the point before left in them, which is what the case's run reads. The run hands each accumulator back at its
    pieces written, and since the pieces cover it that is the case's contents, whatever was underneath: the invariant
    after the point. Window 4 is idle and not written back in cases A and B (handed back untouched); in case C its piece
    covers the block, so the buffer holds the case's contents. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 40 = 0
  · by_cases h1 : t.val % 40 = 39
    · exfalso; omega
    · -- case A: the first point
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold outs0_A sout0_A_0 sout0_A_1; (try dsimp only)
      have hz : t.val = 0 := by omega
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 40 = 39
    · -- case C: the last point
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold outs0_C out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · -- case B: a point strictly between the first and the last
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold outs0_B sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes from
    the proof data and every other unscoped buffer as the region found it (the host lines all come before the region). -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME: the program runs, and its ten argument arrays end as they began — at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Frm

end
-- ==== Proof.KI.Runs.lean ====
import proofs.«415698_j88648124990150_2_alg».proof.Proof.Gen.KernelIdeal.Launch
import proofs.«415698_j88648124990150_2_alg».proof.Proof.Gen.KernelIdeal.Skeleton
import proofs.«415698_j88648124990150_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- What core `c`'s TensorCore buffers hold on entry to the pooling region: the launch contents run through the nine
    host stretches (the graph convolution, the two paddings, the two reshapes). -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- `V0` at one TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is the nine host stretches followed by the pooling region and nothing else (`main_chain`), so the region is
    entered at `V`; for any variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-! ## The windows' blocks -/

/-- The block of window `w` that grid point `t` addresses, as a function of the index inside the block, taken from the
    entry contents `V` of the window's array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Before the body runs at ANY point, input window 0's staging buffer already holds that point's block `iblk m c 0 t`:
    either the pipeline has just fetched it, or the block index did not change since the last fetch and the body (`hafter`)
    left the buffer alone. `hA`: the proof data's array for the window is the entry contents. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Before the body runs at ANY point, input window 1's staging buffer already holds that point's block `iblk m c 1 t`:
    either the pipeline has just fetched it, or the block index did not change since the last fetch and the body (`hafter`)
    left the buffer alone. `hA`: the proof data's array for the window is the entry contents. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Before the body runs at ANY point, input window 2's staging buffer already holds that point's block `iblk m c 2 t`:
    either the pipeline has just fetched it, or the block index did not change since the last fetch and the body (`hafter`)
    left the buffer alone. `hA`: the proof data's array for the window is the entry contents. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Before the body runs at ANY point, input window 3's staging buffer already holds that point's block `iblk m c 3 t`:
    either the pipeline has just fetched it, or the block index did not change since the last fetch and the body (`hafter`)
    left the buffer alone. `hA`: the proof data's array for the window is the entry contents. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditionals of the body -/

/-- The condition of the body's first conditional (`k0_h1`), from the grid coordinates: the point is the first. -/
abbrev cond0_0 (i : grid0.Coords) : Prop := (Scalar.cmpi .ne (Scalar.extui (Scalar.cmpi .eq (BitVec.ofNat 32 (i 0).val) 0#32)) 0#32) = 1#1
/-- The condition of the body's second conditional (`k0_h2`): the point is the last. -/
abbrev cond0_1 (i : grid0.Coords) : Prop := k0_cond2 i = 1#1

/-- The first conditional is taken at the first point only — decided over the grid. -/
theorem hcond0_0 : ∀ t : Fin cfg0.N, cond0_0 (grid0.coords t) ↔ t.val % 40 = 0 :=
  (by decide +kernel : ∀ t : Fin grid0.N, cond0_0 (grid0.coords t) ↔ t.val % 40 = 0)
/-- The second conditional is taken at the last point only — decided over the grid. -/
theorem hcond0_1 : ∀ t : Fin cfg0.N, cond0_1 (grid0.coords t) ↔ t.val % 40 = 39 :=
  (by decide +kernel : ∀ t : Fin grid0.N, cond0_1 (grid0.coords t) ↔ t.val % 40 = 39)

/-! ## Which windows are idle where -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- At the first point the printed configuration calls output 4 idle: the body stores nothing into it there. -/
theorem idleAt0_4_A : ∀ t : Fin cfg0.N, cond0_0 (grid0.coords t) → ¬cond0_1 (grid0.coords t) → cfg0.idle 4 (grid0.coords t) = true := by decide +kernel
/-- At the first point the pipeline does not write output 4's block back. -/
theorem noFlush0_4_A : ∀ t : Fin cfg0.N, cond0_0 (grid0.coords t) → ¬cond0_1 (grid0.coords t) → (cfg0.win 4).flush t = false := by decide +kernel
/-- At the points strictly between the first and the last output 4 is idle as well. -/
theorem idleAt0_4_B : ∀ t : Fin cfg0.N, ¬cond0_0 (grid0.coords t) → ¬cond0_1 (grid0.coords t) → cfg0.idle 4 (grid0.coords t) = true := by decide +kernel
/-- And is not written back there. -/
theorem noFlush0_4_B : ∀ t : Fin cfg0.N, ¬cond0_0 (grid0.coords t) → ¬cond0_1 (grid0.coords t) → (cfg0.win 4).flush t = false := by decide +kernel
/-- At the last point output 4 is live: the body stores the pooled head into it. -/
theorem liveAt0_4_C : ∀ t : Fin cfg0.N, ¬cond0_0 (grid0.coords t) → cond0_1 (grid0.coords t) → cfg0.idle 4 (grid0.coords t) = false := by decide +kernel

/-! ## Names for the memrefs the body is called with -/

/-- Output window 4 has one staging buffer; its contents after a point are read through this view. -/
abbrev VO0_4 : View sig .tc .vmem S512x2 .f32 := (Memref.whole cc0_stg4_0 : Memref sig .tc .vmem S512x2 .f32).view
/-- For each window, the staging memref in use at point `t` (written the way `bodyAt0` passes it) and the fact that it is a whole buffer. -/
abbrev ms0_0 (t : Fin cfg0.N) : Memref sig .tc .vmem S2560x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2560 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2 .f32 := win0_4.stage (cfg0.slots t 4)
abbrev hs0_4 (t : Fin cfg0.N) : (ms0_4 t).IsWhole := hstage0_4 ((cfg0.slots t 4).cast nbuf0_4)
/-- The two scratch operands as memrefs: each is a whole scoped buffer. -/
abbrev scM0_0 : Memref sig .tc .vmem S512x64 .f32 := Memref.whole cc0_scratch0
abbrev scM0_1 : Memref sig .tc .vmem S512x1 .f32 := Memref.whole cc0_scratch1
/-- The two scratch operands the kernel carries between points (the running sums and the running counts), as views:
    what they hold is stated through them. -/
abbrev VS0_0 : View sig .tc .vmem S512x64 .f32 := scM0_0.view
abbrev VS0_1 : View sig .tc .vmem S512x1 .f32 := scM0_1.view

/-- The invariant the region starts from, spelled out for this kernel: both scratch memrefs owned at unspecified contents,
    and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Frm

end
-- ==== Proof.KI.RunA.lean ====
import proofs.«415698_j88648124990150_2_alg».proof.Proof.KI.Runs

-- membership in a rectangle of these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the symbolic run below elaborates to a big term; the default heartbeat budget is too small for closing the definition
set_option maxHeartbeats 1000000 in
/-- What the body's stores leave in output window 4's staging memref and in the two scratch operands, as pieces (last
    first), IN CASE A (the first conditional taken, the second not: point 0), WITH the proof that on whole memrefs — the four inputs' at their contents
    `x0 … x3`, output 4's, which the case leaves idle, at contents `xi4` handed back untouched, the two scratch operands at anything (the body stores zeros over them before it reads them) — the body runs to the continuation holding the inputs' as they were and each scratch
    operand with its pieces written (`LS0`: the running sums, `LS1`: the running counts). The printed function is its
    skeleton, which the symbolic run steps through, each conditional decided by the case's hypotheses; the piece lists
    are what that run finds when the buffers are handed to the continuation. -/
noncomputable def kernelRun0_A (c : Dev nD) (i : grid0.Coords) (arg1 : Memref sig .tc .vmem S2560x64 .f32) (harg1 : arg1.IsWhole) (arg2 : Memref sig .tc .vmem S1x2560 .i32) (harg2 : arg2.IsWhole) (arg3 : Memref sig .tc .vmem S64x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x64 .f32) (harg6 : arg6.IsWhole) (arg7 : Memref sig .tc .vmem S512x1 .f32) (harg7 : arg7.IsWhole) (hc0 : cond0_0 i) (hc1 : ¬cond0_1 i)
    (x0 : Vec F S2560x64 .f32) (x1 : Vec F S1x2560 .i32) (x2 : Vec F S64x2 .f32) (x3 : Vec F S1x2 .f32) :
    Σ' (L4 : List (View.Piece (Elt F) S512x2 .f32)) (LS0 : List (View.Piece (Elt F) S512x64 .f32)), { LS1 : List (View.Piece (Elt F) S512x1 .f32) //
      ∀ (xi4 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨[], ?_, ?_, fun xi4 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Frm

end
-- ==== Proof.KI.RunB.lean ====
import proofs.«415698_j88648124990150_2_alg».proof.Proof.KI.RunA

-- membership in a rectangle of these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the symbolic run below elaborates to a big term; the default heartbeat budget is too small for closing the definition
set_option maxHeartbeats 1000000 in
/-- What the body's stores leave in output window 4's staging memref and in the two scratch operands, as pieces (last
    first), IN CASE B (neither conditional taken: points 1 to 38), WITH the proof that on whole memrefs — the four inputs' at their contents
    `x0 … x3`, output 4's, which the case leaves idle, at contents `xi4` handed back untouched, the two scratch operands at what the point before left (`xs0`, `xs1`) — the body runs to the continuation holding the inputs' as they were and each scratch
    operand with its pieces written (`LS0`: the running sums, `LS1`: the running counts). The printed function is its
    skeleton, which the symbolic run steps through, each conditional decided by the case's hypotheses; the piece lists
    are what that run finds when the buffers are handed to the continuation. -/
noncomputable def kernelRun0_B (c : Dev nD) (i : grid0.Coords) (arg1 : Memref sig .tc .vmem S2560x64 .f32) (harg1 : arg1.IsWhole) (arg2 : Memref sig .tc .vmem S1x2560 .i32) (harg2 : arg2.IsWhole) (arg3 : Memref sig .tc .vmem S64x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x64 .f32) (harg6 : arg6.IsWhole) (arg7 : Memref sig .tc .vmem S512x1 .f32) (harg7 : arg7.IsWhole) (hc0 : ¬cond0_0 i) (hc1 : ¬cond0_1 i)
    (x0 : Vec F S2560x64 .f32) (x1 : Vec F S1x2560 .i32) (x2 : Vec F S64x2 .f32) (x3 : Vec F S1x2 .f32) (xs0 : Vec F S512x64 .f32) (xs1 : Vec F S512x1 .f32) :
    Σ' (L4 : List (View.Piece (Elt F) S512x2 .f32)) (LS0 : List (View.Piece (Elt F) S512x64 .f32)), { LS1 : List (View.Piece (Elt F) S512x1 .f32) //
      ∀ (xi4 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨[], ?_, ?_, fun xi4 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Frm

end
-- ==== Proof.KI.RunC.lean ====
import proofs.«415698_j88648124990150_2_alg».proof.Proof.KI.RunB

-- membership in a rectangle of these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- the symbolic run below elaborates to a big term; the default heartbeat budget is too small for closing the definition
set_option maxHeartbeats 1000000 in
/-- What the body's stores leave in output window 4's staging memref and in the two scratch operands, as pieces (last
    first), IN CASE C (the second conditional taken, the first not: point 39), WITH the proof that on whole memrefs — the four inputs' at their contents
    `x0 … x3`, output 4's at anything (the body loads it, uses nothing of the value, and stores it whole), the two scratch operands at what the point before left (`xs0`, `xs1`) — the body runs to the continuation holding the inputs' as they were, output 4's buffer with its pieces written (`L4`) and each scratch
    operand with its pieces written (`LS0`: the running sums, `LS1`: the running counts). The printed function is its
    skeleton, which the symbolic run steps through, each conditional decided by the case's hypotheses; the piece lists
    are what that run finds when the buffers are handed to the continuation. -/
noncomputable def kernelRun0_C (c : Dev nD) (i : grid0.Coords) (arg1 : Memref sig .tc .vmem S2560x64 .f32) (harg1 : arg1.IsWhole) (arg2 : Memref sig .tc .vmem S1x2560 .i32) (harg2 : arg2.IsWhole) (arg3 : Memref sig .tc .vmem S64x2 .f32) (harg3 : arg3.IsWhole) (arg4 : Memref sig .tc .vmem S1x2 .f32) (harg4 : arg4.IsWhole) (arg5 : Memref sig .tc .vmem S512x2 .f32) (harg5 : arg5.IsWhole) (arg6 : Memref sig .tc .vmem S512x64 .f32) (harg6 : arg6.IsWhole) (arg7 : Memref sig .tc .vmem S512x1 .f32) (harg7 : arg7.IsWhole) (hc0 : ¬cond0_0 i) (hc1 : cond0_1 i)
    (x0 : Vec F S2560x64 .f32) (x1 : Vec F S1x2560 .i32) (x2 : Vec F S64x2 .f32) (x3 : Vec F S1x2 .f32) (xs0 : Vec F S512x64 .f32) (xs1 : Vec F S512x1 .f32) :
    Σ' (L4 : List (View.Piece (Elt F) S512x2 .f32)) (LS0 : List (View.Piece (Elt F) S512x64 .f32)), { LS1 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__pool_kernel i arg1 harg1 arg2 harg2 arg3 harg3 arg4 harg4 arg5 harg5 arg6 harg6 arg7 harg7) K } := by
  refine ⟨?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Frm

end
-- ==== Proof.KI.FrameOf.lean ====
import proofs.«415698_j88648124990150_2_alg».proof.Proof.KI.Runs

-- membership in a rectangle of these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The ten arguments on entry to the region, and the frame claim -/

/-- None of the 104 host operations has `main_arg0` as its result buffer, so on entry to the region it still holds its launch contents. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg1` as its result buffer, so on entry to the region it still holds its launch contents. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg2` as its result buffer, so on entry to the region it still holds its launch contents. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg3` as its result buffer, so on entry to the region it still holds its launch contents. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg4` as its result buffer, so on entry to the region it still holds its launch contents. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg5` as its result buffer, so on entry to the region it still holds its launch contents. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg6` as its result buffer, so on entry to the region it still holds its launch contents. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg7` as its result buffer, so on entry to the region it still holds its launch contents. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg8` as its result buffer, so on entry to the region it still holds its launch contents. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the 104 host operations has `main_arg9` as its result buffer, so on entry to the region it still holds its launch contents. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- From a run of @main that ends in the pipeline's frame post (stated at the entry contents `V`, for proof data whose
    arrays are those contents: `hA`) to the claim that all ten argument arrays end as launched. `main_arg8` (the head's
    weight) is window 2's array: an input window's array ends at its entry contents. The other nine arguments are arrays of no
    window, and the post says such buffers end at `V`. In both cases `V` at an argument is its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 2).trans (((dats 0 c).arrAt_in 2 rfl _).trans ((hA c 2).trans (V_main_arg8 m c))),
      ((h c).2 main_arg9 (Pipeline.mem_restRefs_of main_arg9 (by decide) (by decide))).trans (V_main_arg9 m c)⟩) h

end Cert.KernelIdeal.Frm

end
-- ==== Proof.KI.Frame.lean ====
/-
  The frame of the program, over its kernel body's three runs.

  The grid has 40 points; the body carries two accumulators between them (a [512,64] sum and a [512,1] count), zeroes
  both at the first point, adds the tile's contribution at every point, and at the last point stores the result into
  the one output window, which is idle (not written back) everywhere else. This module states, case by case and then
  point by point, what the output window's buffer and the two accumulators hold after the body (`outsAt0`), gives the
  pipeline's proof data over it (`dats`), proves the body obligation at a generic point (`sound_body`) from the three
  runs, and concludes the run (`run_main`) and the frame claim's post (`frame`), at any float model `F`.
-/
import proofs.«415698_j88648124990150_2_alg».proof.Proof.KI.RunC
import proofs.«415698_j88648124990150_2_alg».proof.Proof.KI.FrameOf

-- membership in a rectangle of these extents is decided structurally, one step per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, on any staging memrefs

The kernel body has two conditionals on the grid coordinate: the first (taken at the first point only) stores zeros
over the whole of both accumulators; the second (taken at the last point only) stores the result into window 4.
Between them the body always adds the tile's contribution into both accumulators. So there are three cases:
A (first point), B (the points strictly between) and C (last point). Per case, the body's run gives three piece
lists: window 4's, the sum accumulator's and the count accumulator's. -/

section Cases

variable (c : Dev nD) (i : grid0.Coords)
  (arg1 : Memref sig .tc .vmem S2560x64 .f32) (harg1 : arg1.IsWhole)
  (arg2 : Memref sig .tc .vmem S1x2560 .i32) (harg2 : arg2.IsWhole)
  (arg3 : Memref sig .tc .vmem S64x2 .f32) (harg3 : arg3.IsWhole)
  (arg4 : Memref sig .tc .vmem S1x2 .f32) (harg4 : arg4.IsWhole)
  (arg5 : Memref sig .tc .vmem S512x2 .f32) (harg5 : arg5.IsWhole)
  (arg6 : Memref sig .tc .vmem S512x64 .f32) (harg6 : arg6.IsWhole)
  (arg7 : Memref sig .tc .vmem S512x1 .f32) (harg7 : arg7.IsWhole)

-- each case's run at the section's memrefs (its remaining arguments: the two conditions, the four input blocks,
-- and in cases B and C what the two accumulators held)
local notation "𝓚A" => kernelRun0_A c i arg1 harg1 arg2 harg2 arg3 harg3 arg4 harg4 arg5 harg5 arg6 harg6 arg7 harg7
local notation "𝓚B" => kernelRun0_B c i arg1 harg1 arg2 harg2 arg3 harg3 arg4 harg4 arg5 harg5 arg6 harg6 arg7 harg7
local notation "𝓚C" => kernelRun0_C c i arg1 harg1 arg2 harg2 arg3 harg3 arg4 harg4 arg5 harg5 arg6 harg6 arg7 harg7

/-- Case A stores nothing into window 4 (the window is idle at the first point and not written back there): no
    pieces, so this is a placeholder that nothing consults. -/
def out0_A_4 (hc0 : cond0_0 i) (hc1 : ¬cond0_1 i)
    (x0 : Vec F S2560x64 .f32) (x1 : Vec F S1x2560 .i32) (x2 : Vec F S64x2 .f32) (x3 : Vec F S1x2 .f32) : Vec F S512x2 .f32 :=
  VO0_4.read (Elt F) (VO0_4.writes (Elt F) VO0_4.junk (𝓚A hc0 hc1 x0 x1 x2 x3).1)

/-- Case A's pieces for the sum accumulator cover it: the zero fill and the tile's sum are both whole-buffer stores. -/
theorem scover0_A_0 (hc0 : cond0_0 i) (hc1 : ¬cond0_1 i)
    (x0 : Vec F S2560x64 .f32) (x1 : Vec F S1x2560 .i32) (x2 : Vec F S64x2 .f32) (x3 : Vec F S1x2 .f32) (y : S512x64.Idx) :
    ∃ pc ∈ (𝓚A hc0 hc1 x0 x1 x2 x3).2.1, y ∈ pc.1.set :=
  View.cover_of_tiledL (𝓚A hc0 hc1 x0 x1 x2 x3).2.1 S512x64.size (by sl_kernel_rfl) y

/-- What case A leaves in the sum accumulator: its pieces read back (over contents that do not matter, by the cover). -/
def sout0_A_0 (hc0 : cond0_0 i) (hc1 : ¬cond0_1 i)
    (x0 : Vec F S2560x64 .f32) (x1 : Vec F S1x2560 .i32) (x2 : Vec F S64x2 .f32) (x3 : Vec F S1x2 .f32) : Vec F S512x64 .f32 :=
  VS0_0.read (Elt F) (VS0_0.writes (Elt F) VS0_0.junk (𝓚A hc0 hc1 x0 x1 x2 x3).2.1)

/-- Case A's pieces for the count accumulator cover it. -/
theorem scover0_A_1 (hc0 : cond0_0 i) (hc1 : ¬cond0_1 i)
    (x0 : Vec F S2560x64 .f32) (x1 : Vec F S1x2560 .i32) (x2 : Vec F S64x2 .f32) (x3 : Vec F S1x2 .f32) (y : S512x1.Idx) :
    ∃ pc ∈ (𝓚A hc0 hc1 x0 x1 x2 x3).2.2.1, y ∈ pc.1.set :=
  View.cover_of_tiledL (𝓚A hc0 hc1 x0 x1 x2 x3).2.2.1 S512x1.size (by sl_kernel_rfl) y

/-- What case A leaves in the count accumulator. -/
def sout0_A_1 (hc0 : cond0_0 i) (hc1 : ¬cond0_1 i)
    (x0 : Vec F S2560x64 .f32) (x1 : Vec F S1x2560 .i32) (x2 : Vec F S64x2 .f32) (x3 : Vec F S1x2 .f32) : Vec F S512x1 .f32 :=
  VS0_1.read (Elt F) (VS0_1.writes (Elt F) VS0_1.junk (𝓚A hc0 hc1 x0 x1 x2 x3).2.2.1)

/-- Case B stores nothing into window 4 either: a placeholder, as in case A. -/
def out0_B_4 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x2 .f32 :=
  VO0_4.read (Elt F) (VO0_4.writes (Elt F) VO0_4.junk (𝓚B hc0 hc1 x0 x1 x2 x3 xs0 xs1).1)

/-- Case B's piece for the sum accumulator (what it held plus the tile's sum, one whole-buffer store) covers it. -/
theorem scover0_B_0 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x64.Idx) :
    ∃ pc ∈ (𝓚B hc0 hc1 x0 x1 x2 x3 xs0 xs1).2.1, y ∈ pc.1.set :=
  View.cover_of_tiledL (𝓚B hc0 hc1 x0 x1 x2 x3 xs0 xs1).2.1 S512x64.size (by sl_kernel_rfl) y

/-- What case B leaves in the sum accumulator. -/
def sout0_B_0 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x64 .f32 :=
  VS0_0.read (Elt F) (VS0_0.writes (Elt F) VS0_0.junk (𝓚B hc0 hc1 x0 x1 x2 x3 xs0 xs1).2.1)

/-- Case B's piece for the count accumulator covers it. -/
theorem scover0_B_1 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x1.Idx) :
    ∃ pc ∈ (𝓚B hc0 hc1 x0 x1 x2 x3 xs0 xs1).2.2.1, y ∈ pc.1.set :=
  View.cover_of_tiledL (𝓚B hc0 hc1 x0 x1 x2 x3 xs0 xs1).2.2.1 S512x1.size (by sl_kernel_rfl) y

/-- What case B leaves in the count accumulator. -/
def sout0_B_1 (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x1 .f32 :=
  VS0_1.read (Elt F) (VS0_1.writes (Elt F) VS0_1.junk (𝓚B hc0 hc1 x0 x1 x2 x3 xs0 xs1).2.2.1)

/-- Case C's piece for window 4 (the result, one whole-block store) covers its block. -/
theorem cover0_C_4 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x2.Idx) :
    ∃ pc ∈ (𝓚C hc0 hc1 x0 x1 x2 x3 xs0 xs1).1, y ∈ pc.1.set :=
  View.cover_of_tiledL (𝓚C hc0 hc1 x0 x1 x2 x3 xs0 xs1).1 S512x2.size (by sl_kernel_rfl) y

/-- What case C leaves in window 4's staging buffer: its piece read back. -/
def out0_C_4 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x2 .f32 :=
  VO0_4.read (Elt F) (VO0_4.writes (Elt F) VO0_4.junk (𝓚C hc0 hc1 x0 x1 x2 x3 xs0 xs1).1)

/-- Case C's piece for the sum accumulator covers it. -/
theorem scover0_C_0 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x64.Idx) :
    ∃ pc ∈ (𝓚C hc0 hc1 x0 x1 x2 x3 xs0 xs1).2.1, y ∈ pc.1.set :=
  View.cover_of_tiledL (𝓚C hc0 hc1 x0 x1 x2 x3 xs0 xs1).2.1 S512x64.size (by sl_kernel_rfl) y

/-- What case C leaves in the sum accumulator. -/
def sout0_C_0 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x64 .f32 :=
  VS0_0.read (Elt F) (VS0_0.writes (Elt F) VS0_0.junk (𝓚C hc0 hc1 x0 x1 x2 x3 xs0 xs1).2.1)

/-- Case C's piece for the count accumulator covers it. -/
theorem scover0_C_1 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) (y : S512x1.Idx) :
    ∃ pc ∈ (𝓚C hc0 hc1 x0 x1 x2 x3 xs0 xs1).2.2.1, y ∈ pc.1.set :=
  View.cover_of_tiledL (𝓚C hc0 hc1 x0 x1 x2 x3 xs0 xs1).2.2.1 S512x1.size (by sl_kernel_rfl) y

/-- What case C leaves in the count accumulator. -/
def sout0_C_1 (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) : Vec F S512x1 .f32 :=
  VS0_1.read (Elt F) (VS0_1.writes (Elt F) VS0_1.junk (𝓚C hc0 hc1 x0 x1 x2 x3 xs0 xs1).2.2.1)

end Cases

/-! ## The three contents at a point of the grid

Each case's contents at point `t`: the case's terms at the point's coordinates, at the staging memrefs the pipeline
passes there and the two accumulators, at the four input blocks of the point — a triple (window 4, sum accumulator,
count accumulator). Cases B and C read what the accumulators held before the point. -/

/-- Case A at point `t`. -/
def outs0_A (c : Dev nD) (t : Fin cfg0.N) (hc0 : cond0_0 (grid0.coords t)) (hc1 : ¬cond0_1 (grid0.coords t)) :
    Vec F S512x2 .f32 × Vec F S512x64 .f32 × Vec F S512x1 .f32 :=
  (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t))

/-- Case B at point `t`, over what the accumulators held. -/
def outs0_B (c : Dev nD) (t : Fin cfg0.N) (hc0 : ¬cond0_0 (grid0.coords t)) (hc1 : ¬cond0_1 (grid0.coords t))
    (xs0 : Vec F S512x64 .f32) (xs1 : Vec F S512x1 .f32) :
    Vec F S512x2 .f32 × Vec F S512x64 .f32 × Vec F S512x1 .f32 :=
  (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1)

/-- Case C at point `t`, over what the accumulators held. -/
def outs0_C (c : Dev nD) (t : Fin cfg0.N) (hc0 : ¬cond0_0 (grid0.coords t)) (hc1 : cond0_1 (grid0.coords t))
    (xs0 : Vec F S512x64 .f32) (xs1 : Vec F S512x1 .f32) :
    Vec F S512x2 .f32 × Vec F S512x64 .f32 × Vec F S512x1 .f32 :=
  (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1,
   sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1,
   sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 (iblk m c 0 t) (iblk m c 1 t) (iblk m c 2 t) (iblk m c 3 t) xs0 xs1)

/-! ## What the buffers hold after each point -/

/-- THE ACCUMULATION. What window 4's staging buffer and the two accumulators hold after the body at position `n`
    (a triple: window 4, sum accumulator, count accumulator): the case the closed forms of the two conditions select
    at `n`, cases B and C over what this leaves in the accumulators at `n - 1`. An assignment of the conditions no
    point meets is no case. -/
def outsAt0 (c : Dev nD) : (n : ℕ) → n < cfg0.N → Vec F S512x2 .f32 × Vec F S512x64 .f32 × Vec F S512x1 .f32
  | 0, hn => outs0_A m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 40 = 0 then
      if h1 : (n + 1) % 40 = 39 then
        False.elim (by omega)
      else
        outs0_A m c ⟨n + 1, hn⟩ ((hcond0_0 ⟨n + 1, hn⟩).mpr h0) (fun h => h1 ((hcond0_1 ⟨n + 1, hn⟩).mp h))
    else
      if h1 : (n + 1) % 40 = 39 then
        outs0_C m c ⟨n + 1, hn⟩ (fun h => h0 ((hcond0_0 ⟨n + 1, hn⟩).mp h)) ((hcond0_1 ⟨n + 1, hn⟩).mpr h1) (outsAt0 c n (Nat.lt_of_succ_lt hn)).2.1 (outsAt0 c n (Nat.lt_of_succ_lt hn)).2.2
      else
        outs0_B m c ⟨n + 1, hn⟩ (fun h => h0 ((hcond0_0 ⟨n + 1, hn⟩).mp h)) (fun h => h1 ((hcond0_1 ⟨n + 1, hn⟩).mp h)) (outsAt0 c n (Nat.lt_of_succ_lt hn)).2.1 (outsAt0 c n (Nat.lt_of_succ_lt hn)).2.2

/-- `outsAt0` at a point of case A: that case's contents. -/
theorem outsAt0_A (c : Dev nD) (t : Fin cfg0.N) (h0 : t.val % 40 = 0) (h1 : ¬t.val % 40 = 39) :
    outsAt0 m c t.val t.isLt = outs0_A m c t ((hcond0_0 t).mpr h0) (fun h => h1 ((hcond0_1 t).mp h)) := by
  obtain ⟨n, hn⟩ := t
  cases n with
  | zero => exact rfl
  | succ n => exact (dif_pos h0).trans ((dif_neg h1).trans rfl)

/-- `outsAt0` at a point of case B: that case's contents, over what the point before left in the accumulators. -/
theorem outsAt0_B (c : Dev nD) (t : Fin cfg0.N) (h0 : ¬t.val % 40 = 0) (h1 : ¬t.val % 40 = 39) :
    outsAt0 m c t.val t.isLt = outs0_B m c t (fun h => h0 ((hcond0_0 t).mp h)) (fun h => h1 ((hcond0_1 t).mp h))
      (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the accumulators. -/
theorem outsAt0_C (c : Dev nD) (t : Fin cfg0.N) (h0 : ¬t.val % 40 = 0) (h1 : t.val % 40 = 39) :
    outsAt0 m c t.val t.isLt = outs0_C m c t (fun h => h0 ((hcond0_0 t).mp h)) ((hcond0_1 t).mpr h1)
      (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (both accumulators at anything);
    afterwards both accumulators at what the point before left in them (`outsAt0`'s second and third components),
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulators at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and window 4's at `outsAt0`'s first component; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents (the record projected, `V` never unfolded). -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the library's body obligation's precondition, the five windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The four inputs' memrefs hold their blocks (`before0_W`) and are handed back as they were
    (no input window is ever idle). The closed forms of the two conditions say which case the point is in. At the first
    point (case A) the invariant is the launch's, both accumulators at anything; at a later point (cases B, C) it names
    what the point before left in them, which is what the case's run reads. The run hands each accumulator back at its
    pieces written, and since the pieces cover it that is the case's contents, whatever was underneath: the invariant
    after the point. Window 4 is idle and not written back in cases A and B (handed back untouched); in case C its piece
    covers the block, so the buffer holds the case's contents. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 40 = 0
  · by_cases h1 : t.val % 40 = 39
    · exfalso; omega
    · -- case A: the first point
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold outs0_A sout0_A_0 sout0_A_1; (try dsimp only)
      have hz : t.val = 0 := by omega
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 40 = 39
    · -- case C: the last point
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold outs0_C out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · -- case B: a point strictly between the first and the last
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold outs0_B sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the library computes from
    the proof data and every other unscoped buffer as the region found it (the host lines all come before the region). -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME: the program runs, and its ten argument arrays end as they began — at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Frm

end
-- ==== Proof.KI.Pieces.lean ====
/-
  What each case of the kernel body leaves in its buffers, as values.

  The body keeps two accumulators (a [512,64] sum and a [512,1] count). At the first point it stores zeros over both,
  loads them back and stores the zeros plus the tile's contribution; at every later point it stores what the
  accumulators held plus the tile's contribution; at the last point it also loads both accumulators it has just
  stored and stores the pooled head into the output window.  Each store covers its whole buffer, so a buffer read
  back after the case's stores is the last store's payload.
-/
import proofs.«415698_j88648124990150_2_alg».proof.Proof.KI.RunC
import Idealize.ShloMosaic.Lib.Pipeline.Value
import Idealize.ShloMosaic.Lib.ValueIdx

-- membership in a rectangle of these extents is decided structurally, one step per coordinate of the long axes
set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic Idealize.SL.Sem

variable {F : FTy → Type} [FloatOps F]

/-- The offset of a whole-buffer store or load: zero on both axes. -/
theorem hz : (![0, 0] : Fin 2 → Nat) = fun _ => 0 := funext fun a => by fin_cases a <;> rfl

section Cases

variable (c : Dev nD) (i : grid0.Coords)
  (arg1 : Memref sig .tc .vmem S2560x64 .f32) (harg1 : arg1.IsWhole)
  (arg2 : Memref sig .tc .vmem S1x2560 .i32) (harg2 : arg2.IsWhole)
  (arg3 : Memref sig .tc .vmem S64x2 .f32) (harg3 : arg3.IsWhole)
  (arg4 : Memref sig .tc .vmem S1x2 .f32) (harg4 : arg4.IsWhole)
  (arg5 : Memref sig .tc .vmem S512x2 .f32) (harg5 : arg5.IsWhole)
  (arg6 : Memref sig .tc .vmem S512x64 .f32) (harg6 : arg6.IsWhole)
  (arg7 : Memref sig .tc .vmem S512x1 .f32) (harg7 : arg7.IsWhole)

/-! ## Case A: the first point -/

/-- CASE A, the sums: the zeroed accumulator is loaded back, then the tile's sum is added to it. -/
theorem sout_A_0_eq (hc0 : cond0_0 i) (hc1 : ¬cond0_1 i)
    (x0 : Vec F S2560x64 .f32) (x1 : Vec F S1x2560 .i32) (x2 : Vec F S64x2 .f32) (x3 : Vec F S1x2 .f32) :
    VS0_0.read (Elt F) (VS0_0.writes (Elt F) VS0_0.junk (kernelRun0_A c i arg1 harg1 arg2 harg2 arg3 harg3 arg4 harg4 arg5 harg5 arg6 harg6 arg7 harg7 hc0 hc1 x0 x1 x2 x3).2.1)
      = k0_pay4 x0 x1 (k0_pay1 (F := F)) := by
  rw [View.read_writes_eq_canon _ _ _ (View.cover_of_tiledL _ S512x64.size (by sl_kernel_rfl))]
  unfold kernelRun0_A
  dsimp only
  sl_unfold_words
  rw [View.canon_cons_unit_zero (S := S512x64) hz, View.readCov_unit_zero (S := S512x64) _ hz]
  simp only [View.readAt_eq_ld, harg1.read_unread, harg2.read_unread, harg3.read_unread, harg4.read_unread,
    harg6.read_unread, harg7.read_unread, View.ld_unit_zero (S := S2560x64) hz, View.ld_unit_zero (S := S1x2560) hz,
    View.ld_unit_zero (S := S64x2) hz, View.ld_unit_zero (S := S1x2) hz, View.ld_unit_zero (S := S512x64) hz,
    View.ld_unit_zero (S := S512x1) hz, View.readCov_unit_zero (S := S512x64) _ hz, View.readCov_unit_zero (S := S512x1) _ hz]

/-- CASE A, the counts: the zeroed accumulator is loaded back, then the tile's counts are added to it. -/
theorem sout_A_1_eq (hc0 : cond0_0 i) (hc1 : ¬cond0_1 i)
    (x0 : Vec F S2560x64 .f32) (x1 : Vec F S1x2560 .i32) (x2 : Vec F S64x2 .f32) (x3 : Vec F S1x2 .f32) :
    VS0_1.read (Elt F) (VS0_1.writes (Elt F) VS0_1.junk (kernelRun0_A c i arg1 harg1 arg2 harg2 arg3 harg3 arg4 harg4 arg5 harg5 arg6 harg6 arg7 harg7 hc0 hc1 x0 x1 x2 x3).2.2.1)
      = k0_pay5 x1 (k0_pay2 (F := F)) := by
  rw [View.read_writes_eq_canon _ _ _ (View.cover_of_tiledL _ S512x1.size (by sl_kernel_rfl))]
  unfold kernelRun0_A
  dsimp only
  sl_unfold_words
  rw [View.canon_cons_unit_zero (S := S512x1) hz, View.readCov_unit_zero (S := S512x1) _ hz]
  simp only [View.readAt_eq_ld, harg1.read_unread, harg2.read_unread, harg3.read_unread, harg4.read_unread,
    harg6.read_unread, harg7.read_unread, View.ld_unit_zero (S := S2560x64) hz, View.ld_unit_zero (S := S1x2560) hz,
    View.ld_unit_zero (S := S64x2) hz, View.ld_unit_zero (S := S1x2) hz, View.ld_unit_zero (S := S512x64) hz,
    View.ld_unit_zero (S := S512x1) hz, View.readCov_unit_zero (S := S512x64) _ hz, View.readCov_unit_zero (S := S512x1) _ hz]

/-! ## Case B: the points strictly between the first and the last -/

/-- CASE B, the sums: what the accumulator held plus the tile's sum. -/
theorem sout_B_0_eq (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) :
    VS0_0.read (Elt F) (VS0_0.writes (Elt F) VS0_0.junk (kernelRun0_B c i arg1 harg1 arg2 harg2 arg3 harg3 arg4 harg4 arg5 harg5 arg6 harg6 arg7 harg7 hc0 hc1 x0 x1 x2 x3 xs0 xs1).2.1)
      = k0_pay4 x0 x1 xs0 := by
  rw [View.read_writes_eq_canon _ _ _ (View.cover_of_tiledL _ S512x64.size (by sl_kernel_rfl))]
  unfold kernelRun0_B
  dsimp only
  sl_unfold_words
  rw [View.canon_unit_zero hz]
  simp only [View.readAt_eq_ld, harg1.read_unread, harg2.read_unread, harg3.read_unread, harg4.read_unread,
    harg6.read_unread, harg7.read_unread, View.ld_unit_zero (S := S2560x64) hz, View.ld_unit_zero (S := S1x2560) hz,
    View.ld_unit_zero (S := S64x2) hz, View.ld_unit_zero (S := S1x2) hz, View.ld_unit_zero (S := S512x64) hz,
    View.ld_unit_zero (S := S512x1) hz, View.readCov_unit_zero (S := S512x64) _ hz, View.readCov_unit_zero (S := S512x1) _ hz]

/-- CASE B, the counts: what the accumulator held plus the tile's counts. -/
theorem sout_B_1_eq (hc0 : ¬cond0_0 i) (hc1 : ¬cond0_1 i)
    (x0 : Vec F S2560x64 .f32) (x1 : Vec F S1x2560 .i32) (x2 : Vec F S64x2 .f32) (x3 : Vec F S1x2 .f32)
    (xs0 : Vec F S512x64 .f32) (xs1 : Vec F S512x1 .f32) :
    VS0_1.read (Elt F) (VS0_1.writes (Elt F) VS0_1.junk (kernelRun0_B c i arg1 harg1 arg2 harg2 arg3 harg3 arg4 harg4 arg5 harg5 arg6 harg6 arg7 harg7 hc0 hc1 x0 x1 x2 x3 xs0 xs1).2.2.1)
      = k0_pay5 x1 xs1 := by
  rw [View.read_writes_eq_canon _ _ _ (View.cover_of_tiledL _ S512x1.size (by sl_kernel_rfl))]
  unfold kernelRun0_B
  dsimp only
  sl_unfold_words
  rw [View.canon_unit_zero hz]
  simp only [View.readAt_eq_ld, harg1.read_unread, harg2.read_unread, harg3.read_unread, harg4.read_unread,
    harg6.read_unread, harg7.read_unread, View.ld_unit_zero (S := S2560x64) hz, View.ld_unit_zero (S := S1x2560) hz,
    View.ld_unit_zero (S := S64x2) hz, View.ld_unit_zero (S := S1x2) hz, View.ld_unit_zero (S := S512x64) hz,
    View.ld_unit_zero (S := S512x1) hz, View.readCov_unit_zero (S := S512x64) _ hz, View.readCov_unit_zero (S := S512x1) _ hz]

/-! ## Case C: the last point -/

/-- CASE C, the sums: as in case B. -/
theorem sout_C_0_eq (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) :
    VS0_0.read (Elt F) (VS0_0.writes (Elt F) VS0_0.junk (kernelRun0_C c i arg1 harg1 arg2 harg2 arg3 harg3 arg4 harg4 arg5 harg5 arg6 harg6 arg7 harg7 hc0 hc1 x0 x1 x2 x3 xs0 xs1).2.1)
      = k0_pay4 x0 x1 xs0 := by
  rw [View.read_writes_eq_canon _ _ _ (View.cover_of_tiledL _ S512x64.size (by sl_kernel_rfl))]
  unfold kernelRun0_C
  dsimp only
  sl_unfold_words
  rw [View.canon_unit_zero hz]
  simp only [View.readAt_eq_ld, harg1.read_unread, harg2.read_unread, harg3.read_unread, harg4.read_unread,
    harg6.read_unread, harg7.read_unread, View.ld_unit_zero (S := S2560x64) hz, View.ld_unit_zero (S := S1x2560) hz,
    View.ld_unit_zero (S := S64x2) hz, View.ld_unit_zero (S := S1x2) hz, View.ld_unit_zero (S := S512x64) hz,
    View.ld_unit_zero (S := S512x1) hz, View.readCov_unit_zero (S := S512x64) _ hz, View.readCov_unit_zero (S := S512x1) _ hz]

/-- CASE C, the counts: as in case B. -/
theorem sout_C_1_eq (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) :
    VS0_1.read (Elt F) (VS0_1.writes (Elt F) VS0_1.junk (kernelRun0_C c i arg1 harg1 arg2 harg2 arg3 harg3 arg4 harg4 arg5 harg5 arg6 harg6 arg7 harg7 hc0 hc1 x0 x1 x2 x3 xs0 xs1).2.2.1)
      = k0_pay5 x1 xs1 := by
  rw [View.read_writes_eq_canon _ _ _ (View.cover_of_tiledL _ S512x1.size (by sl_kernel_rfl))]
  unfold kernelRun0_C
  dsimp only
  sl_unfold_words
  rw [View.canon_unit_zero hz]
  simp only [View.readAt_eq_ld, harg1.read_unread, harg2.read_unread, harg3.read_unread, harg4.read_unread,
    harg6.read_unread, harg7.read_unread, View.ld_unit_zero (S := S2560x64) hz, View.ld_unit_zero (S := S1x2560) hz,
    View.ld_unit_zero (S := S64x2) hz, View.ld_unit_zero (S := S1x2) hz, View.ld_unit_zero (S := S512x64) hz,
    View.ld_unit_zero (S := S512x1) hz, View.readCov_unit_zero (S := S512x64) _ hz, View.readCov_unit_zero (S := S512x1) _ hz]

/-- CASE C, the output window: the pooled head of the two accumulators the point has just stored (the last conditional
    loads them back), the head's weights and its bias. -/
theorem out_C_4_eq (hc0 : ¬cond0_0 i) (hc1 : cond0_1 i)
    (x0 : Vec F S2560x64 .f32) (x1 : Vec F S1x2560 .i32) (x2 : Vec F S64x2 .f32) (x3 : Vec F S1x2 .f32)
    (xs0 : Vec F S512x64 .f32) (xs1 : Vec F S512x1 .f32) :
    VO0_4.read (Elt F) (VO0_4.writes (Elt F) VO0_4.junk (kernelRun0_C c i arg1 harg1 arg2 harg2 arg3 harg3 arg4 harg4 arg5 harg5 arg6 harg6 arg7 harg7 hc0 hc1 x0 x1 x2 x3 xs0 xs1).1)
      = k0_pay6 (k0_pay5 x1 xs1) (k0_pay4 x0 x1 xs0) x2 x3 := by
  rw [View.read_writes_eq_canon _ _ _ (View.cover_of_tiledL _ S512x2.size (by sl_kernel_rfl))]
  unfold kernelRun0_C
  dsimp only
  sl_unfold_words
  rw [View.canon_unit_zero hz]
  simp only [View.readAt_eq_ld, harg1.read_unread, harg2.read_unread, harg3.read_unread, harg4.read_unread,
    harg6.read_unread, harg7.read_unread, View.ld_unit_zero (S := S2560x64) hz, View.ld_unit_zero (S := S1x2560) hz,
    View.ld_unit_zero (S := S64x2) hz, View.ld_unit_zero (S := S1x2) hz, View.ld_unit_zero (S := S512x64) hz,
    View.ld_unit_zero (S := S512x1) hz, View.readCov_unit_zero (S := S512x64) _ hz, View.readCov_unit_zero (S := S512x1) _ hz]

end Cases

end Cert.KernelIdeal.Val

end
-- ==== Proof.Spec.lean ====
/-
  The mathematics both programs compute, stated once over plain index types.

  A node n carries the token x[n]; its embedding is row x[n] of the table E.  Its pre-activation feature h is
    root(n,h) + Σ_{r<3} agg_r(n,h) / max(cnt_r(n), 1),
  where root(n,h) = Σ_k E[x[n],k]·Wroot[k,h] + bias[h], agg_r(n,h) is the sum, over the edges e that end in n and
  have relation type r, of Σ_k E[x[src e],k]·Wrel[r,k,h], and cnt_r(n) is the number of those edges.
  Graph g pools the rectified features of the nodes whose graph word is g: their sum divided by max(their number, 1);
  the result is that mean times linW plus linb.

  Indices read off the integer arrays are taken modulo the extent they index, so that every definition is total; under
  `InRange` the reduction is the identity.
-/
import Idealize.ShloMosaic.PureOps.Ideal
import Idealize.ShloMosaic.Lib.ValueIdx

noncomputable section

open scoped BigOperators

namespace Cert.Spec

open Idealize.ShloMosaic Idealize.ShloMosaic.ValueIdx

abbrev NODES : Nat := 100000
abbrev EDGES : Nat := 1000000
abbrev VOCAB : Nat := 10000

/-- The float word of 1.0, kept as its pattern (both programs carry this word). -/
abbrev oneF : EReal := Ideal.ofBits .f32 0x3F800000#32

/-- Every token names a row of the table, every edge end names a node, every edge type names a relation. -/
def InRange (x : IVec ⟨1, ![100000]⟩ 32) (ei : IVec ⟨2, ![2, 1000000]⟩ 32) (et : IVec ⟨1, ![1000000]⟩ 32) : Prop :=
  (∀ n : Fin 100000, (x (ix1 n)).toNat < 10000) ∧
  (∀ (a : Fin 2) (e : Fin 1000000), (ei (ix2 a e)).toNat < 100000) ∧
  (∀ e : Fin 1000000, (et (ix1 e)).toNat < 3)

section
variable (x : IVec ⟨1, ![100000]⟩ 32) (ei : IVec ⟨2, ![2, 1000000]⟩ 32) (et : IVec ⟨1, ![1000000]⟩ 32)
  (b : IVec ⟨1, ![100000]⟩ 32)
  (E : (⟨2, ![10000, 64]⟩ : Shape).Idx → EReal) (Wrel : (⟨3, ![3, 64, 64]⟩ : Shape).Idx → EReal)
  (Wroot : (⟨2, ![64, 64]⟩ : Shape).Idx → EReal) (bias : (⟨1, ![64]⟩ : Shape).Idx → EReal)
  (linW : (⟨2, ![64, 2]⟩ : Shape).Idx → EReal) (linb : (⟨1, ![2]⟩ : Shape).Idx → EReal)

/-- The table row of node n's token. -/
def tok (n : Fin 100000) : Fin 10000 := ⟨(x (ix1 n)).toNat % 10000, Nat.mod_lt _ (by decide)⟩
/-- Edge e's source and destination nodes and its relation. -/
def src (e : Fin 1000000) : Fin 100000 := ⟨(ei (ix2 (0 : Fin 2) e)).toNat % 100000, Nat.mod_lt _ (by decide)⟩
def dst (e : Fin 1000000) : Fin 100000 := ⟨(ei (ix2 (1 : Fin 2) e)).toNat % 100000, Nat.mod_lt _ (by decide)⟩
def rel (e : Fin 1000000) : Fin 3 := ⟨(et (ix1 e)).toNat % 3, Nat.mod_lt _ (by decide)⟩

/-- Node n's embedding, coordinate k. -/
def emb (n : Fin 100000) (k : Fin 64) : EReal := E (ix2 (tok x n) k)

/-- The root transform plus bias. -/
def root (n : Fin 100000) (h : Fin 64) : EReal := (∑ k : Fin 64, emb x E n k * Wroot (ix2 k h)) + bias (ix1 h)

/-- Relation r's transform of node n's embedding. -/
def hrel (r : Fin 3) (n : Fin 100000) (h : Fin 64) : EReal := ∑ k : Fin 64, emb x E n k * Wrel (ix3 r k h)

/-- The edges of relation r that end in node n. -/
def edgesInto (n : Fin 100000) (r : Fin 3) : Finset (Fin 1000000) :=
  Finset.univ.filter fun e => dst ei e = n ∧ rel et e = r

def agg (r : Fin 3) (n : Fin 100000) (h : Fin 64) : EReal := ∑ e ∈ edgesInto ei et n r, hrel x E Wrel r (src ei e) h
def cnt (r : Fin 3) (n : Fin 100000) : EReal := ∑ _e ∈ edgesInto ei et n r, oneF

/-- The node features before the rectifier. -/
def nodeOut (n : Fin 100000) (h : Fin 64) : EReal :=
  root x E Wroot bias n h + ∑ r : Fin 3, Ideal.div (agg x ei et E Wrel r n h) (max (cnt ei et r n) oneF)

end

section
variable (o : Fin 100000 → Fin 64 → EReal) (b : IVec ⟨1, ![100000]⟩ 32)
  (linW : (⟨2, ![64, 2]⟩ : Shape).Idx → EReal) (linb : (⟨1, ![2]⟩ : Shape).Idx → EReal)

/-- The nodes of graph g: those whose graph word is g. -/
def nodesOf (g : Fin 512) : Finset (Fin 100000) := Finset.univ.filter fun n => b (ix1 n) = BitVec.ofNat 32 g.val

def gsum (g : Fin 512) (h : Fin 64) : EReal := ∑ n ∈ nodesOf b g, max (o n h) 0
def gcnt (g : Fin 512) : EReal := ∑ _n ∈ nodesOf b g, oneF
def gemb (g : Fin 512) (h : Fin 64) : EReal := Ideal.div (gsum o b g h) (max (gcnt b g) oneF)

/-- Mean-pool the rectified features per graph, then the linear head. -/
def pool (g : Fin 512) (j : Fin 2) : EReal := (∑ h : Fin 64, gemb o b g h * linW (ix2 h j)) + linb (ix1 j)

/-- The same as an array over the result's index type. -/
def poolArr : (⟨2, ![512, 2]⟩ : Shape).Idx → EReal :=
  fun i => pool o b linW linb ⟨(i 0).val, idx2_lt0 i⟩ ⟨(i 1).val, idx2_lt1 i⟩

theorem poolArr_ix2 (g : Fin 512) (j : Fin 2) : poolArr o b linW linb (ix2 g j) = pool o b linW linb g j := rfl

end

/-- THE RESULT: both programs' [512, 2] output as one function of the ten argument arrays. -/
def G (x : IVec ⟨1, ![100000]⟩ 32) (ei : IVec ⟨2, ![2, 1000000]⟩ 32) (et : IVec ⟨1, ![1000000]⟩ 32)
    (b : IVec ⟨1, ![100000]⟩ 32)
    (E : (⟨2, ![10000, 64]⟩ : Shape).Idx → EReal) (Wrel : (⟨3, ![3, 64, 64]⟩ : Shape).Idx → EReal)
    (Wroot : (⟨2, ![64, 64]⟩ : Shape).Idx → EReal) (bias : (⟨1, ![64]⟩ : Shape).Idx → EReal)
    (linW : (⟨2, ![64, 2]⟩ : Shape).Idx → EReal) (linb : (⟨1, ![2]⟩ : Shape).Idx → EReal) :
    (⟨2, ![512, 2]⟩ : Shape).Idx → EReal :=
  poolArr (nodeOut x ei et E Wrel Wroot bias) b linW linb

end Cert.Spec

end
-- ==== Proof.KI.PoolMath.lean ====
/-
  The law that joins a tiled accumulation to the pooling of the specification.

  The node features are padded with zero rows from 100000 to 102400 = 40 · 2560 rows and the graph words with the
  word 512, which names no graph (graphs are 0 … 511).  Tile s holds rows 2560·s … 2560·s + 2559.  The accumulator
  starts at 0 and adds, tile after tile, for graph g the rectified features of the tile's rows whose word is g (and,
  for the count, the number of those rows).  The 40 tiles partition the 102400 rows; the padded rows contribute
  nothing, their word being no graph's; what is left is the sum over the nodes of graph g: the specification's
  `gsum` and `gcnt`.  Only 0 + x = x, x + 0 = x, 1 · x = x and 0 · x = 0 are used, which hold at every extended real.
-/
import proofs.«415698_j88648124990150_2_alg».proof.Proof.Spec
import Idealize.ShloMosaic.Lib.ValueIdx
import Mathlib.Algebra.BigOperators.Fin
import Mathlib.Logic.Equiv.Fin.Basic

noncomputable section

open scoped BigOperators

namespace Cert.KernelIdeal.Val

open Idealize.ShloMosaic Idealize.ShloMosaic.ValueIdx

/-- The features padded with zero rows to 102400 rows. -/
def padO (o : Fin 100000 → Fin 64 → EReal) (n : Fin 102400) (h : Fin 64) : EReal :=
  if hn : n.val < 100000 then o ⟨n.val, hn⟩ h else 0

/-- The graph words padded with the word 512 to 102400 rows. -/
def padB (b : IVec ⟨1, ![100000]⟩ 32) (n : Fin 102400) : BitVec 32 :=
  if hn : n.val < 100000 then b (ix1 ⟨n.val, hn⟩) else 512#32

/-- Row k of tile s (reduced modulo the number of rows so that it is total; for s < 40 the reduction is the identity). -/
def rowOf (s : Nat) (k : Fin 2560) : Fin 102400 := ⟨(2560 * s + k.val) % 102400, Nat.mod_lt _ (by decide)⟩

theorem rowOf_val {s : Nat} (hs : s < 40) (k : Fin 2560) : (rowOf s k).val = 2560 * s + k.val := by
  have := k.isLt
  show (2560 * s + k.val) % 102400 = _
  omega

theorem rowOf_eq {s : Nat} (hs : s < 40) (k : Fin 2560) (pf : 2560 * s + k.val < 102400) :
    rowOf s k = ⟨2560 * s + k.val, pf⟩ := Fin.ext (rowOf_val hs k)

/-- A node below 100000 as a padded row. -/
def rowOfNode (n : Fin 100000) : Fin 102400 := ⟨n.val, by have := n.isLt; omega⟩

theorem padO_rowOfNode (o : Fin 100000 → Fin 64 → EReal) (n : Fin 100000) (h : Fin 64) :
    padO o (rowOfNode n) h = o n h := by
  unfold padO rowOfNode
  rw [dif_pos n.isLt]

theorem padB_rowOfNode (b : IVec ⟨1, ![100000]⟩ 32) (n : Fin 100000) : padB b (rowOfNode n) = b (ix1 n) := by
  unfold padB rowOfNode
  rw [dif_pos n.isLt]

theorem padB_of_ge (b : IVec ⟨1, ![100000]⟩ 32) (n : Fin 102400) (hn : 100000 ≤ n.val) : padB b n = 512#32 := by
  unfold padB
  rw [dif_neg (by omega)]

theorem padO_of_ge (o : Fin 100000 → Fin 64 → EReal) (n : Fin 102400) (h : Fin 64) (hn : 100000 ≤ n.val) :
    padO o n h = 0 := by
  unfold padO
  rw [dif_neg (by omega)]

/-- The indicator of "the word w names graph g", as an extended real. -/
def ind (w : BitVec 32) (g : Fin 512) : EReal := if w = BitVec.ofNat 32 g.val then 1 else 0

theorem ind_pos {w : BitVec 32} {g : Fin 512} (h : w = BitVec.ofNat 32 g.val) : ind w g = 1 := if_pos h
theorem ind_neg {w : BitVec 32} {g : Fin 512} (h : ¬w = BitVec.ofNat 32 g.val) : ind w g = 0 := if_neg h

/-- The padding word names no graph. -/
theorem ind_pad (g : Fin 512) : ind 512#32 g = 0 := by
  refine ind_neg fun e => ?_
  have e' := congrArg BitVec.toNat e
  rw [BitVec.toNat_ofNat, BitVec.toNat_ofNat] at e'
  have := g.isLt
  omega

/-- Tile s's contribution to graph g's sum of rectified features, coordinate h. -/
def tileS (o : Fin 100000 → Fin 64 → EReal) (b : IVec ⟨1, ![100000]⟩ 32) (s : Nat) (g : Fin 512) (h : Fin 64) : EReal :=
  ∑ k : Fin 2560, ind (padB b (rowOf s k)) g * max (padO o (rowOf s k) h) 0

/-- Tile s's contribution to graph g's node count. -/
def tileC (b : IVec ⟨1, ![100000]⟩ 32) (s : Nat) (g : Fin 512) : EReal :=
  ∑ k : Fin 2560, ind (padB b (rowOf s k)) g

/-- The sum accumulator after tile t: zeroed before tile 0, each tile added in turn. -/
def accS (o : Fin 100000 → Fin 64 → EReal) (b : IVec ⟨1, ![100000]⟩ 32) : Nat → Fin 512 → Fin 64 → EReal
  | 0 => fun g h => 0 + tileS o b 0 g h
  | t + 1 => fun g h => accS o b t g h + tileS o b (t + 1) g h

/-- The count accumulator after tile t. -/
def accC (b : IVec ⟨1, ![100000]⟩ 32) : Nat → Fin 512 → EReal
  | 0 => fun g => 0 + tileC b 0 g
  | t + 1 => fun g => accC b t g + tileC b (t + 1) g

section
variable (o : Fin 100000 → Fin 64 → EReal) (b : IVec ⟨1, ![100000]⟩ 32)

theorem accS_zero (g : Fin 512) (h : Fin 64) : accS o b 0 g h = 0 + tileS o b 0 g h := rfl
theorem accS_succ (t : Nat) (g : Fin 512) (h : Fin 64) :
    accS o b (t + 1) g h = accS o b t g h + tileS o b (t + 1) g h := rfl
theorem accC_zero (g : Fin 512) : accC b 0 g = 0 + tileC b 0 g := rfl
theorem accC_succ (t : Nat) (g : Fin 512) : accC b (t + 1) g = accC b t g + tileC b (t + 1) g := rfl

/-- The accumulator after tile t is the sum of the tiles 0 … t. -/
theorem accS_eq_sum_range (t : Nat) (g : Fin 512) (h : Fin 64) :
    accS o b t g h = ∑ s ∈ Finset.range (t + 1), tileS o b s g h := by
  induction t with
  | zero => rw [accS_zero, zero_add, Finset.sum_range_one]
  | succ t ih => rw [accS_succ, ih, Finset.sum_range_succ _ (t + 1)]

theorem accC_eq_sum_range (t : Nat) (g : Fin 512) : accC b t g = ∑ s ∈ Finset.range (t + 1), tileC b s g := by
  induction t with
  | zero => rw [accC_zero, zero_add, Finset.sum_range_one]
  | succ t ih => rw [accC_succ, ih, Finset.sum_range_succ _ (t + 1)]

end

/-- The 40 tiles of 2560 rows are the 102400 rows, each once. -/
theorem sum_tiles (F : Fin 102400 → EReal) :
    ∑ s ∈ Finset.range 40, ∑ k : Fin 2560, F (rowOf s k) = ∑ n : Fin 102400, F n := by
  rw [← Fin.sum_univ_eq_sum_range (fun s => ∑ k : Fin 2560, F (rowOf s k)) 40,
    ← Fintype.sum_prod_type' (fun (s : Fin 40) (k : Fin 2560) => F (rowOf s.val k))]
  refine Fintype.sum_equiv (finProdFinEquiv : Fin 40 × Fin 2560 ≃ Fin 102400) _ _ fun p => congrArg F (Fin.ext ?_)
  have h1 := p.1.isLt
  have h2 := p.2.isLt
  show (2560 * p.1.val + p.2.val) % 102400 = p.2.val + 2560 * p.1.val
  omega

/-- A sum over all rows weighted by "the row's word names g" is the sum over the nodes of graph g: the padded rows'
    word names no graph, and a weight 1 or 0 keeps or drops its term. -/
theorem sum_ind_mul (b : IVec ⟨1, ![100000]⟩ 32) (g : Fin 512) (Y : Fin 102400 → EReal) :
    ∑ n : Fin 102400, ind (padB b n) g * Y n = ∑ n ∈ Cert.Spec.nodesOf b g, Y (rowOfNode n) := by
  refine (Fin.sum_univ_add (M := EReal) (a := 100000) (b := 2400) fun n => ind (padB b n) g * Y n).trans ?_
  have hpad : ∀ i : Fin 2400, ind (padB b (Fin.natAdd 100000 i)) g * Y (Fin.natAdd 100000 i) = 0 := fun i => by
    rw [padB_of_ge b _ (by show 100000 ≤ 100000 + i.val; omega), ind_pad, zero_mul]
  rw [Finset.sum_eq_zero (fun i _ => hpad i), add_zero]
  unfold Cert.Spec.nodesOf
  rw [Finset.sum_filter]
  refine Finset.sum_congr rfl fun n _ => ?_
  have e : (Fin.castAdd 2400 n : Fin 102400) = rowOfNode n := rfl
  rw [e, padB_rowOfNode]
  by_cases hw : b (ix1 n) = BitVec.ofNat 32 g.val
  · rw [if_pos hw, ind_pos hw, one_mul]
  · rw [if_neg hw, ind_neg hw, zero_mul]

section
variable (o : Fin 100000 → Fin 64 → EReal) (b : IVec ⟨1, ![100000]⟩ 32)

/-- After the last tile the sum accumulator holds the specification's sum of rectified features of graph g. -/
theorem accS_last (g : Fin 512) (h : Fin 64) : accS o b 39 g h = Cert.Spec.gsum o b g h := by
  rw [accS_eq_sum_range]
  refine (sum_tiles fun n => ind (padB b n) g * max (padO o n h) 0).trans ?_
  refine (sum_ind_mul b g fun n => max (padO o n h) 0).trans ?_
  unfold Cert.Spec.gsum
  exact Finset.sum_congr rfl fun n _ => by rw [padO_rowOfNode]

/-- After the last tile the count accumulator holds the number of nodes of graph g. -/
theorem accC_last_one (g : Fin 512) : accC b 39 g = ∑ _n ∈ Cert.Spec.nodesOf b g, (1 : EReal) := by
  rw [accC_eq_sum_range]
  refine (sum_tiles fun n => ind (padB b n) g).trans ?_
  have e := sum_ind_mul b g fun _ => (1 : EReal)
  simp only [mul_one] at e
  exact e

end

/-- The float word 0x3F800000 is the number one: sign 0, exponent 127 = the bias, fraction 0. -/
theorem oneF_eq_one : Cert.Spec.oneF = 1 := by
  show Ideal.ofBits .f32 0x3F800000#32 = 1
  simp [Ideal.ofBits, Ideal.ieee, -EReal.coe_mul]
  norm_num

section
variable (o : Fin 100000 → Fin 64 → EReal) (b : IVec ⟨1, ![100000]⟩ 32)
  (linW : (⟨2, ![64, 2]⟩ : Shape).Idx → EReal) (linb : (⟨1, ![2]⟩ : Shape).Idx → EReal)

/-- The count accumulator after the last tile is the specification's count. -/
theorem accC_last (g : Fin 512) : accC b 39 g = Cert.Spec.gcnt b g := by
  rw [accC_last_one]
  unfold Cert.Spec.gcnt
  rw [oneF_eq_one]

/-- THE POOLING: the mean of the accumulated sums by the accumulated count (at least one), times the head's weights,
    plus its bias, is the specification's pooled result. -/
theorem pool_of_acc (g : Fin 512) (j : Fin 2) :
    (∑ h : Fin 64, Ideal.div (accS o b 39 g h) (max (accC b 39 g) Cert.Spec.oneF) * linW (ix2 h j)) + linb (ix1 j)
      = Cert.Spec.pool o b linW linb g j := by
  unfold Cert.Spec.pool Cert.Spec.gemb
  rw [accC_last]
  simp only [accS_last]

end

end Cert.KernelIdeal.Val

end
-- ==== Proof.KI.Blocks.lean ====
/-
  The pooling region's windows, read at an index.  Each input window's block at grid point t is a piece of the array
  the region finds: a block's coordinate on an axis is the window's block index there times the block's extent plus the
  coordinate inside the block.  Window 0 steps along the rows with the point, so row k of its block is row 2560·t + k
  of the padded node features; window 1 steps along the columns of the padded graph words likewise; the head's weights
  and bias are fetched whole.  The output window is one block, the whole [512, 2] array, written back at the last point
  only: every index of the array lies in that block.
-/
import proofs.«415698_j88648124990150_2_alg».proof.Proof.KI.Runs
import proofs.«415698_j88648124990150_2_alg».proof.Proof.KI.PoolMath
import Idealize.ShloMosaic.Lib.ValueIdx
import Idealize.ShloMosaic.Lib.Pipeline.Value

-- membership in a rectangle of these extents is decided structurally, one step per coordinate of the long axes
set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

/-! ## The blocks and arrays by their literal types -/

section
variable {F : FTy → Type} [FloatOps F]
variable (m : (ℓ : Loc nD τ sig) → Buf (Elt F) ℓ)

/-- Point t's tile of the padded node features, and the array it is cut from. -/
abbrev xblk0 (c : Dev nD) (t : Fin cfg0.N) : Vec F S2560x64 .f32 := iblk m c 0 t
abbrev arr0 (c : Dev nD) : Vec F S102400x64 .f32 := V m c main_v45
/-- Point t's tile of the padded graph words, and the array it is cut from. -/
abbrev xblk1 (c : Dev nD) (t : Fin cfg0.N) : Vec F S1x2560 .i32 := iblk m c 1 t
abbrev arr1 (c : Dev nD) : Vec F S1x102400 .i32 := V m c main_v47
/-- The head's weights: the block is the whole array at every point. -/
abbrev xblk2 (c : Dev nD) (t : Fin cfg0.N) : Vec F S64x2 .f32 := iblk m c 2 t
abbrev arr2 (c : Dev nD) : Vec F S64x2 .f32 := V m c main_arg8
/-- The head's bias as a row: the block is the whole array at every point. -/
abbrev xblk3 (c : Dev nD) (t : Fin cfg0.N) : Vec F S1x2 .f32 := iblk m c 3 t
abbrev arr3 (c : Dev nD) : Vec F S1x2 .f32 := V m c main_v48

end

/-! ## Where each window's block sits -/

/-- The index maps, decided once over the grid: window 0 steps along the rows with the point, window 1 along the
    columns; windows 2, 3 and 4 stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 40 := lt_of_lt_of_eq t.isLt N_0

section
variable {F : FTy → Type} [FloatOps F]
variable (m : (ℓ : Loc nD τ sig) → Buf (Elt F) ℓ)

/-- Row k of point t's feature tile is row 2560·t + k of the padded features. -/
theorem xblk0_apply (c : Dev nD) (t : Fin cfg0.N) (k : Fin 2560) (h : Fin 64) :
    xblk0 m c t (ix2 k h) = arr0 m c (ix2 (rowOf t.val k) h) := by
  show V m c main_v45 (((cfg0.win 0).blk t).view.emb (ix2 k h)) = V m c main_v45 (ix2 (rowOf t.val k) h)
  obtain ⟨e0, e1, -⟩ := idx_facts t
  have hr := rowOf_val (point_lt t) k
  refine congrArg _ (funext fun a => Fin.ext ?_)
  match a with
  | ⟨0, _⟩ => show win0_0.index t (0 : Fin 2) * 2560 + 1 * k.val = (rowOf t.val k).val; omega
  | ⟨1, _⟩ => show win0_0.index t (1 : Fin 2) * 64 + 1 * h.val = h.val; omega

/-- Column k of point t's graph-word tile is column 2560·t + k of the padded graph words. -/
theorem xblk1_apply (c : Dev nD) (t : Fin cfg0.N) (k : Fin 2560) :
    xblk1 m c t (ix2 (0 : Fin 1) k) = arr1 m c (ix2 (0 : Fin 1) (rowOf t.val k)) := by
  show V m c main_v47 (((cfg0.win 1).blk t).view.emb (ix2 (0 : Fin 1) k)) = V m c main_v47 (ix2 (0 : Fin 1) (rowOf t.val k))
  obtain ⟨-, -, e0, e1, -⟩ := idx_facts t
  have hr := rowOf_val (point_lt t) k
  refine congrArg _ (funext fun a => Fin.ext ?_)
  match a with
  | ⟨0, _⟩ => show win0_1.index t (0 : Fin 2) * 1 + 1 * 0 = 0; omega
  | ⟨1, _⟩ => show win0_1.index t (1 : Fin 2) * 2560 + 1 * k.val = (rowOf t.val k).val; omega

/-- The weights' block is the weights. -/
theorem xblk2_eq (c : Dev nD) (t : Fin cfg0.N) : xblk2 m c t = arr2 m c := by
  funext y
  show V m c main_arg8 (((cfg0.win 2).blk t).view.emb y) = V m c main_arg8 y
  obtain ⟨-, -, -, -, e0, e1, -⟩ := idx_facts t
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 2 + 1 * (y 1).val = (y 1).val; omega

/-- The bias row's block is the bias row. -/
theorem xblk3_eq (c : Dev nD) (t : Fin cfg0.N) : xblk3 m c t = arr3 m c := by
  funext y
  show V m c main_v48 (((cfg0.win 3).blk t).view.emb y) = V m c main_v48 y
  obtain ⟨-, -, -, -, -, -, e0, e1, -⟩ := idx_facts t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 2 + 1 * (y 1).val = (y 1).val; omega

end

/-! ## The output window: one block, the whole array, written back at the last point -/

/-- The output is written back at the last point and nowhere else. -/
theorem flush4_iff (t : Fin cfg0.N) : (cfg0.win 4).flush t = true ↔ t.val = 39 := by
  rw [flush0_4]
  have := point_lt t
  omega

/-- The last point of the grid. -/
abbrev lastPt : Fin cfg0.N := ⟨39, lt_of_lt_of_eq (by decide : 39 < 40) N_0.symm⟩

theorem flush4_last : (cfg0.win 4).flush lastPt = true := (flush4_iff lastPt).2 rfl

/-- An index of the output array is in point t's block iff each coordinate is in the block's range on its axis. -/
theorem mem_blk4 (t : Fin cfg0.N) (i : S512x2.Idx) :
    i ∈ ((cfg0.win 4).blk t).view.set ↔
      ∀ a : Fin 2, win0_4.index t a * S512x2.size a ≤ (i a).val ∧ (i a).val < win0_4.index t a * S512x2.size a + S512x2.size a := by
  show i ∈ ((View.whole main_v49).slice (win0_4.rect t)).set ↔ _
  rw [View.set_slice_whole, Rect.mem_set_unit]
  exact Iff.rfl

/-- Every index of the output array lies in every point's block: the block is the whole array. -/
theorem mem_blk4_all (t : Fin cfg0.N) (i : S512x2.Idx) : i ∈ ((cfg0.win 4).blk t).view.set := by
  rw [mem_blk4]
  obtain ⟨-, -, -, -, -, -, -, -, e0, e1⟩ := idx_facts t
  have h0 : (i 0).val < 512 := (i 0).isLt
  have h1 : (i 1).val < 2 := (i 1).isLt
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2 ≤ (i 1).val ∧ (i 1).val < win0_4.index t (1 : Fin 2) * 2 + 2
    omega

/-- THE COVER: every index of the output array is in the block of a point that writes back — the last. -/
theorem cover4 (i : S512x2.Idx) :
    ∃ t : Fin cfg0.N, (cfg0.win 4).flush t = true ∧ i ∈ ((cfg0.win 4).blk t).view.set :=
  ⟨lastPt, flush4_last, mem_blk4_all lastPt i⟩

section
variable {F : FTy → Type} [FloatOps F]

/-- An array of the output's shape read through any point's block of the output window is the array itself. -/
theorem read_blk4 (G : Vec F S512x2 .f32) (t : Fin cfg0.N) :
    (((cfg0.win 4).blk t).view.read (Elt F) G : Vec F S512x2 .f32) = G := by
  funext y
  show G (((cfg0.win 4).blk t).view.emb y) = G y
  obtain ⟨-, -, -, -, -, -, -, -, e0, e1⟩ := idx_facts t
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 2 + 1 * (y 1).val = (y 1).val; omega

end

end Cert.KernelIdeal.Val

end
-- ==== Proof.KI.Payloads.lean ====
/-
  The kernel's pure values read at an index, at the ideal values (a float is an extended real, every operation exact,
  a change of format the identity).

  One tile is a [2560, 64] block of node features and a [1, 2560] row of graph words. The kernel forms the one-hot
  matrix M[g, k] = 1 if word k equals g, else 0 (a comparison of the broadcast row with the row number, widened and
  converted), and adds to its two accumulators
      S[g, h] += Σ_k M[g, k] · max(tile[k, h], 0)        C[g] += Σ_k M[g, k];
  both start from the zero block. The last point stores  (Σ_h S[g, h] / max(C[g], 1) · W[h, j]) + bias[j].
  Each lemma below reads one of these values at explicit coordinates.
-/
import proofs.«415698_j88648124990150_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.ValueIdx Idealize.SL.Sem

theorem pay1_apply (g : Fin 512) (h : Fin 64) : (k0_pay1 (F := Ideal)) (ix2 g h) = 0 := by
  unfold k0_pay1
  rw [shapeCast_self]
  exact Ideal.ofBits_zero_f32

theorem pay2_apply (g : Fin 512) : (k0_pay2 (F := Ideal)) (ix2 g (0 : Fin 1)) = 0 := by
  unfold k0_pay2
  rw [shapeCast_self]
  exact Ideal.ofBits_zero_f32

/-- The float made from the widened one-bit answer of a word comparison is the indicator of equality. -/
theorem sitofp_flag (x y : BitVec 32) :
    (FloatOps.sitofp (F := Ideal) .f32 (BitVec.setWidth 32 (IntOp.cmpi .eq x y)) : EReal) = if x = y then 1 else 0 := by
  have e1 : IntOp.cmpi .eq x y = BitVec.ofBool (x == y) := rfl
  rw [e1]
  cases hb : (x == y)
  · have hc : ¬ x = y := by intro h; simp [h] at hb
    rw [if_neg hc]
    have h0 : (BitVec.setWidth 32 (BitVec.ofBool false)) = 0#32 := by decide
    have h1 : (0#32 : BitVec 32).toInt = 0 := by decide
    rw [h0]
    show ((((0#32 : BitVec 32).toInt : ℝ)) : EReal) = 0
    rw [h1]; norm_num
  · have hc : x = y := by simpa using hb
    rw [if_pos hc]
    have h0 : (BitVec.setWidth 32 (BitVec.ofBool true)) = 1#32 := by decide
    have h1 : (1#32 : BitVec 32).toInt = 1 := by decide
    rw [h0]
    show ((((1#32 : BitVec 32).toInt : ℝ)) : EReal) = 1
    rw [h1]; norm_num

theorem pay3_apply (v8 : Vec Ideal S1x2560 .i32) (g : Fin 512) (k : Fin 2560) :
    k0_pay3 (F := Ideal) v8 (ix2 g k) = if v8 (ix2 (0 : Fin 1) k) = BitVec.ofNat 32 g.val then 1 else 0 := by
  unfold k0_pay3
  rw [shapeCast_self]
  rw [sitofp_apply, extui_apply]
  show FloatOps.sitofp .f32 ((IntOp.cmpi .eq (broadcastTo S512x2560 v8 broadcasts_S1x2560_S512x2560 (ix2 g k)) (iota .tc S512x2560 32 [0] iota_S512x2560_d0_w32 (ix2 g k))).setWidth 32) = _
  rw [broadcastTo_1b_ab_apply, iota_single_apply]
  exact sitofp_flag _ _

/-! The matrix product of the one-hot block and the rectified tile: operand indices by axis. -/
theorem lhs4_0 (i : S512x64.Idx) (q : dot_S512x2560_S2560x64_S512x64_1_0_0_1_n_n.contr.Idx) :
    (dot_S512x2560_S2560x64_S512x64_1_0_0_1_n_n.lhsIdx i q 0).val = (i 0).val := by
  unfold DotDims.lhsIdx
  rw [dif_neg (show ¬(0 : Fin S512x2560.rank) ∈ dot_S512x2560_S2560x64_S512x64_1_0_0_1_n_n.lhsBatch by decide), dif_pos (show (0 : Fin S512x2560.rank) ∈ dot_S512x2560_S2560x64_S512x64_1_0_0_1_n_n.lhsNonContracting by decide)]
  rfl
theorem lhs4_1 (i : S512x64.Idx) (q : dot_S512x2560_S2560x64_S512x64_1_0_0_1_n_n.contr.Idx) :
    (dot_S512x2560_S2560x64_S512x64_1_0_0_1_n_n.lhsIdx i q 1).val = (q ⟨0, by decide⟩).val :=
  dot_S512x2560_S2560x64_S512x64_1_0_0_1_n_n.lhsIdx_val_of_single rfl i q
theorem rhs4_0 (i : S512x64.Idx) (q : dot_S512x2560_S2560x64_S512x64_1_0_0_1_n_n.contr.Idx) :
    (dot_S512x2560_S2560x64_S512x64_1_0_0_1_n_n.rhsIdx i q 0).val = (q ⟨0, by decide⟩).val :=
  dot_S512x2560_S2560x64_S512x64_1_0_0_1_n_n.rhsIdx_val_of_single rfl i q
theorem rhs4_1 (i : S512x64.Idx) (q : dot_S512x2560_S2560x64_S512x64_1_0_0_1_n_n.contr.Idx) :
    (dot_S512x2560_S2560x64_S512x64_1_0_0_1_n_n.rhsIdx i q 1).val = (i 1).val := by
  unfold DotDims.rhsIdx
  rw [dif_neg (show ¬(1 : Fin S2560x64.rank) ∈ dot_S512x2560_S2560x64_S512x64_1_0_0_1_n_n.rhsBatch by decide), dif_pos (show (1 : Fin S2560x64.rank) ∈ dot_S512x2560_S2560x64_S512x64_1_0_0_1_n_n.rhsNonContracting by decide)]
  rfl

theorem pay4_apply (v3 : Vec Ideal S2560x64 .f32) (v8 : Vec Ideal S1x2560 .i32) (v16 : Vec Ideal S512x64 .f32)
    (g : Fin 512) (h : Fin 64) :
    k0_pay4 (F := Ideal) v3 v8 v16 (ix2 g h)
      = v16 (ix2 g h) + ∑ k : Fin 2560, k0_pay3 (F := Ideal) v8 (ix2 g k) * max (v3 (ix2 k h)) 0 := by
  unfold k0_pay4
  rw [shapeCast_self, shapeCast_self, addf_apply]
  congr 1
  simp only [matmul]
  rw [Ideal.matmul_constant_zero_apply, ← Equiv.sum_comp (contrEquiv1 dot_S512x2560_S2560x64_S512x64_1_0_0_1_n_n 2560 rfl rfl).symm]
  refine Finset.sum_congr rfl fun k _ => ?_
  have hk := contrEquiv1_symm_val dot_S512x2560_S2560x64_S512x64_1_0_0_1_n_n 2560 rfl rfl k
  have el : dot_S512x2560_S2560x64_S512x64_1_0_0_1_n_n.lhsIdx (ix2 g h) ((contrEquiv1 dot_S512x2560_S2560x64_S512x64_1_0_0_1_n_n 2560 rfl rfl).symm k) = ix2 g k := funext fun a => Fin.ext (by
    match a with
    | ⟨0, _⟩ => exact lhs4_0 _ _
    | ⟨1, _⟩ => exact (lhs4_1 _ _).trans hk)
  have er : dot_S512x2560_S2560x64_S512x64_1_0_0_1_n_n.rhsIdx (ix2 g h) ((contrEquiv1 dot_S512x2560_S2560x64_S512x64_1_0_0_1_n_n 2560 rfl rfl).symm k) = ix2 k h := funext fun a => Fin.ext (by
    match a with
    | ⟨0, _⟩ => exact (rhs4_0 _ _).trans hk
    | ⟨1, _⟩ => exact rhs4_1 _ _)
  rw [el, er, truncf_apply, truncf_apply, maximumf_apply, broadcast_apply]
  exact congrArg (fun z => k0_pay3 (F := Ideal) v8 (ix2 g k) * max (v3 (ix2 k h)) z) Ideal.ofBits_zero_f32

/-! Two layout readings at coordinates: a vector viewed as a column, and a column spread over the columns of a matrix. -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay5_apply (v8 : Vec Ideal S1x2560 .i32) (v22 : Vec Ideal S512x1 .f32) (g : Fin 512) :
    k0_pay5 (F := Ideal) v8 v22 (ix2 g (0 : Fin 1))
      = v22 (ix2 g (0 : Fin 1)) + ∑ k : Fin 2560, k0_pay3 (F := Ideal) v8 (ix2 g k) := by
  unfold k0_pay5
  rw [shapeCast_self, addf_apply]
  refine congrArg (v22 (ix2 g (0 : Fin 1)) + ·) ?_
  refine (shapeCast_a_a1_apply _ shapeCasts_S512_S512x1 g 0).trans ?_
  refine (Ideal.multiReduction_add_single (k0_pay3 (F := Ideal) v8) 0x00000000#32 reduces_S512x2560_S512 (.inl rfl) rfl (ix1 g)).trans ?_
  refine Finset.sum_congr rfl fun k _ => ?_
  exact congrArg _ (funext fun a => by match a with | ⟨0, _⟩ => rfl | ⟨1, _⟩ => rfl)

/-! The head's matrix product: operand indices by axis. -/
theorem lhs6_0 (i : S512x2.Idx) (q : dot_S512x64_S64x2_S512x2_1_0_0_1_n_n.contr.Idx) :
    (dot_S512x64_S64x2_S512x2_1_0_0_1_n_n.lhsIdx i q 0).val = (i 0).val := by
  unfold DotDims.lhsIdx
  rw [dif_neg (show ¬(0 : Fin S512x64.rank) ∈ dot_S512x64_S64x2_S512x2_1_0_0_1_n_n.lhsBatch by decide), dif_pos (show (0 : Fin S512x64.rank) ∈ dot_S512x64_S64x2_S512x2_1_0_0_1_n_n.lhsNonContracting by decide)]
  rfl
theorem lhs6_1 (i : S512x2.Idx) (q : dot_S512x64_S64x2_S512x2_1_0_0_1_n_n.contr.Idx) :
    (dot_S512x64_S64x2_S512x2_1_0_0_1_n_n.lhsIdx i q 1).val = (q ⟨0, by decide⟩).val :=
  dot_S512x64_S64x2_S512x2_1_0_0_1_n_n.lhsIdx_val_of_single rfl i q
theorem rhs6_0 (i : S512x2.Idx) (q : dot_S512x64_S64x2_S512x2_1_0_0_1_n_n.contr.Idx) :
    (dot_S512x64_S64x2_S512x2_1_0_0_1_n_n.rhsIdx i q 0).val = (q ⟨0, by decide⟩).val :=
  dot_S512x64_S64x2_S512x2_1_0_0_1_n_n.rhsIdx_val_of_single rfl i q
theorem rhs6_1 (i : S512x2.Idx) (q : dot_S512x64_S64x2_S512x2_1_0_0_1_n_n.contr.Idx) :
    (dot_S512x64_S64x2_S512x2_1_0_0_1_n_n.rhsIdx i q 1).val = (i 1).val := by
  unfold DotDims.rhsIdx
  rw [dif_neg (show ¬(1 : Fin S64x2.rank) ∈ dot_S512x64_S64x2_S512x2_1_0_0_1_n_n.rhsBatch by decide), dif_pos (show (1 : Fin S64x2.rank) ∈ dot_S512x64_S64x2_S512x2_1_0_0_1_n_n.rhsNonContracting by decide)]
  rfl

theorem pay6_apply (v33 : Vec Ideal S512x1 .f32) (v36 : Vec Ideal S512x64 .f32) (v40 : Vec Ideal S64x2 .f32)
    (v43 : Vec Ideal S1x2 .f32) (g : Fin 512) (j : Fin 2) :
    k0_pay6 (F := Ideal) v33 v36 v40 v43 (ix2 g j)
      = (∑ h : Fin 64, Ideal.div (v36 (ix2 g h)) (max (v33 (ix2 g (0 : Fin 1))) (Ideal.ofBits .f32 0x3F800000#32))
            * v40 (ix2 h j)) + v43 (ix2 (0 : Fin 1) j) := by
  unfold k0_pay6
  rw [addf_apply, shapeCast_self]
  congr 1
  · simp only [matmul]
    rw [Ideal.matmul_constant_zero_apply, ← Equiv.sum_comp (contrEquiv1 dot_S512x64_S64x2_S512x2_1_0_0_1_n_n 64 rfl rfl).symm]
    refine Finset.sum_congr rfl fun k _ => ?_
    have hk := contrEquiv1_symm_val dot_S512x64_S64x2_S512x2_1_0_0_1_n_n 64 rfl rfl k
    have el : dot_S512x64_S64x2_S512x2_1_0_0_1_n_n.lhsIdx (ix2 g j) ((contrEquiv1 dot_S512x64_S64x2_S512x2_1_0_0_1_n_n 64 rfl rfl).symm k) = ix2 g k := funext fun a => Fin.ext (by
      match a with
      | ⟨0, _⟩ => exact lhs6_0 _ _
      | ⟨1, _⟩ => exact (lhs6_1 _ _).trans hk)
    have er : dot_S512x64_S64x2_S512x2_1_0_0_1_n_n.rhsIdx (ix2 g j) ((contrEquiv1 dot_S512x64_S64x2_S512x2_1_0_0_1_n_n 64 rfl rfl).symm k) = ix2 k j := funext fun a => Fin.ext (by
      match a with
      | ⟨0, _⟩ => exact (rhs6_0 _ _).trans hk
      | ⟨1, _⟩ => exact rhs6_1 _ _)
    rw [el, er, truncf_apply, truncf_apply, divf_apply, broadcastTo_a1_ab_apply, maximumf_apply, broadcast_apply]
    rfl
  · exact broadcastTo_1b_ab_apply _ _ g j

end Cert.KernelIdeal.Val
-- ==== Proof.KI.Tiles.lean ====
/-
  One tile's payloads in the words of the pooling law.

  When a [2560, 64] feature block and a [1, 2560] word block hold rows 2560·t … 2560·t + 2559 of the padded features and
  padded graph words, the one-hot entry M[g, k] is the indicator "row k's word names graph g", the updated sum
  accumulator is the old one plus tile t's contribution to graph g's sum, and the updated count accumulator the old one
  plus tile t's contribution to its count. So an accumulator that starts at zero and meets the tiles 0 … t in turn holds
  the law's `accS t` and `accC t`, and the head applied after tile 39 is the specification's pooled value.
-/
import proofs.«415698_j88648124990150_2_alg».proof.Proof.KI.Payloads
import proofs.«415698_j88648124990150_2_alg».proof.Proof.KI.PoolMath

noncomputable section

open scoped BigOperators

namespace Cert.KernelIdeal.Val

open Cert.KernelIdeal Cert.KernelIdeal.Gen Idealize.ShloMosaic Idealize.ShloMosaic.ValueIdx Idealize.SL.Sem

section
variable (o : Fin 100000 → Fin 64 → EReal) (b : IVec ⟨1, ![100000]⟩ 32)

/-- The feature block `X` and the word block `B` are tile `t` of the padded arrays. -/
def IsTile (t : Nat) (X : Vec Ideal S2560x64 .f32) (B : Vec Ideal S1x2560 .i32) : Prop :=
  (∀ (k : Fin 2560) (h : Fin 64), X (ix2 k h) = padO o (rowOf t k) h) ∧
  (∀ k : Fin 2560, B (ix2 (0 : Fin 1) k) = padB b (rowOf t k))

variable {o b}

theorem pay3_tile {t : Nat} {X : Vec Ideal S2560x64 .f32} {B : Vec Ideal S1x2560 .i32} (hT : IsTile o b t X B)
    (g : Fin 512) (k : Fin 2560) : k0_pay3 (F := Ideal) B (ix2 g k) = ind (padB b (rowOf t k)) g := by
  rw [pay3_apply, hT.2 k]
  rfl

/-- The sum accumulator's update by tile `t`. -/
theorem pay4_tile {t : Nat} {X : Vec Ideal S2560x64 .f32} {B : Vec Ideal S1x2560 .i32} (hT : IsTile o b t X B)
    (A : Vec Ideal S512x64 .f32) (g : Fin 512) (h : Fin 64) :
    k0_pay4 (F := Ideal) X B A (ix2 g h) = A (ix2 g h) + tileS o b t g h := by
  rw [pay4_apply]
  refine congrArg (A (ix2 g h) + ·) ?_
  unfold tileS
  exact Finset.sum_congr rfl fun k _ => by rw [pay3_tile hT g k, hT.1 k h]

/-- The count accumulator's update by tile `t`. -/
theorem pay5_tile {t : Nat} {X : Vec Ideal S2560x64 .f32} {B : Vec Ideal S1x2560 .i32} (hT : IsTile o b t X B)
    (C : Vec Ideal S512x1 .f32) (g : Fin 512) :
    k0_pay5 (F := Ideal) B C (ix2 g (0 : Fin 1)) = C (ix2 g (0 : Fin 1)) + tileC b t g := by
  rw [pay5_apply]
  refine congrArg (C (ix2 g (0 : Fin 1)) + ·) ?_
  unfold tileC
  exact Finset.sum_congr rfl fun k _ => pay3_tile hT g k

/-- The first tile met by the zeroed accumulators. -/
theorem pay4_first {X : Vec Ideal S2560x64 .f32} {B : Vec Ideal S1x2560 .i32} (hT : IsTile o b 0 X B)
    (g : Fin 512) (h : Fin 64) :
    k0_pay4 (F := Ideal) X B (k0_pay1 (F := Ideal)) (ix2 g h) = accS o b 0 g h := by
  rw [pay4_tile hT, pay1_apply, accS_zero]

theorem pay5_first {X : Vec Ideal S2560x64 .f32} {B : Vec Ideal S1x2560 .i32} (hT : IsTile o b 0 X B)
    (g : Fin 512) :
    k0_pay5 (F := Ideal) B (k0_pay2 (F := Ideal)) (ix2 g (0 : Fin 1)) = accC b 0 g := by
  rw [pay5_tile hT, pay2_apply, accC_zero]

/-- A later tile met by accumulators that hold the law's values after the tile before. -/
theorem pay4_next {t : Nat} {X : Vec Ideal S2560x64 .f32} {B : Vec Ideal S1x2560 .i32} (hT : IsTile o b (t + 1) X B)
    {A : Vec Ideal S512x64 .f32} (hA : ∀ (g : Fin 512) (h : Fin 64), A (ix2 g h) = accS o b t g h)
    (g : Fin 512) (h : Fin 64) :
    k0_pay4 (F := Ideal) X B A (ix2 g h) = accS o b (t + 1) g h := by
  rw [pay4_tile hT, hA, accS_succ]

theorem pay5_next {t : Nat} {X : Vec Ideal S2560x64 .f32} {B : Vec Ideal S1x2560 .i32} (hT : IsTile o b (t + 1) X B)
    {C : Vec Ideal S512x1 .f32} (hC : ∀ g : Fin 512, C (ix2 g (0 : Fin 1)) = accC b t g) (g : Fin 512) :
    k0_pay5 (F := Ideal) B C (ix2 g (0 : Fin 1)) = accC b (t + 1) g := by
  rw [pay5_tile hT, hC, accC_succ]

end

/-- The head, applied to accumulators that hold the law's values after the last tile, is the pooled specification. -/
theorem pay6_pool (o : Fin 100000 → Fin 64 → EReal) (b : IVec ⟨1, ![100000]⟩ 32)
    (linW : (⟨2, ![64, 2]⟩ : Shape).Idx → EReal) (linb : (⟨1, ![2]⟩ : Shape).Idx → EReal)
    {C : Vec Ideal S512x1 .f32} {A : Vec Ideal S512x64 .f32} {W : Vec Ideal S64x2 .f32} {Bi : Vec Ideal S1x2 .f32}
    (hA : ∀ (g : Fin 512) (h : Fin 64), A (ix2 g h) = accS o b 39 g h)
    (hC : ∀ g : Fin 512, C (ix2 g (0 : Fin 1)) = accC b 39 g)
    (hW : ∀ (h : Fin 64) (j : Fin 2), W (ix2 h j) = linW (ix2 h j))
    (hBi : ∀ j : Fin 2, Bi (ix2 (0 : Fin 1) j) = linb (ix1 j)) (g : Fin 512) (j : Fin 2) :
    k0_pay6 (F := Ideal) C A W Bi (ix2 g j) = Cert.Spec.pool o b linW linb g j := by
  rw [pay6_apply, ← pool_of_acc, hBi, hC]
  refine congrArg (· + linb (ix1 j)) ?_
  exact Finset.sum_congr rfl fun h _ => by rw [hA, hW]

end Cert.KernelIdeal.Val

end
-- ==== Proof.KI.Value.lean ====
/-
  The value of the pooling region.

  The region's grid has 40 points. Point t reads rows 2560·t … 2560·t + 2559 of the padded node features and of the
  padded graph words. Two accumulators are carried from point to point: after point t the sum accumulator holds, for
  graph g and coordinate h, the sum over the rows of the tiles 0 … t whose word names g of the rectified feature, and
  the count accumulator the number of those rows (the pooling law's `accS t`, `accC t`): by induction on the point,
  the first point starting from the zeroed accumulators, each later point adding its tile to what the point before left.
  The last point stores the head of the two accumulators into the one output block, which is the whole [512, 2] result:
  by the pooling law that is the specification's pooled value. The ten argument arrays end as they began.
-/
import proofs.«415698_j88648124990150_2_alg».proof.Proof.KI.Frame
import proofs.«415698_j88648124990150_2_alg».proof.Proof.KI.FrameOf
import proofs.«415698_j88648124990150_2_alg».proof.Proof.KI.Pieces
import proofs.«415698_j88648124990150_2_alg».proof.Proof.KI.Blocks
import proofs.«415698_j88648124990150_2_alg».proof.Proof.KI.Tiles
import Idealize.ShloMosaic.Lib.Pipeline.Value

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

section Law

variable (o : Fin 100000 → Fin 64 → EReal) (b : IVec ⟨1, ![100000]⟩ 32)
  (linW : (⟨2, ![64, 2]⟩ : Shape).Idx → EReal) (linb : (⟨1, ![2]⟩ : Shape).Idx → EReal)

/-- What the region finds in its four input arrays on core `c`: the padded features, the padded graph words, the
    head's weights and its bias as a row. -/
structure Entry (c : Dev nD) : Prop where
  feat : ∀ (n : Fin 102400) (h : Fin 64), arr0 m c (ix2 n h) = padO o n h
  word : ∀ n : Fin 102400, arr1 m c (ix2 (0 : Fin 1) n) = padB b n
  wgt : ∀ (h : Fin 64) (j : Fin 2), arr2 m c (ix2 h j) = linW (ix2 h j)
  bias : ∀ j : Fin 2, arr3 m c (ix2 (0 : Fin 1) j) = linb (ix1 j)

variable {m o b linW linb}

/-- The blocks point `t` reads are tile `t`. -/
theorem isTile {c : Dev nD} (E : Entry m o b linW linb c) (t : Fin cfg0.N) :
    IsTile o b t.val (xblk0 m c t) (xblk1 m c t) :=
  ⟨fun k h => (xblk0_apply m c t k h).trans (E.feat _ _), fun k => (xblk1_apply m c t k).trans (E.word _)⟩

/-- THE ACCUMULATION: after point `n` the two accumulators hold the law's running sums and counts. -/
theorem acc_inv {c : Dev nD} (E : Entry m o b linW linb c) : ∀ (n : ℕ) (hn : n < cfg0.N),
    (∀ (g : Fin 512) (h : Fin 64), (outsAt0 m c n hn).2.1 (ix2 g h) = accS o b n g h)
      ∧ (∀ g : Fin 512, (outsAt0 m c n hn).2.2 (ix2 g (0 : Fin 1)) = accC b n g)
  | 0, hn => by
    rw [outsAt0_A m c ⟨0, hn⟩ rfl (show ¬(0 : ℕ) % 40 = 39 by decide)]
    unfold outs0_A
    dsimp only
    refine ⟨fun g h => ?_, fun g => ?_⟩
    · refine (congrFun (sout_A_0_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) _ _ (xblk0 m c ⟨0, hn⟩) (xblk1 m c ⟨0, hn⟩) (xblk2 m c ⟨0, hn⟩) (xblk3 m c ⟨0, hn⟩)) (ix2 g h)).trans ?_
      exact pay4_first (isTile E ⟨0, hn⟩) g h
    · refine (congrFun (sout_A_1_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) _ _ (xblk0 m c ⟨0, hn⟩) (xblk1 m c ⟨0, hn⟩) (xblk2 m c ⟨0, hn⟩) (xblk3 m c ⟨0, hn⟩)) (ix2 g (0 : Fin 1))).trans ?_
      exact pay5_first (isTile E ⟨0, hn⟩) g
  | n + 1, hn => by
    have ih := acc_inv E n (Nat.lt_of_succ_lt hn)
    have hN : cfg0.N = 40 := N_0
    have h0 : ¬(⟨n + 1, hn⟩ : Fin cfg0.N).val % 40 = 0 := by dsimp only; omega
    by_cases h1 : (⟨n + 1, hn⟩ : Fin cfg0.N).val % 40 = 39
    · rw [outsAt0_C m c ⟨n + 1, hn⟩ h0 h1]
      unfold outs0_C
      dsimp only
      refine ⟨fun g h => ?_, fun g => ?_⟩
      · refine (congrFun (sout_C_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) _ _ (xblk0 m c ⟨n + 1, hn⟩) (xblk1 m c ⟨n + 1, hn⟩) (xblk2 m c ⟨n + 1, hn⟩) (xblk3 m c ⟨n + 1, hn⟩) (outsAt0 m c n (Nat.lt_of_succ_lt hn)).2.1 (outsAt0 m c n (Nat.lt_of_succ_lt hn)).2.2) (ix2 g h)).trans ?_
        exact pay4_next (isTile E ⟨n + 1, hn⟩) ih.1 g h
      · refine (congrFun (sout_C_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) _ _ (xblk0 m c ⟨n + 1, hn⟩) (xblk1 m c ⟨n + 1, hn⟩) (xblk2 m c ⟨n + 1, hn⟩) (xblk3 m c ⟨n + 1, hn⟩) (outsAt0 m c n (Nat.lt_of_succ_lt hn)).2.1 (outsAt0 m c n (Nat.lt_of_succ_lt hn)).2.2) (ix2 g (0 : Fin 1))).trans ?_
        exact pay5_next (isTile E ⟨n + 1, hn⟩) ih.2 g
    · rw [outsAt0_B m c ⟨n + 1, hn⟩ h0 h1]
      unfold outs0_B
      dsimp only
      refine ⟨fun g h => ?_, fun g => ?_⟩
      · refine (congrFun (sout_B_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) _ _ (xblk0 m c ⟨n + 1, hn⟩) (xblk1 m c ⟨n + 1, hn⟩) (xblk2 m c ⟨n + 1, hn⟩) (xblk3 m c ⟨n + 1, hn⟩) (outsAt0 m c n (Nat.lt_of_succ_lt hn)).2.1 (outsAt0 m c n (Nat.lt_of_succ_lt hn)).2.2) (ix2 g h)).trans ?_
        exact pay4_next (isTile E ⟨n + 1, hn⟩) ih.1 g h
      · refine (congrFun (sout_B_1_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) _ _ (xblk0 m c ⟨n + 1, hn⟩) (xblk1 m c ⟨n + 1, hn⟩) (xblk2 m c ⟨n + 1, hn⟩) (xblk3 m c ⟨n + 1, hn⟩) (outsAt0 m c n (Nat.lt_of_succ_lt hn)).2.1 (outsAt0 m c n (Nat.lt_of_succ_lt hn)).2.2) (ix2 g (0 : Fin 1))).trans ?_
        exact pay5_next (isTile E ⟨n + 1, hn⟩) ih.2 g

/-- THE LAST POINT'S BLOCK: at the point whose number is 39 modulo 40 (the last one) the head of the accumulators after
    tile 39 is stored, and that is the pooled specification. The point is kept as `n + 1` with `n` a variable. -/
theorem out_at {c : Dev nD} (E : Entry m o b linW linb c) (n : ℕ) (hn : n + 1 < cfg0.N) (h1 : (n + 1) % 40 = 39) :
    (outsAt0 m c (n + 1) hn).1 = Cert.Spec.poolArr o b linW linb := by
  have hN : cfg0.N = 40 := N_0
  have e39 : n + 1 = 39 := by omega
  have hn' : n < cfg0.N := Nat.lt_of_succ_lt hn
  have ih := acc_inv E n hn'
  have h0 : ¬(n + 1) % 40 = 0 := by omega
  have hc0 : ¬cond0_0 (grid0.coords (⟨n + 1, hn⟩ : Fin cfg0.N)) := fun h => h0 ((hcond0_0 ⟨n + 1, hn⟩).mp h)
  have hc1 : cond0_1 (grid0.coords (⟨n + 1, hn⟩ : Fin cfg0.N)) := (hcond0_1 ⟨n + 1, hn⟩).mpr h1
  have e := out_C_4_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) hc0 hc1 (xblk0 m c ⟨n + 1, hn⟩) (xblk1 m c ⟨n + 1, hn⟩) (xblk2 m c ⟨n + 1, hn⟩) (xblk3 m c ⟨n + 1, hn⟩) (outsAt0 m c n hn').2.1 (outsAt0 m c n hn').2.2
  have hT : IsTile o b (n + 1) (xblk0 m c ⟨n + 1, hn⟩) (xblk1 m c ⟨n + 1, hn⟩) := isTile E ⟨n + 1, hn⟩
  have hA : ∀ (g : Fin 512) (h : Fin 64),
      k0_pay4 (F := Ideal) (xblk0 m c ⟨n + 1, hn⟩) (xblk1 m c ⟨n + 1, hn⟩) (outsAt0 m c n hn').2.1 (ix2 g h) = accS o b 39 g h :=
    fun g h => (pay4_next hT ih.1 g h).trans (by rw [e39])
  have hC : ∀ g : Fin 512,
      k0_pay5 (F := Ideal) (xblk1 m c ⟨n + 1, hn⟩) (outsAt0 m c n hn').2.2 (ix2 g (0 : Fin 1)) = accC b 39 g :=
    fun g => (pay5_next hT ih.2 g).trans (by rw [e39])
  have hW : ∀ (h : Fin 64) (j : Fin 2), xblk2 m c ⟨n + 1, hn⟩ (ix2 h j) = linW (ix2 h j) :=
    fun h j => (congrFun (xblk2_eq m c ⟨n + 1, hn⟩) (ix2 h j)).trans (E.wgt h j)
  have hL : ∀ j : Fin 2, xblk3 m c ⟨n + 1, hn⟩ (ix2 (0 : Fin 1) j) = linb (ix1 j) :=
    fun j => (congrFun (xblk3_eq m c ⟨n + 1, hn⟩) (ix2 (0 : Fin 1) j)).trans (E.bias j)
  funext i
  obtain ⟨g, j, rfl⟩ : ∃ (g : Fin 512) (j : Fin 2), i = ix2 g j := ⟨i 0, i 1, eq_ix2 i⟩
  rw [Cert.Spec.poolArr_ix2, outsAt0_C m c ⟨n + 1, hn⟩ h0 h1]
  unfold outs0_C
  dsimp only
  refine (congrFun e (ix2 g j)).trans ?_
  exact pay6_pool o b linW linb hA hC hW hL g j

variable (o b linW linb) in
/-- The result array: the pooled specification, as contents of the output buffer. -/
abbrev result (c : Dev nD) : Buf (Elt Ideal) ((c : Thread nD τ).loc main_v49) := Cert.Spec.poolArr o b linW linb

/-- The one write-back, at the last point, writes the result: its block is the whole array. -/
theorem flushed_eq {c : Dev nD} (E : Entry m o b linW linb c) (t : Fin cfg0.N) (hf : (cfg0.win 4).flush t = true) :
    (dats m 0 c).flushed 4 t = ((cfg0.win 4).blk t).view.read (Elt Ideal) (result o b linW linb c) := by
  have h39 : t.val = 39 := (flush4_iff t).1 hf
  refine Eq.trans ?_ (read_blk4 (F := Ideal) (result o b linW linb c) t).symm
  obtain ⟨tv, ht⟩ := t
  cases tv with
  | zero => exact absurd h39 (show ¬(0 : ℕ) = 39 by decide)
  | succ n =>
    have h1 : (n + 1) % 40 = 39 := by dsimp only at h39; omega
    show (cfg0.win 4).cut (grid0.coords ⟨n + 1, ht⟩) ((dats m 0 c).after 4 ⟨n + 1, ht⟩) = _
    rw [after0_4]
    exact out_at E n ht h1

/-- So the output array ends holding the pooled specification. -/
theorem final {c : Dev nD} (E : Entry m o b linW linb c) : (dats m 0 c).arrAt 4 cfg0.N = result o b linW linb c :=
  (dats m 0 c).arrAt_eq_of_cover 4 (result o b linW linb c) (flushed_eq E) cover4

end Law

/-- The run, read: on every core the output array ends at the pooled specification of what the region found there,
    and the ten arguments end as they began. -/
theorem run_val_of (o : Dev nD → Fin 100000 → Fin 64 → EReal) (b : Dev nD → IVec ⟨1, ![100000]⟩ 32)
    (linW : Dev nD → (⟨2, ![64, 2]⟩ : Shape).Idx → EReal) (linb : Dev nD → (⟨1, ![2]⟩ : Shape).Idx → EReal)
    (E : ∀ c : Dev nD, Entry m (o c) (b c) (linW c) (linb c) c) :
    θ_run defs (onTc (τ := τ) (main (F := Ideal))) ⟨m, fun _ => 0, ρ⟩ (fun r => ∀ c : Dev nD,
      r.2.mem ((c.tc : Thread nD τ).loc main_v49) = result (o c) (b c) (linW c) (linb c) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 4).trans (final (E c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 2).trans ((((dats m 0 c).arrAt_in 2 rfl _).trans ((A_eq m c 2).trans (V_main_arg8 m c)))),
      ((h c).2 main_arg9 (Pipeline.mem_restRefs_of main_arg9 (by decide) (by decide))).trans (V_main_arg9 m c)⟩)
    (run_main m ρ)

end Cert.KernelIdeal.Val

end
-- ==== Proof.KI.HostDefs.lean ====
/-
  The host part of the kernel's program, before its one kernel region, as pure terms over the argument arrays.

  Each definition is one printed operation's function applied to its operands' terms, in program order: the table
  [10000, 256] = (E·Wroot + bias | E·Wrel[0] | E·Wrel[1] | E·Wrel[2]), its rows taken by the token array (with the
  out-of-range fill), the relation part reshaped to [300000, 64] and gathered at the words src*3+etype, the messages
  scatter-added at the words dst*3+etype, the counts likewise, the division by max(count, 1), the sum over the three
  relations plus the root part; then the padding of the result to 102400 rows, of the graph words with 512, and the
  reshapes the kernel region's windows read.
-/
import proofs.«415698_j88648124990150_2_alg».proof.KernelIdeal

noncomputable section

namespace Cert.KernelIdeal.HostVal

open Cert.KernelIdeal Idealize.ShloMosaic Idealize.SL.Sem
open Cert.KernelIdeal.Facts₀ Cert.KernelIdeal.Facts

variable {F : FTy → Type} [FloatOps F] [Cert.KernelIdeal.Facts]

/-! ## The table -/
/-- %0: the embeddings times the root weights. -/
def v0 (a4 : FVec F S10000x64 .f32) (a6 : FVec F S64x64 .f32) : FVec F S10000x64 .f32 :=
  Host.dotGeneral dot_S10000x64_S64x64_S10000x64_1_0_0_1_n_n none a4 a6
def v1 (a7 : FVec F S64 .f32) : FVec F S1x64 .f32 :=
  broadcastInDim S1x64 ![1] bcast_S64_S1x64_1 a7
def v2 (a7 : FVec F S64 .f32) : FVec F S10000x64 .f32 :=
  broadcastInDim S10000x64 ![0, 1] bcast_S1x64_S10000x64_0_1 (v1 (F := F) a7)
/-- %3: the root block, E·Wroot + bias. -/
def v3 (a4 : FVec F S10000x64 .f32) (a6 : FVec F S64x64 .f32) (a7 : FVec F S64 .f32) : FVec F S10000x64 .f32 :=
  addf (v0 (F := F) a4 a6) (v2 (F := F) a7)
def v4 (a5 : FVec F S3x64x64 .f32) : FVec F S1x64x64 .f32 :=
  extractStridedSlice S1x64x64 ![0, 0, 0] a5 slices_S3x64x64_S1x64x64_0_0_0
def v5 (a5 : FVec F S3x64x64 .f32) : FVec F S64x64 .f32 :=
  shapeCast S64x64 (v4 (F := F) a5) shapeCasts_S1x64x64_S64x64
/-- %6: relation 0's block, E·Wrel[0]. -/
def v6 (a4 : FVec F S10000x64 .f32) (a5 : FVec F S3x64x64 .f32) : FVec F S10000x64 .f32 :=
  Host.dotGeneral dot_S10000x64_S64x64_S10000x64_1_0_0_1_n_n none a4 (v5 (F := F) a5)
def v7 (a5 : FVec F S3x64x64 .f32) : FVec F S1x64x64 .f32 :=
  extractStridedSlice S1x64x64 ![1, 0, 0] a5 slices_S3x64x64_S1x64x64_1_0_0
def v8 (a5 : FVec F S3x64x64 .f32) : FVec F S64x64 .f32 :=
  shapeCast S64x64 (v7 (F := F) a5) shapeCasts_S1x64x64_S64x64
/-- %9: relation 1's block, E·Wrel[1]. -/
def v9 (a4 : FVec F S10000x64 .f32) (a5 : FVec F S3x64x64 .f32) : FVec F S10000x64 .f32 :=
  Host.dotGeneral dot_S10000x64_S64x64_S10000x64_1_0_0_1_n_n none a4 (v8 (F := F) a5)
def v10 (a5 : FVec F S3x64x64 .f32) : FVec F S1x64x64 .f32 :=
  extractStridedSlice S1x64x64 ![2, 0, 0] a5 slices_S3x64x64_S1x64x64_2_0_0
def v11 (a5 : FVec F S3x64x64 .f32) : FVec F S64x64 .f32 :=
  shapeCast S64x64 (v10 (F := F) a5) shapeCasts_S1x64x64_S64x64
/-- %12: relation 2's block, E·Wrel[2]. -/
def v12 (a4 : FVec F S10000x64 .f32) (a5 : FVec F S3x64x64 .f32) : FVec F S10000x64 .f32 :=
  Host.dotGeneral dot_S10000x64_S64x64_S10000x64_1_0_0_1_n_n none a4 (v11 (F := F) a5)
/-- %13: the four blocks side by side. -/
def tbl (a4 : FVec F S10000x64 .f32) (a5 : FVec F S3x64x64 .f32) (a6 : FVec F S64x64 .f32) (a7 : FVec F S64 .f32) : FVec F S10000x256 .f32 :=
  concatenate S10000x256 1 [⟨S10000x64, (v3 (F := F) a4 a6 a7)⟩, ⟨S10000x64, (v6 (F := F) a4 a5)⟩, ⟨S10000x64, (v9 (F := F) a4 a5)⟩, ⟨S10000x64, (v12 (F := F) a4 a5)⟩] concatenates_S10000x64_S10000x64_S10000x64_S10000x64_S10000x256_d1

/-! ## The rows of the table taken by the token array -/
def t0_c : IVec S_ 32 :=
  constantI S_ 32 0#32
def t0_v0 : IVec S100000 32 :=
  broadcastInDim S100000 ![] bcast_S_S100000 t0_c
def t0_v1 (a0 : IVec S100000 32) : IVec S100000 1 :=
  cmpi .slt a0 t0_v0
def t0_c_0 : IVec S_ 32 :=
  constantI S_ 32 10000#32
def t0_v2 : IVec S100000 32 :=
  broadcastInDim S100000 ![] bcast_S_S100000 t0_c_0
def t0_v3 (a0 : IVec S100000 32) : IVec S100000 32 :=
  addi a0 t0_v2
/-- the index, a negative word moved up by the extent once -/
def t0_v4 (a0 : IVec S100000 32) : IVec S100000 32 :=
  select (t0_v1 a0) (t0_v3 a0) a0
def t0_v5 (a0 : IVec S100000 32) : IVec S100000x1 32 :=
  broadcastInDim S100000x1 ![0] bcast_S100000_S100000x1_0 (t0_v4 a0)
def t0_c_1 : IVec S1 32 :=
  constantI S1 32 9999#32
def t0_c_2 : IVec S_ 32 :=
  constantI S_ 32 0#32
def t0_v6 : IVec S100000x1 32 :=
  broadcastInDim S100000x1 ![] bcast_S_S100000x1 t0_c_2
def t0_v7 (a0 : IVec S100000 32) : IVec S100000x1 1 :=
  cmpi .sge (t0_v5 a0) t0_v6
def t0_v8 : IVec S1x1 32 :=
  broadcastInDim S1x1 ![1] bcast_S1_S1x1_1 t0_c_1
def t0_v9 : IVec S100000x1 32 :=
  broadcastInDim S100000x1 ![0, 1] bcast_S1x1_S100000x1_0_1 t0_v8
def t0_v10 (a0 : IVec S100000 32) : IVec S100000x1 1 :=
  cmpi .sle (t0_v5 a0) t0_v9
def t0_v11 (a0 : IVec S100000 32) : IVec S100000x1 1 :=
  andi (t0_v7 a0) (t0_v10 a0)
def t0_c_3 : IVec S_ 1 :=
  constantI S_ 1 1#1
/-- the in-range mask, one bit per index -/
def t0_v12 (a0 : IVec S100000 32) : IVec S100000 1 :=
  Host.reduce IntOp.andi (t0_v11 a0) t0_c_3 reducesTo_S100000x1_S100000_d1 h_S_
/-- the gathered rows -/
def t0_v13 (a0 : IVec S100000 32) (a4 : FVec F S10000x64 .f32) (a5 : FVec F S3x64x64 .f32) (a6 : FVec F S64x64 .f32) (a7 : FVec F S64 .f32) : FVec F S100000x256 .f32 :=
  Host.gather gather_S10000x256_S100000x1_S100000x256_1_0_n_n_0_1_1256 (tbl (F := F) a4 a5 a6 a7) (t0_v5 a0)
def t0_v14 (a0 : IVec S100000 32) : IVec S100000x256 1 :=
  broadcastInDim S100000x256 ![0] bcast_S100000_S100000x256_0 (t0_v12 a0)
def t0_cst : FVec F S_ .f32 :=
  constant S_ .f32 0x7FC00000#32
def t0_v15 : FVec F S100000x256 .f32 :=
  broadcastInDim S100000x256 ![] bcast_S_S100000x256 (t0_cst (F := F))
/-- %14: row x[n] of the table for every node n (the fill where the token is out of range). -/
def combined (a0 : IVec S100000 32) (a4 : FVec F S10000x64 .f32) (a5 : FVec F S3x64x64 .f32) (a6 : FVec F S64x64 .f32) (a7 : FVec F S64 .f32) : FVec F S100000x256 .f32 :=
  select (t0_v14 a0) (t0_v13 (F := F) a0 a4 a5 a6 a7) (t0_v15 (F := F))

/-! ## The root part, the relation part, the fused indices -/
/-- %15: columns 0..63. -/
def outRoot (a0 : IVec S100000 32) (a4 : FVec F S10000x64 .f32) (a5 : FVec F S3x64x64 .f32) (a6 : FVec F S64x64 .f32) (a7 : FVec F S64 .f32) : FVec F S100000x64 .f32 :=
  extractStridedSlice S100000x64 ![0, 0] (combined (F := F) a0 a4 a5 a6 a7) slices_S100000x256_S100000x64_0_0
def v16 (a0 : IVec S100000 32) (a4 : FVec F S10000x64 .f32) (a5 : FVec F S3x64x64 .f32) (a6 : FVec F S64x64 .f32) (a7 : FVec F S64 .f32) : FVec F S100000x192 .f32 :=
  extractStridedSlice S100000x192 ![0, 64] (combined (F := F) a0 a4 a5 a6 a7) slices_S100000x256_S100000x192_0_64
/-- %17: row 3n+r is relation r's transform of node n. -/
def hrFlat (a0 : IVec S100000 32) (a4 : FVec F S10000x64 .f32) (a5 : FVec F S3x64x64 .f32) (a6 : FVec F S64x64 .f32) (a7 : FVec F S64 .f32) : FVec F S300000x64 .f32 :=
  shapeCast S300000x64 (v16 (F := F) a0 a4 a5 a6 a7) shapeCasts_S100000x192_S300000x64
def v18 (a1 : IVec S2x1000000 32) : IVec S1x1000000 32 :=
  extractStridedSlice S1x1000000 ![0, 0] a1 slices_S2x1000000_S1x1000000_0_0
/-- %19: the sources. -/
def v19 (a1 : IVec S2x1000000 32) : IVec S1000000 32 :=
  shapeCast S1000000 (v18 a1) shapeCasts_S1x1000000_S1000000
def v20 (a1 : IVec S2x1000000 32) : IVec S1x1000000 32 :=
  extractStridedSlice S1x1000000 ![1, 0] a1 slices_S2x1000000_S1x1000000_1_0
/-- %21: the destinations. -/
def v21 (a1 : IVec S2x1000000 32) : IVec S1000000 32 :=
  shapeCast S1000000 (v20 a1) shapeCasts_S1x1000000_S1000000
def c3 : IVec S_ 32 :=
  constantI S_ 32 3#32
def v22 : IVec S1000000 32 :=
  broadcastInDim S1000000 ![] bcast_S_S1000000 c3
def v23 (a1 : IVec S2x1000000 32) : IVec S1000000 32 :=
  muli (v19 a1) v22
/-- %24: src*3 + etype. -/
def idxSrc (a1 : IVec S2x1000000 32) (a2 : IVec S1000000 32) : IVec S1000000 32 :=
  addi (v23 a1) a2
def v26 (a1 : IVec S2x1000000 32) : IVec S1000000 32 :=
  muli (v21 a1) v22
/-- %27: dst*3 + etype. -/
def idxDst (a1 : IVec S2x1000000 32) (a2 : IVec S1000000 32) : IVec S1000000 32 :=
  addi (v26 a1) a2

/-! ## The messages: rows of the relation part taken by src*3 + etype -/
def t1_c : IVec S_ 32 :=
  constantI S_ 32 0#32
def t1_v0 : IVec S1000000 32 :=
  broadcastInDim S1000000 ![] bcast_S_S1000000 t1_c
def t1_v1 (a1 : IVec S2x1000000 32) (a2 : IVec S1000000 32) : IVec S1000000 1 :=
  cmpi .slt (idxSrc a1 a2) t1_v0
def t1_c_0 : IVec S_ 32 :=
  constantI S_ 32 300000#32
def t1_v2 : IVec S1000000 32 :=
  broadcastInDim S1000000 ![] bcast_S_S1000000 t1_c_0
def t1_v3 (a1 : IVec S2x1000000 32) (a2 : IVec S1000000 32) : IVec S1000000 32 :=
  addi (idxSrc a1 a2) t1_v2
/-- the index, a negative word moved up by the extent once -/
def t1_v4 (a1 : IVec S2x1000000 32) (a2 : IVec S1000000 32) : IVec S1000000 32 :=
  select (t1_v1 a1 a2) (t1_v3 a1 a2) (idxSrc a1 a2)
def t1_v5 (a1 : IVec S2x1000000 32) (a2 : IVec S1000000 32) : IVec S1000000x1 32 :=
  broadcastInDim S1000000x1 ![0] bcast_S1000000_S1000000x1_0 (t1_v4 a1 a2)
def t1_c_1 : IVec S1 32 :=
  constantI S1 32 299999#32
def t1_c_2 : IVec S_ 32 :=
  constantI S_ 32 0#32
def t1_v6 : IVec S1000000x1 32 :=
  broadcastInDim S1000000x1 ![] bcast_S_S1000000x1 t1_c_2
def t1_v7 (a1 : IVec S2x1000000 32) (a2 : IVec S1000000 32) : IVec S1000000x1 1 :=
  cmpi .sge (t1_v5 a1 a2) t1_v6
def t1_v8 : IVec S1x1 32 :=
  broadcastInDim S1x1 ![1] bcast_S1_S1x1_1 t1_c_1
def t1_v9 : IVec S1000000x1 32 :=
  broadcastInDim S1000000x1 ![0, 1] bcast_S1x1_S1000000x1_0_1 t1_v8
def t1_v10 (a1 : IVec S2x1000000 32) (a2 : IVec S1000000 32) : IVec S1000000x1 1 :=
  cmpi .sle (t1_v5 a1 a2) t1_v9
def t1_v11 (a1 : IVec S2x1000000 32) (a2 : IVec S1000000 32) : IVec S1000000x1 1 :=
  andi (t1_v7 a1 a2) (t1_v10 a1 a2)
def t1_c_3 : IVec S_ 1 :=
  constantI S_ 1 1#1
/-- the in-range mask, one bit per index -/
def t1_v12 (a1 : IVec S2x1000000 32) (a2 : IVec S1000000 32) : IVec S1000000 1 :=
  Host.reduce IntOp.andi (t1_v11 a1 a2) t1_c_3 reducesTo_S1000000x1_S1000000_d1 h_S_
/-- the gathered rows -/
def t1_v13 (a0 : IVec S100000 32) (a1 : IVec S2x1000000 32) (a2 : IVec S1000000 32) (a4 : FVec F S10000x64 .f32) (a5 : FVec F S3x64x64 .f32) (a6 : FVec F S64x64 .f32) (a7 : FVec F S64 .f32) : FVec F S1000000x64 .f32 :=
  Host.gather gather_S300000x64_S1000000x1_S1000000x64_1_0_n_n_0_1_164 (hrFlat (F := F) a0 a4 a5 a6 a7) (t1_v5 a1 a2)
def t1_v14 (a1 : IVec S2x1000000 32) (a2 : IVec S1000000 32) : IVec S1000000x64 1 :=
  broadcastInDim S1000000x64 ![0] bcast_S1000000_S1000000x64_0 (t1_v12 a1 a2)
def t1_cst : FVec F S_ .f32 :=
  constant S_ .f32 0x7FC00000#32
def t1_v15 : FVec F S1000000x64 .f32 :=
  broadcastInDim S1000000x64 ![] bcast_S_S1000000x64 (t1_cst (F := F))
/-- %28: one row per edge. -/
def msg (a0 : IVec S100000 32) (a1 : IVec S2x1000000 32) (a2 : IVec S1000000 32) (a4 : FVec F S10000x64 .f32) (a5 : FVec F S3x64x64 .f32) (a6 : FVec F S64x64 .f32) (a7 : FVec F S64 .f32) : FVec F S1000000x64 .f32 :=
  select (t1_v14 a1 a2) (t1_v13 (F := F) a0 a1 a2 a4 a5 a6 a7) (t1_v15 (F := F))

/-! ## The sums and the counts per (node, relation), the means, the result -/
def zeroF : FVec F S_ .f32 :=
  constant S_ .f32 0x00000000#32
def oneFc : FVec F S_ .f32 :=
  constant S_ .f32 0x3F800000#32
def v29 : FVec F S300000x64 .f32 :=
  broadcastInDim S300000x64 ![] bcast_S_S300000x64 (zeroF (F := F))
def v30 (a1 : IVec S2x1000000 32) (a2 : IVec S1000000 32) : IVec S1000000x1 32 :=
  broadcastInDim S1000000x1 ![0] bcast_S1000000_S1000000x1_0 (idxDst a1 a2)
/-- %31: row 3n+r sums the messages of the edges of relation r into n. -/
def aggFlat (a0 : IVec S100000 32) (a1 : IVec S2x1000000 32) (a2 : IVec S1000000 32) (a4 : FVec F S10000x64 .f32) (a5 : FVec F S3x64x64 .f32) (a6 : FVec F S64x64 .f32) (a7 : FVec F S64 .f32) : FVec F S300000x64 .f32 :=
  Host.scatterAdd scatter_S300000x64_S1000000x1_S1000000x64_1_0_0_1 (v29 (F := F)) (v30 a1 a2) (msg (F := F) a0 a1 a2 a4 a5 a6 a7)
def v32 : FVec F S1000000 .f32 :=
  broadcastInDim S1000000 ![] bcast_S_S1000000 (oneFc (F := F))
def v33 : FVec F S300000 .f32 :=
  broadcastInDim S300000 ![] bcast_S_S300000 (zeroF (F := F))
/-- %35: entry 3n+r counts those edges. -/
def cntFlat (a1 : IVec S2x1000000 32) (a2 : IVec S1000000 32) : FVec F S300000 .f32 :=
  Host.scatterAdd scatter_S300000_S1000000x1_S1000000_n_0_0_1 (v33 (F := F)) (v30 a1 a2) (v32 (F := F))
def v36 (a0 : IVec S100000 32) (a1 : IVec S2x1000000 32) (a2 : IVec S1000000 32) (a4 : FVec F S10000x64 .f32) (a5 : FVec F S3x64x64 .f32) (a6 : FVec F S64x64 .f32) (a7 : FVec F S64 .f32) : FVec F S100000x3x64 .f32 :=
  shapeCast S100000x3x64 (aggFlat (F := F) a0 a1 a2 a4 a5 a6 a7) shapeCasts_S300000x64_S100000x3x64
def v37 (a1 : IVec S2x1000000 32) (a2 : IVec S1000000 32) : FVec F S100000x3 .f32 :=
  shapeCast S100000x3 (cntFlat (F := F) a1 a2) shapeCasts_S300000_S100000x3
def v38 : FVec F S100000x3 .f32 :=
  broadcastInDim S100000x3 ![] bcast_S_S100000x3 (oneFc (F := F))
def v39 (a1 : IVec S2x1000000 32) (a2 : IVec S1000000 32) : FVec F S100000x3 .f32 :=
  maximumf (v37 (F := F) a1 a2) (v38 (F := F))
def v40 (a1 : IVec S2x1000000 32) (a2 : IVec S1000000 32) : FVec F S100000x3x1 .f32 :=
  broadcastInDim S100000x3x1 ![0, 1] bcast_S100000x3_S100000x3x1_0_1 (v39 (F := F) a1 a2)
def v41 (a1 : IVec S2x1000000 32) (a2 : IVec S1000000 32) : FVec F S100000x3x64 .f32 :=
  broadcastInDim S100000x3x64 ![0, 1, 2] bcast_S100000x3x1_S100000x3x64_0_1_2 (v40 (F := F) a1 a2)
/-- %42: the means. -/
def v42 (a0 : IVec S100000 32) (a1 : IVec S2x1000000 32) (a2 : IVec S1000000 32) (a4 : FVec F S10000x64 .f32) (a5 : FVec F S3x64x64 .f32) (a6 : FVec F S64x64 .f32) (a7 : FVec F S64 .f32) : FVec F S100000x3x64 .f32 :=
  Host.divf (v36 (F := F) a0 a1 a2 a4 a5 a6 a7) (v41 (F := F) a1 a2)
/-- %43: summed over the three relations. -/
def v43 (a0 : IVec S100000 32) (a1 : IVec S2x1000000 32) (a2 : IVec S1000000 32) (a4 : FVec F S10000x64 .f32) (a5 : FVec F S3x64x64 .f32) (a6 : FVec F S64x64 .f32) (a7 : FVec F S64 .f32) : FVec F S100000x64 .f32 :=
  Host.reduceAdd (v42 (F := F) a0 a1 a2 a4 a5 a6 a7) (zeroF (F := F)) reducesTo_S100000x3x64_S100000x64_d1 h_S_
/-- %44: the node features before the rectifier. -/
def hostOut (a0 : IVec S100000 32) (a1 : IVec S2x1000000 32) (a2 : IVec S1000000 32) (a4 : FVec F S10000x64 .f32) (a5 : FVec F S3x64x64 .f32) (a6 : FVec F S64x64 .f32) (a7 : FVec F S64 .f32) : FVec F S100000x64 .f32 :=
  addf (outRoot (F := F) a0 a4 a5 a6 a7) (v43 (F := F) a0 a1 a2 a4 a5 a6 a7)

/-! ## What the kernel region's windows read -/
def c0w : IVec S_ 32 :=
  constantI S_ 32 0#32
/-- the pad value: the word 0 converted -/
def padF : FVec F S_ .f32 :=
  sitofp .f32 c0w
/-- %45: the node features with 2400 zero rows appended. -/
def outP (a0 : IVec S100000 32) (a1 : IVec S2x1000000 32) (a2 : IVec S1000000 32) (a4 : FVec F S10000x64 .f32) (a5 : FVec F S3x64x64 .f32) (a6 : FVec F S64x64 .f32) (a7 : FVec F S64 .f32) : FVec F S102400x64 .f32 :=
  pad S102400x64 ![0, 0] ![2400, 0] ![0, 0] (hostOut (F := F) a0 a1 a2 a4 a5 a6 a7) (padF (F := F)) pads_S100000x64_S102400x64_024000_000 h_S_
def c512 : IVec S_ 32 :=
  constantI S_ 32 512#32
def padW : IVec S_ 32 :=
  id c512
def v46 (a3 : IVec S100000 32) : IVec S102400 32 :=
  pad S102400 ![0] ![2400] ![0] a3 padW pads_S100000_S102400_024000 h_S_
/-- %47: the graph words with 2400 words 512 appended, as one row. -/
def batP (a3 : IVec S100000 32) : IVec S1x102400 32 :=
  shapeCast S1x102400 (v46 a3) shapeCasts_S102400_S1x102400
/-- %48: the head's bias as one row. -/
def linbP (a9 : FVec F S2 .f32) : FVec F S1x2 .f32 :=
  shapeCast S1x2 a9 shapeCasts_S2_S1x2

end Cert.KernelIdeal.HostVal

end
-- ==== Proof.LibScatterGather.lean ====
/-
  ROW GATHERS AND ROW SCATTER-ADDS READ AT AN INDEX, with the words, literals and sums around them.

  A gather of whole rows of an [N, C] table at M start indices (a column [M, 1] of words) returns, at (e, h), the table's
  entry (row, h), where row is the e-th start index read as a signed integer and clamped into [0, N - 1].
  A scatter-add of M rows (an [M, C] array) into an [N, C] operand at M start indices adds, at (n, h), the entries (e, h)
  of every update row e whose start index, read as a signed integer and NOT clamped, is n; an update that lands outside
  the operand is dropped.  The vector form scatters M scalars into an [N] operand.
  Around them: a 32-bit word below 2^31 reads the same signed and unsigned; a product-plus-sum of words that stays
  below 2^32 does not wrap; the pair (a, b) with b < 3 is recovered from 3a + b; the float words of one and zero and
  the conversion of a one-bit word; and a sum of terms masked by an indicator is the sum over the smaller set.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

/-! ## (a) A gather of rows, read at an index -/

/-- The row gather's dimension numbers for a table [N, C], start indices [M, 1] and a result [M, C]. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at (e, h). -/
theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

/-- THE ROW GATHER AT (e, h): the table's entry (row, h), the row being the e-th start index read signed and clamped
    into [0, N - 1]. The record's lists are hypotheses, so that a program's record is an instance by seven rfl's. -/
theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

/-- The same when the e-th start index, a 32-bit word, is below N (and N ≤ 2^31): the row is the word's value. -/
theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

/-! ## (b) A scatter-add of rows, read at an index -/

/-- An update lands at operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

/-- The row scatter's dimension numbers for an operand [N, C], start indices [M, 1] and updates [M, C]. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (e, c) of a row scatter lands at (n, h) exactly when row e's start index, read signed, is n and c = h. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

/-- The row scatter-add with those dimension numbers, read at (n, h). -/
theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

/-- THE ROW SCATTER-ADD AT (n, h): the operand's entry plus the entries (e, h) of the update rows e whose start index,
    read signed and not clamped, is n. -/
theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

/-- The same for the program's operation at the exact instance (whatever the float format). -/
theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

/-! ## (c) A scatter-add of scalars into a vector, read at an index -/

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The scalar scatter's dimension numbers for an operand [N], start indices [M, 1] and updates [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e of a scalar scatter lands at n exactly when its start index, read signed, is n. -/
theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

/-- The scalar scatter-add with those dimension numbers, read at n. -/
theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

/-- THE SCALAR SCATTER-ADD AT n: the operand's entry plus the updates e whose start index, read signed and not
    clamped, is n. -/
theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

/-- The same for the program's operation at the exact instance. -/
theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

/-- When every start index is below 2^31, "read signed it is n" is "its value is n". -/
theorem filter_toInt_eq {M : Nat} (I : Fin M → BitVec 32) (hI : ∀ e, (I e).toNat < 2 ^ 31) (n : Nat) :
    Finset.univ.filter (fun e : Fin M => (I e).toInt = (n : Int))
      = Finset.univ.filter (fun e : Fin M => (I e).toNat = n) := by
  refine Finset.filter_congr fun e _ => ?_
  rw [BitVec.toInt_eq_toNat_of_lt (by have := hI e; omega)]
  exact Int.natCast_inj

/-! ## (d) Words -/

/-- A 32-bit word below 2^31 reads the same signed and unsigned. -/
theorem toInt_eq_toNat (w : BitVec 32) (h : w.toNat < 2 ^ 31) : w.toInt = (w.toNat : Int) :=
  BitVec.toInt_eq_toNat_of_lt (by omega)

/-- The word of a natural below 2^32 has that value. -/
theorem toNat_ofNat_lt (k : Nat) (h : k < 2 ^ 32) : (BitVec.ofNat 32 k).toNat = k := by
  rw [BitVec.toNat_ofNat]; exact Nat.mod_eq_of_lt h

/-- A product plus a sum of words that stays below 2^32 does not wrap. -/
theorem toNat_mul_add (a c b : BitVec 32) (h : a.toNat * c.toNat + b.toNat < 2 ^ 32) :
    (a * c + b).toNat = a.toNat * c.toNat + b.toNat := by
  have h1 : a.toNat * c.toNat < 2 ^ 32 := Nat.lt_of_le_of_lt (Nat.le_add_right _ _) h
  rw [BitVec.toNat_add, BitVec.toNat_mul, Nat.mod_eq_of_lt h1, Nat.mod_eq_of_lt h]

/-- The fused index 3a + b as a word: no wrap while 3a + b < 2^32. -/
theorem toNat_mul3_add (a b : BitVec 32) (h : 3 * a.toNat + b.toNat < 2 ^ 32) :
    (a * 3#32 + b).toNat = 3 * a.toNat + b.toNat := by
  have h3 : (3#32 : BitVec 32).toNat = 3 := by decide
  rw [toNat_mul_add a 3#32 b (by rw [h3]; omega), h3]; omega

/-- The same through the integer operations' names. -/
theorem toNat_muli3_addi (a b : BitVec 32) (h : 3 * a.toNat + b.toNat < 2 ^ 32) :
    (IntOp.addi (IntOp.muli a 3#32) b).toNat = 3 * a.toNat + b.toNat :=
  toNat_mul3_add a b h

/-- The pair (a, b) with b < 3 is recovered from 3a + b. -/
theorem fused3_inj {a a' b b' : Nat} (hb : b < 3) (hb' : b' < 3) : 3 * a + b = 3 * a' + b' ↔ a = a' ∧ b = b' := by
  omega

/-- Its quotient by 3 is a. -/
theorem fused3_div {a b : Nat} (hb : b < 3) : (3 * a + b) / 3 = a := by
  omega

/-- Its remainder by 3 is b. -/
theorem fused3_mod {a b : Nat} (hb : b < 3) : (3 * a + b) % 3 = b := by
  omega

/-! ## (e) Literals and one-bit conversions at the exact instance -/

/-- The f32 word 0x3F800000 is one. -/
theorem ofBits_one_f32 : Ideal.ofBits .f32 0x3F800000#32 = (1 : EReal) := Ideal.ofBits_one_f32

/-- The f32 word 0 is zero. -/
theorem ofBits_zero_f32 : Ideal.ofBits .f32 0#32 = (0 : EReal) := Ideal.ofBits_zero_f32

/-- A one-bit word is 0 or 1. -/
theorem bit_cases (b : BitVec 1) : b = 0#1 ∨ b = 1#1 := by
  revert b; decide

/-- A one-bit word converted unsigned is one when the bit is set and zero when it is not. -/
theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

/-- The set bit converts to one. -/
theorem uitofp_bit_one {φ : FTy} : (FloatOps.uitofp φ (1#1 : BitVec 1) : Ideal φ) = (1 : EReal) := by
  rw [uitofp_bit, if_pos rfl]

/-- The clear bit converts to zero. -/
theorem uitofp_bit_zero {φ : FTy} : (FloatOps.uitofp φ (0#1 : BitVec 1) : Ideal φ) = (0 : EReal) := by
  rw [uitofp_bit, if_neg (by decide)]

/-- A one-bit word widened to 32 bits and converted signed: one when the bit is set, zero when it is not. -/
theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

/-! ## (f) Sums -/

/-- A filtered sum is the sum of the terms switched by the condition. -/
theorem sum_filter_eq_ite {ι : Type*} (S : Finset ι) (p : ι → Prop) [DecidablePred p] (f : ι → EReal) :
    ∑ e ∈ S.filter p, f e = ∑ e ∈ S, (if p e then f e else 0) :=
  Finset.sum_filter p f

/-- A term times an indicator is the term or zero (no finiteness needed: x · 1 = x and x · 0 = 0 at ±∞ too). -/
theorem mul_ite_one_zero (x : EReal) (c : Prop) [Decidable c] : x * (if c then (1 : EReal) else 0) = if c then x else 0 := by
  split_ifs
  · exact mul_one x
  · exact mul_zero x

/-- The same with the indicator on the left. -/
theorem ite_one_zero_mul (x : EReal) (c : Prop) [Decidable c] : (if c then (1 : EReal) else 0) * x = if c then x else 0 := by
  split_ifs
  · exact one_mul x
  · exact zero_mul x

/-- A filtered sum of terms each masked by an indicator is the sum over the doubly filtered set. -/
theorem sum_filter_mul_ite {ι : Type*} (S : Finset ι) (p q : ι → Prop) [DecidablePred p] [DecidablePred q] (f : ι → EReal) :
    ∑ e ∈ S.filter p, f e * (if q e then (1 : EReal) else 0) = ∑ e ∈ S.filter (fun e => p e ∧ q e), f e := by
  rw [← Finset.filter_filter, Finset.sum_filter q f]
  exact Finset.sum_congr rfl fun e _ => mul_ite_one_zero (f e) (q e)

/-- The same with the indicator on the left. -/
theorem sum_filter_ite_mul {ι : Type*} (S : Finset ι) (p q : ι → Prop) [DecidablePred p] [DecidablePred q] (f : ι → EReal) :
    ∑ e ∈ S.filter p, (if q e then (1 : EReal) else 0) * f e = ∑ e ∈ S.filter (fun e => p e ∧ q e), f e := by
  rw [← Finset.filter_filter, Finset.sum_filter q f]
  exact Finset.sum_congr rfl fun e _ => ite_one_zero_mul (f e) (q e)

/-- The masked scatter's form: over the edges into n, a term masked by "the relation is r" sums over the edges of
    relation r into n. -/
theorem sum_filter_eq_mul_ite_eq {ι κ ρ : Type*} [Fintype ι] [DecidableEq κ] [DecidableEq ρ] (D : ι → κ) (R : ι → ρ)
    (n : κ) (r : ρ) (f : ι → EReal) :
    ∑ e ∈ Finset.univ.filter (fun e => D e = n), f e * (if R e = r then (1 : EReal) else 0)
      = ∑ e ∈ Finset.univ.filter (fun e => D e = n ∧ R e = r), f e :=
  sum_filter_mul_ite Finset.univ (fun e => D e = n) (fun e => R e = r) f

/-- A filtered sum of indicators counts the doubly filtered set (each member weighing one). -/
theorem sum_filter_ite_one {ι : Type*} (S : Finset ι) (p q : ι → Prop) [DecidablePred p] [DecidablePred q] :
    ∑ e ∈ S.filter p, (if q e then (1 : EReal) else 0) = ∑ _e ∈ S.filter (fun e => p e ∧ q e), (1 : EReal) := by
  rw [← Finset.filter_filter, Finset.sum_filter q (fun _ => (1 : EReal))]

end Cert.LibSG

end
-- ==== Proof.KI.HostTable.lean ====
/-
  The kernel's table and its rows taken by the tokens, read at an index.

  The table is [10000, 256]: columns 0..63 are E·Wroot + bias, columns 64(r+1) .. 64(r+1)+63 are E·Wrel[r] for the three
  relations r.  A token below 10000 is a non-negative word, so the wrap of negative indices leaves it alone, the
  in-range bit is one, and the select takes the gathered row: row x[n] of the table.  Its first 64 columns are the
  specification's root part of node n; the other 192, reshaped to three rows of 64, are the relations' transforms of
  node n: row 3n + r, column h, is column 64(r+1) + h of the table's row x[n].
-/
import proofs.«415698_j88648124990150_2_alg».proof.Proof.KI.HostDefs
import proofs.«415698_j88648124990150_2_alg».proof.Proof.Spec
import proofs.«415698_j88648124990150_2_alg».proof.Proof.LibScatterGather
import Idealize.ShloMosaic.Lib.ValueIdx
import Idealize.ShloMosaic.Lib.ValueLayout
import Idealize.ShloMosaic.Lib.Pipeline.Value
import Idealize.ShloMosaic.PureOps.Ideal.Laws
import Idealize.ShloMosaic.Lib.ReduceAll

noncomputable section

open scoped BigOperators

namespace Cert.KernelIdeal.HostVal

open Cert.KernelIdeal Idealize.ShloMosaic Idealize.ShloMosaic.ValueIdx Idealize.SL.Sem
open Cert.KernelIdeal.Facts₀ Cert.KernelIdeal.Facts

variable [Cert.KernelIdeal.Facts]

/-! ## The table's blocks -/

/-- The product's left operand is read at the result's row … -/
theorem dot_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch from List.not_mem_nil),
    dif_pos (show (0 : Fin S10000x64.rank) ∈ dot_S10000x64_S64x64_S10000x64_1_0_0_1_n_n.lhsNonContracting from
      List.mem_singleton.2 rfl)]
  rfl
/-- … and the right operand at the result's column. -/
theorem dot_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch from List.not_mem_nil),
    dif_pos (show (1 : Fin S64x64.rank) ∈ dot_S10000x64_S64x64_S10000x64_1_0_0_1_n_n.rhsNonContracting from
      List.mem_singleton.2 rfl)]
  rfl

/-- The matrix product of the embeddings with a [64, 64] weight, entry (v, h). -/
theorem dot_apply (A : FVec Ideal S10000x64 .f32) (B : FVec Ideal S64x64 .f32) (v : Fin 10000) (h : Fin 64) :
    Host.dotGeneral dot_S10000x64_S64x64_S10000x64_1_0_0_1_n_n none A B (ix2 v h)
      = ∑ k : Fin 64, A (ix2 v k) * B (ix2 k h) := by
  simp only [Host.dotGeneral]
  rw [Ideal.dotGeneral_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 v h)
      ((ValueIdx.contrEquiv1 dot_S10000x64_S64x64_S10000x64_1_0_0_1_n_n 64 rfl rfl).symm k) = ix2 v k :=
    funext fun a => Fin.ext (by
      match a with
      | ⟨0, _⟩ => exact dot_lhs_0 _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 v h)
      ((ValueIdx.contrEquiv1 dot_S10000x64_S64x64_S10000x64_1_0_0_1_n_n 64 rfl rfl).symm k) = ix2 k h :=
    funext fun a => Fin.ext (by
      match a with
      | ⟨0, _⟩ => exact (dot_S10000x64_S64x64_S10000x64_1_0_0_1_n_n.rhsIdx_val_of_single rfl _ _).trans hk
      | ⟨1, _⟩ => exact dot_rhs_1 _ _)
  rw [el, er]

/-- Relation 0's weight: the first [64, 64] slab of the [3, 64, 64] array. -/
theorem v5_apply (a5 : FVec Ideal S3x64x64 .f32) (k h : Fin 64) :
    v5 (F := Ideal) a5 (ix2 k h) = a5 (ix3 (0 : Fin 3) k h) := by
  unfold v5 v4
  rw [shapeCast_1ab_ab_apply]
  exact extractStridedSlice_apply _ a5 slices_S3x64x64_S1x64x64_0_0_0 _ (ix3 (0 : Fin 3) k h) (fun a => by
    match a with
    | ⟨0, _⟩ => rfl
    | ⟨1, _⟩ => exact (Nat.zero_add _).symm
    | ⟨2, _⟩ => exact (Nat.zero_add _).symm)

/-- Relation 1's weight. -/
theorem v8_apply (a5 : FVec Ideal S3x64x64 .f32) (k h : Fin 64) :
    v8 (F := Ideal) a5 (ix2 k h) = a5 (ix3 (1 : Fin 3) k h) := by
  unfold v8 v7
  rw [shapeCast_1ab_ab_apply]
  exact extractStridedSlice_apply _ a5 slices_S3x64x64_S1x64x64_1_0_0 _ (ix3 (1 : Fin 3) k h) (fun a => by
    match a with
    | ⟨0, _⟩ => rfl
    | ⟨1, _⟩ => exact (Nat.zero_add _).symm
    | ⟨2, _⟩ => exact (Nat.zero_add _).symm)

/-- Relation 2's weight. -/
theorem v11_apply (a5 : FVec Ideal S3x64x64 .f32) (k h : Fin 64) :
    v11 (F := Ideal) a5 (ix2 k h) = a5 (ix3 (2 : Fin 3) k h) := by
  unfold v11 v10
  rw [shapeCast_1ab_ab_apply]
  exact extractStridedSlice_apply _ a5 slices_S3x64x64_S1x64x64_2_0_0 _ (ix3 (2 : Fin 3) k h) (fun a => by
    match a with
    | ⟨0, _⟩ => rfl
    | ⟨1, _⟩ => exact (Nat.zero_add _).symm
    | ⟨2, _⟩ => exact (Nat.zero_add _).symm)

/-- The root block at (v, h): row v of E times column h of Wroot, plus the bias. -/
theorem v3_apply (a4 : FVec Ideal S10000x64 .f32) (a6 : FVec Ideal S64x64 .f32) (a7 : FVec Ideal S64 .f32)
    (v : Fin 10000) (h : Fin 64) :
    v3 (F := Ideal) a4 a6 a7 (ix2 v h) = (∑ k : Fin 64, a4 (ix2 v k) * a6 (ix2 k h)) + a7 (ix1 h) := by
  unfold v3 v0 v2 v1
  rw [addf_apply, dot_apply]
  congr 1
  refine (broadcastInDim_apply _ bcast_S1x64_S10000x64_0_1 _ (ix2 v h) (ix2 (0 : Fin 1) h) (fun a => by
    match a with
    | ⟨0, _⟩ => rfl
    | ⟨1, _⟩ => rfl)).trans ?_
  exact broadcastInDim_apply _ bcast_S64_S1x64_1 a7 (ix2 (0 : Fin 1) h) (ix1 h) (fun a => by
    match a with
    | ⟨0, _⟩ => rfl)

/-- A relation's block at (v, h). -/
theorem v6_apply (a4 : FVec Ideal S10000x64 .f32) (a5 : FVec Ideal S3x64x64 .f32) (v : Fin 10000) (h : Fin 64) :
    v6 (F := Ideal) a4 a5 (ix2 v h) = ∑ k : Fin 64, a4 (ix2 v k) * a5 (ix3 (0 : Fin 3) k h) := by
  unfold v6; rw [dot_apply]; simp only [v5_apply]
theorem v9_apply (a4 : FVec Ideal S10000x64 .f32) (a5 : FVec Ideal S3x64x64 .f32) (v : Fin 10000) (h : Fin 64) :
    v9 (F := Ideal) a4 a5 (ix2 v h) = ∑ k : Fin 64, a4 (ix2 v k) * a5 (ix3 (1 : Fin 3) k h) := by
  unfold v9; rw [dot_apply]; simp only [v8_apply]
theorem v12_apply (a4 : FVec Ideal S10000x64 .f32) (a5 : FVec Ideal S3x64x64 .f32) (v : Fin 10000) (h : Fin 64) :
    v12 (F := Ideal) a4 a5 (ix2 v h) = ∑ k : Fin 64, a4 (ix2 v k) * a5 (ix3 (2 : Fin 3) k h) := by
  unfold v12; rw [dot_apply]; simp only [v11_apply]

/-! ## The table read by columns -/

/-- Columns 0..63 of the table are the root block. -/
theorem tbl_apply_root (a4 : FVec Ideal S10000x64 .f32) (a5 : FVec Ideal S3x64x64 .f32) (a6 : FVec Ideal S64x64 .f32)
    (a7 : FVec Ideal S64 .f32) (v : Fin 10000) (h : Fin 64) (c : Fin 256) (hc : c.val = h.val) :
    tbl (F := Ideal) a4 a5 a6 a7 (ix2 v c) = (∑ k : Fin 64, a4 (ix2 v k) * a6 (ix2 k h)) + a7 (ix1 h) := by
  unfold tbl
  refine (concatenate_apply_piece (α := Ideal .f32) (1 : Fin S10000x256.rank)
      [⟨S10000x64, v3 (F := Ideal) a4 a6 a7⟩, ⟨S10000x64, v6 (F := Ideal) a4 a5⟩, ⟨S10000x64, v9 (F := Ideal) a4 a5⟩, ⟨S10000x64, v12 (F := Ideal) a4 a5⟩]
      concatenates_S10000x64_S10000x64_S10000x64_S10000x64_S10000x256_d1 (ix2 v c)
    0 (by show 0 < 4; omega) S10000x64 _ rfl rfl 0 rfl (ix2 v h)
    (fun b hb => by
      match b with
      | ⟨0, _⟩ => rfl
      | ⟨1, _⟩ => exact absurd rfl hb)
    (by show 0 + h.val = c.val; omega)).trans (v3_apply a4 a6 a7 v h)

/-- Columns 64(r+1) .. 64(r+1)+63 are relation r's block. -/
theorem tbl_apply_rel (a4 : FVec Ideal S10000x64 .f32) (a5 : FVec Ideal S3x64x64 .f32) (a6 : FVec Ideal S64x64 .f32)
    (a7 : FVec Ideal S64 .f32) (v : Fin 10000) (r : Fin 3) (h : Fin 64) (c : Fin 256)
    (hc : c.val = 64 + 64 * r.val + h.val) :
    tbl (F := Ideal) a4 a5 a6 a7 (ix2 v c) = ∑ k : Fin 64, a4 (ix2 v k) * a5 (ix3 r k h) := by
  unfold tbl
  match r, hc with
  | ⟨0, _⟩, hc =>
    refine (concatenate_apply_piece (α := Ideal .f32) (1 : Fin S10000x256.rank)
      [⟨S10000x64, v3 (F := Ideal) a4 a6 a7⟩, ⟨S10000x64, v6 (F := Ideal) a4 a5⟩, ⟨S10000x64, v9 (F := Ideal) a4 a5⟩, ⟨S10000x64, v12 (F := Ideal) a4 a5⟩]
      concatenates_S10000x64_S10000x64_S10000x64_S10000x64_S10000x256_d1 (ix2 v c)
      1 (by show 1 < 4; omega) S10000x64 _ rfl rfl 64 rfl (ix2 v h)
      (fun b hb => by
        match b with
        | ⟨0, _⟩ => rfl
        | ⟨1, _⟩ => exact absurd rfl hb)
      (by have hc' : c.val = 64 + 64 * 0 + h.val := hc; show 64 + h.val = c.val; omega)).trans (v6_apply a4 a5 v h)
  | ⟨1, _⟩, hc =>
    refine (concatenate_apply_piece (α := Ideal .f32) (1 : Fin S10000x256.rank)
      [⟨S10000x64, v3 (F := Ideal) a4 a6 a7⟩, ⟨S10000x64, v6 (F := Ideal) a4 a5⟩, ⟨S10000x64, v9 (F := Ideal) a4 a5⟩, ⟨S10000x64, v12 (F := Ideal) a4 a5⟩]
      concatenates_S10000x64_S10000x64_S10000x64_S10000x64_S10000x256_d1 (ix2 v c)
      2 (by show 2 < 4; omega) S10000x64 _ rfl rfl 128 rfl (ix2 v h)
      (fun b hb => by
        match b with
        | ⟨0, _⟩ => rfl
        | ⟨1, _⟩ => exact absurd rfl hb)
      (by have hc' : c.val = 64 + 64 * 1 + h.val := hc; show 128 + h.val = c.val; omega)).trans (v9_apply a4 a5 v h)
  | ⟨2, _⟩, hc =>
    refine (concatenate_apply_piece (α := Ideal .f32) (1 : Fin S10000x256.rank)
      [⟨S10000x64, v3 (F := Ideal) a4 a6 a7⟩, ⟨S10000x64, v6 (F := Ideal) a4 a5⟩, ⟨S10000x64, v9 (F := Ideal) a4 a5⟩, ⟨S10000x64, v12 (F := Ideal) a4 a5⟩]
      concatenates_S10000x64_S10000x64_S10000x64_S10000x64_S10000x256_d1 (ix2 v c)
      3 (by show 3 < 4; omega) S10000x64 _ rfl rfl 192 rfl (ix2 v h)
      (fun b hb => by
        match b with
        | ⟨0, _⟩ => rfl
        | ⟨1, _⟩ => exact absurd rfl hb)
      (by have hc' : c.val = 64 + 64 * 2 + h.val := hc; show 192 + h.val = c.val; omega)).trans (v12_apply a4 a5 v h)

/-! ## The tokens: no wrap, in range -/

/-- A word below 10000 is not negative, is at least 0 and at most 9999, read signed. -/
theorem tok_word (w : BitVec 32) (hw : w.toNat < 10000) :
    IntOp.cmpi .slt w 0#32 = 0#1 ∧ IntOp.cmpi .sge w 0#32 = 1#1 ∧ IntOp.cmpi .sle w 9999#32 = 1#1 := by
  have hi : w.toInt = (w.toNat : Int) := BitVec.toInt_eq_toNat_of_lt (by omega)
  have h0 : (0#32 : BitVec 32).toInt = 0 := by decide
  have h9 : (9999#32 : BitVec 32).toInt = 9999 := by decide
  refine ⟨eq_zero_of_ne_one fun h => ?_, IntOp.cmpi_sge.2 ?_, IntOp.cmpi_sle.2 ?_⟩
  · have := IntOp.cmpi_slt.1 h
    rw [hi, h0] at this; omega
  · rw [hi, h0]; omega
  · rw [hi, h9]; omega

/-- The wrap of negative indices leaves a token below 10000 alone. -/
theorem t0_v4_apply (a0 : IVec S100000 32) (n : Fin 100000) (hw : (a0 (ix1 n)).toNat < 10000) :
    t0_v4 a0 (ix1 n) = a0 (ix1 n) := by
  have h0 : t0_v1 a0 (ix1 n) = 0#1 := (tok_word _ hw).1
  unfold t0_v4
  rw [select_apply, h0, select_zero]

/-- The start index the gather reads for node n. -/
theorem t0_v5_apply (a0 : IVec S100000 32) (n : Fin 100000) (hw : (a0 (ix1 n)).toNat < 10000) :
    t0_v5 a0 (ix2 n (0 : Fin 1)) = a0 (ix1 n) := by
  unfold t0_v5
  refine (broadcastInDim_apply _ bcast_S100000_S100000x1_0 _ (ix2 n (0 : Fin 1)) (ix1 n) (fun a => by
    match a with
    | ⟨0, _⟩ => show n.val = if (100000 : Nat) = 1 then 0 else n.val; rw [if_neg (by decide)])).trans ?_
  exact t0_v4_apply a0 n hw

/-- A left fold by and over one-bit words that are all one, started at one, is one. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_one x hx l

/-- Every token below 10000: the in-range bit of every node is one. -/
theorem t0_v12_apply (a0 : IVec S100000 32) (hx : ∀ n : Fin 100000, (a0 (ix1 n)).toNat < 10000) (n : Fin 100000) :
    t0_v12 a0 (ix1 n) = 1#1 := by
  have hall : ∀ i : S100000x1.Idx, t0_v11 a0 i = 1#1 := fun i => by
    obtain ⟨m, z, rfl⟩ : ∃ m z, i = ix2 m z := ⟨i 0, i 1, eq_ix2 i⟩
    have hz : z = (0 : Fin 1) := Subsingleton.elim _ _
    subst hz
    have e := t0_v5_apply a0 m (hx m)
    have hw := tok_word _ (hx m)
    show IntOp.andi (IntOp.cmpi .sge (t0_v5 a0 (ix2 m (0 : Fin 1))) 0#32)
      (IntOp.cmpi .sle (t0_v5 a0 (ix2 m (0 : Fin 1))) 9999#32) = 1#1
    rw [e, hw.2.1, hw.2.2]
    rfl
  unfold t0_v12
  rw [Host.reduce_eq_foldl]
  exact foldl_andi_one _ hall _

/-- Row n of the taken table is row x[n] of the table. -/
theorem combined_apply (a0 : IVec S100000 32) (a4 : FVec Ideal S10000x64 .f32) (a5 : FVec Ideal S3x64x64 .f32)
    (a6 : FVec Ideal S64x64 .f32) (a7 : FVec Ideal S64 .f32)
    (hx : ∀ n : Fin 100000, (a0 (ix1 n)).toNat < 10000) (n : Fin 100000) (c : Fin 256) :
    combined (F := Ideal) a0 a4 a5 a6 a7 (ix2 n c)
      = tbl (F := Ideal) a4 a5 a6 a7 (ix2 ⟨(a0 (ix1 n)).toNat, hx n⟩ c) := by
  have hb : t0_v14 a0 (ix2 n c) = 1#1 := by
    unfold t0_v14
    exact (broadcastInDim_apply _ bcast_S100000_S100000x256_0 _ (ix2 n c) (ix1 n) (fun a => by
      match a with
      | ⟨0, _⟩ => show n.val = if (100000 : Nat) = 1 then 0 else n.val; rw [if_neg (by decide)])).trans
        (t0_v12_apply a0 hx n)
  have e := t0_v5_apply a0 n (hx n)
  unfold combined
  rw [select_apply, hb, select_one]
  unfold t0_v13
  rw [Cert.LibSG.gather_row_apply_of_lt (by decide) _ rfl rfl rfl rfl rfl rfl rfl _ _ n c (by rw [e]; exact hx n)]
  exact congrArg (fun r => tbl (F := Ideal) a4 a5 a6 a7 (ix2 r c)) (Fin.ext (by show (t0_v5 a0 (ix2 n (0 : Fin 1))).toNat = _; rw [e]))

/-! ## The root part and the relation part -/

theorem tok_eq (a0 : IVec S100000 32) (hx : ∀ n : Fin 100000, (a0 (ix1 n)).toNat < 10000) (n : Fin 100000) :
    Cert.Spec.tok a0 n = ⟨(a0 (ix1 n)).toNat, hx n⟩ := Fin.ext (Nat.mod_eq_of_lt (hx n))

/-- Columns 0..63 of the taken rows are the specification's root part. -/
theorem outRoot_apply (a0 : IVec S100000 32) (a4 : FVec Ideal S10000x64 .f32) (a5 : FVec Ideal S3x64x64 .f32)
    (a6 : FVec Ideal S64x64 .f32) (a7 : FVec Ideal S64 .f32)
    (hx : ∀ n : Fin 100000, (a0 (ix1 n)).toNat < 10000) (n : Fin 100000) (h : Fin 64) :
    outRoot (F := Ideal) a0 a4 a5 a6 a7 (ix2 n h) = Cert.Spec.root a0 a4 a6 a7 n h := by
  unfold outRoot
  rw [slice2_axis1_apply 0 _ slices_S100000x256_S100000x64_0_0 n h ⟨h.val, by have := h.isLt; omega⟩ (Nat.zero_add _).symm,
    combined_apply a0 a4 a5 a6 a7 hx, tbl_apply_root a4 a5 a6 a7 _ h _ rfl]
  unfold Cert.Spec.root Cert.Spec.emb
  rw [tok_eq a0 hx]

/-- Columns 64..255 of the taken rows. -/
theorem v16_apply (a0 : IVec S100000 32) (a4 : FVec Ideal S10000x64 .f32) (a5 : FVec Ideal S3x64x64 .f32)
    (a6 : FVec Ideal S64x64 .f32) (a7 : FVec Ideal S64 .f32) (n : Fin 100000) (c : Fin 192) :
    v16 (F := Ideal) a0 a4 a5 a6 a7 (ix2 n c)
      = combined (F := Ideal) a0 a4 a5 a6 a7 (ix2 n ⟨64 + c.val, by have := c.isLt; omega⟩) := by
  unfold v16
  exact slice2_axis1_apply 64 _ slices_S100000x256_S100000x192_0_64 n c ⟨64 + c.val, by have := c.isLt; omega⟩ rfl

/-- Row 3n + r of the reshaped relation part is relation r's transform of node n. -/
theorem hrFlat_apply (a0 : IVec S100000 32) (a4 : FVec Ideal S10000x64 .f32) (a5 : FVec Ideal S3x64x64 .f32)
    (a6 : FVec Ideal S64x64 .f32) (a7 : FVec Ideal S64 .f32)
    (hx : ∀ n : Fin 100000, (a0 (ix1 n)).toNat < 10000) (n : Fin 100000) (r : Fin 3) (h : Fin 64) :
    hrFlat (F := Ideal) a0 a4 a5 a6 a7 (ix2 ⟨3 * n.val + r.val, by have := n.isLt; have := r.isLt; omega⟩ h)
      = Cert.Spec.hrel a0 a4 a5 r n h := by
  unfold hrFlat
  rw [shapeCast_apply _ shapeCasts_S100000x192_S300000x64 _
      (ix2 n (⟨64 * r.val + h.val, by have := r.isLt; have := h.isLt; omega⟩ : Fin 192)) (by
        rw [Shape.rowMajor_val_two, Shape.rowMajor_val_two]
        show n.val * 192 + (64 * r.val + h.val) = (3 * n.val + r.val) * 64 + h.val
        omega),
    v16_apply, combined_apply a0 a4 a5 a6 a7 hx, tbl_apply_rel a4 a5 a6 a7 _ r h _ (by show 64 + (64 * r.val + h.val) = 64 + 64 * r.val + h.val; omega)]
  unfold Cert.Spec.hrel Cert.Spec.emb
  rw [tok_eq a0 hx]

end Cert.KernelIdeal.HostVal

end
-- ==== Proof.KI.HostHead.lean ====
/-
  The host part of the kernel's program computes the specification's node features.

  Read at an index, under the range precondition: the fused words src*3 + etype and dst*3 + etype do not wrap and are
  below 300000, so the second take's mask is all ones and its gather reads row 3·src e + rel e of the relation part,
  which is relation (rel e)'s transform of the source's embedding; the scatter-add at row 3n + r collects exactly the
  edges of relation r that end in n (3a + b determines a and b < 3), so the fused row 3n + r of the sums is agg r n and
  of the counts cnt r n; the reshapes to [node, relation, coordinate] read row 3n + r at (n, r); the quotient by
  max(count, 1) and the sum over the three relations plus the root part is nodeOut.  The paddings read the operand
  inside and the pad value (zero, the word 512) outside; the reshapes to one row read the vector.
-/
import proofs.«415698_j88648124990150_2_alg».proof.Proof.KI.HostDefs
import proofs.«415698_j88648124990150_2_alg».proof.Proof.Spec
import proofs.«415698_j88648124990150_2_alg».proof.Proof.LibScatterGather
import Idealize.ShloMosaic.Lib.ReduceAll
import Idealize.ShloMosaic.Lib.KernelVsHost
import Idealize.ShloMosaic.Lib.ValueLayout
import Idealize.ShloMosaic.Lib.IdealHost
import Idealize.ShloMosaic.Lib.Pipeline.Value
import Idealize.ShloMosaic.PureOps.Ideal.Laws
import Idealize.ShloMosaic.Lib.Affine
import proofs.«415698_j88648124990150_2_alg».proof.Proof.KI.HostTable

noncomputable section

open scoped BigOperators

namespace Cert.KernelIdeal.HostVal

open Cert.KernelIdeal Idealize.ShloMosaic Idealize.ShloMosaic.ValueIdx Idealize.SL.Sem
open Cert.KernelIdeal.Facts₀ Cert.KernelIdeal.Facts

variable [Cert.KernelIdeal.Facts]

/-! ## The reshapes and the paddings, read at an index -/

theorem linbP_apply (a9 : FVec Ideal S2 .f32) (j : Fin 2) :
    linbP (F := Ideal) a9 (ix2 (0 : Fin 1) j) = a9 (ix1 j) := by
  unfold linbP
  exact shapeCast_a_1a_apply a9 shapeCasts_S2_S1x2 0 j

theorem v46_apply (a3 : IVec S100000 32) (n : Fin 102400) :
    v46 a3 (ix1 n) = if hn : n.val < 100000 then a3 (ix1 ⟨n.val, hn⟩) else 512#32 := by
  unfold v46
  by_cases hn : n.val < 100000
  · rw [dif_pos hn]
    exact pad_apply_of_inside _ _ _ a3 padW pads_S100000_S102400_024000 h_S_ (ix1 n) (ix1 ⟨n.val, hn⟩)
      (fun a => match a with
        | ⟨0, _⟩ => by show n.val = 0 + n.val * (0 + 1); omega)
  · rw [dif_neg hn]
    exact pad_apply_of_not_inside _ _ _ a3 padW pads_S100000_S102400_024000 h_S_ (ix1 n) ⟨0, by decide⟩
      (by
        show ¬(0 ≤ n.val ∧ (n.val - 0) % (0 + 1) = 0 ∧ (n.val - 0) / (0 + 1) < 100000)
        omega)

theorem batP_apply (a3 : IVec S100000 32) (n : Fin 102400) :
    batP a3 (ix2 (0 : Fin 1) n) = if hn : n.val < 100000 then a3 (ix1 ⟨n.val, hn⟩) else 512#32 := by
  unfold batP
  rw [shapeCast_a_1a_apply (v46 a3) shapeCasts_S102400_S1x102400 0 n]
  exact v46_apply a3 n
theorem outP_apply (a0 : IVec S100000 32) (a1 : IVec S2x1000000 32) (a2 : IVec S1000000 32)
    (a4 : FVec Ideal S10000x64 .f32) (a5 : FVec Ideal S3x64x64 .f32) (a6 : FVec Ideal S64x64 .f32) (a7 : FVec Ideal S64 .f32)
    (n : Fin 102400) (h : Fin 64) :
    outP (F := Ideal) a0 a1 a2 a4 a5 a6 a7 (ix2 n h)
      = if hn : n.val < 100000 then hostOut (F := Ideal) a0 a1 a2 a4 a5 a6 a7 (ix2 ⟨n.val, hn⟩ h) else 0 := by
  unfold outP
  generalize hostOut (F := Ideal) a0 a1 a2 a4 a5 a6 a7 = y
  by_cases hn : n.val < 100000
  · rw [dif_pos hn]
    exact pad_apply_of_inside _ _ _ y padF pads_S100000x64_S102400x64_024000_000 h_S_ (ix2 n h) (ix2 ⟨n.val, hn⟩ h)
      (fun a => match a with
        | ⟨0, _⟩ => by show n.val = 0 + n.val * (0 + 1); omega
        | ⟨1, _⟩ => by show h.val = 0 + h.val * (0 + 1); omega)
  · rw [dif_neg hn]
    refine (pad_apply_of_not_inside _ _ _ y padF pads_S100000x64_S102400x64_024000_000 h_S_ (ix2 n h) ⟨0, by decide⟩
      (by
        show ¬(0 ≤ n.val ∧ (n.val - 0) % (0 + 1) = 0 ∧ (n.val - 0) / (0 + 1) < 100000)
        omega)).trans ?_
    show ((((0#32 : BitVec 32).toInt : ℝ)) : EReal) = 0
    simp
/-! ## Words -/

theorem slt_zero_of_lt (w : BitVec 32) (h : w.toNat < 2 ^ 31) : IntOp.cmpi .slt w 0#32 = 0#1 := by
  refine eq_zero_of_ne_one fun h1 => ?_
  rw [IntOp.cmpi_slt, Cert.LibSG.toInt_eq_toNat w h] at h1
  have h0 : (0#32 : BitVec 32).toInt = 0 := by decide
  omega

theorem sge_zero_of_lt (w : BitVec 32) (h : w.toNat < 2 ^ 31) : IntOp.cmpi .sge w 0#32 = 1#1 := by
  rw [IntOp.cmpi_sge, Cert.LibSG.toInt_eq_toNat w h]
  have h0 : (0#32 : BitVec 32).toInt = 0 := by decide
  omega

theorem sle_of_le (w c : BitVec 32) (hc : c.toNat < 2 ^ 31) (h : w.toNat ≤ c.toNat) : IntOp.cmpi .sle w c = 1#1 := by
  rw [IntOp.cmpi_sle, Cert.LibSG.toInt_eq_toNat w (by omega), Cert.LibSG.toInt_eq_toNat c hc]
  omega

/-- A reduction by `and` of an array of ones, from one, is one. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_fold, hi]
  have hx' : x = fun _ => 1#1 := funext hx
  rw [hx']
  generalize (Finset.univ.filter fun i => h.drop i = j) = S
  induction S using Finset.induction_on with
  | empty => rfl
  | insert a S ha ih => rw [Finset.fold_insert ha, ih]; decide

/-! ## The fused indices -/

theorem v19_apply (a1 : IVec S2x1000000 32) (e : Fin 1000000) : v19 a1 (ix1 e) = a1 (ix2 (0 : Fin 2) e) := by
  unfold v19
  rw [shapeCast_1a_a_apply (v18 a1) shapeCasts_S1x1000000_S1000000 e]
  unfold v18
  exact slice2_axis0_apply 0 a1 slices_S2x1000000_S1x1000000_0_0 (0 : Fin 1) e (0 : Fin 2) rfl

theorem v21_apply (a1 : IVec S2x1000000 32) (e : Fin 1000000) : v21 a1 (ix1 e) = a1 (ix2 (1 : Fin 2) e) := by
  unfold v21
  rw [shapeCast_1a_a_apply (v20 a1) shapeCasts_S1x1000000_S1000000 e]
  unfold v20
  exact slice2_axis0_apply 1 a1 slices_S2x1000000_S1x1000000_1_0 (0 : Fin 1) e (1 : Fin 2) rfl

theorem v22_apply (e : Fin 1000000) : v22 (ix1 e) = 3#32 := by
  unfold v22
  rw [broadcastInDim_scalar_apply]
  rfl

/-- The word src*3 + etype does not wrap. -/
theorem idxSrc_toNat (a1 : IVec S2x1000000 32) (a2 : IVec S1000000 32) (e : Fin 1000000)
    (h1 : (a1 (ix2 (0 : Fin 2) e)).toNat < 100000) (h2 : (a2 (ix1 e)).toNat < 3) :
    (idxSrc a1 a2 (ix1 e)).toNat = 3 * (a1 (ix2 (0 : Fin 2) e)).toNat + (a2 (ix1 e)).toNat := by
  show (IntOp.addi (IntOp.muli (v19 a1 (ix1 e)) (v22 (ix1 e))) (a2 (ix1 e))).toNat = _
  rw [v19_apply, v22_apply]
  exact Cert.LibSG.toNat_muli3_addi _ _ (by omega)

/-- The word dst*3 + etype does not wrap. -/
theorem idxDst_toNat (a1 : IVec S2x1000000 32) (a2 : IVec S1000000 32) (e : Fin 1000000)
    (h1 : (a1 (ix2 (1 : Fin 2) e)).toNat < 100000) (h2 : (a2 (ix1 e)).toNat < 3) :
    (idxDst a1 a2 (ix1 e)).toNat = 3 * (a1 (ix2 (1 : Fin 2) e)).toNat + (a2 (ix1 e)).toNat := by
  show (IntOp.addi (IntOp.muli (v21 a1 (ix1 e)) (v22 (ix1 e))) (a2 (ix1 e))).toNat = _
  rw [v21_apply, v22_apply]
  exact Cert.LibSG.toNat_muli3_addi _ _ (by omega)

/-! ## The messages -/

theorem t1_v5_apply (a1 : IVec S2x1000000 32) (a2 : IVec S1000000 32) (e : Fin 1000000)
    (hI : (idxSrc a1 a2 (ix1 e)).toNat < 2 ^ 31) :
    t1_v5 a1 a2 (ix2 e (0 : Fin 1)) = idxSrc a1 a2 (ix1 e) := by
  unfold t1_v5
  rw [broadcastInDim_apply _ bcast_S1000000_S1000000x1_0 (t1_v4 a1 a2) (ix2 e (0 : Fin 1)) (ix1 e) (fun a => match a with
    | ⟨0, _⟩ => by show e.val = if (1000000 : Nat) = 1 then 0 else e.val; rw [if_neg (by decide)])]
  show Scalar.select (IntOp.cmpi .slt (idxSrc a1 a2 (ix1 e)) (t1_v0 (ix1 e))) (t1_v3 a1 a2 (ix1 e)) (idxSrc a1 a2 (ix1 e)) = _
  have h0 : t1_v0 (ix1 e) = 0#32 := by
    unfold t1_v0; rw [broadcastInDim_scalar_apply]; rfl
  rw [h0, slt_zero_of_lt _ hI, select_zero]

theorem t1_v11_apply (a1 : IVec S2x1000000 32) (a2 : IVec S1000000 32) (e : Fin 1000000)
    (hI : (idxSrc a1 a2 (ix1 e)).toNat < 300000) :
    t1_v11 a1 a2 (ix2 e (0 : Fin 1)) = 1#1 := by
  show IntOp.andi (IntOp.cmpi .sge (t1_v5 a1 a2 (ix2 e (0 : Fin 1))) (t1_v6 (ix2 e (0 : Fin 1))))
      (IntOp.cmpi .sle (t1_v5 a1 a2 (ix2 e (0 : Fin 1))) (t1_v9 (ix2 e (0 : Fin 1)))) = 1#1
  have h6 : t1_v6 (ix2 e (0 : Fin 1)) = 0#32 := by
    unfold t1_v6; rw [broadcastInDim_scalar_apply]; rfl
  have h9 : t1_v9 (ix2 e (0 : Fin 1)) = 299999#32 := by
    unfold t1_v9
    rw [broadcastInDim_apply _ bcast_S1x1_S1000000x1_0_1 t1_v8 (ix2 e (0 : Fin 1)) (ix2 (0 : Fin 1) (0 : Fin 1)) (fun a => match a with
      | ⟨0, _⟩ => by show (0 : Nat) = if (1 : Nat) = 1 then 0 else e.val; rw [if_pos rfl]
      | ⟨1, _⟩ => by show (0 : Nat) = if (1 : Nat) = 1 then 0 else 0; rw [if_pos rfl])]
    unfold t1_v8
    rw [broadcastInDim_apply _ bcast_S1_S1x1_1 t1_c_1 (ix2 (0 : Fin 1) (0 : Fin 1)) (ix1 (0 : Fin 1)) (fun a => match a with
      | ⟨0, _⟩ => by show (0 : Nat) = if (1 : Nat) = 1 then 0 else 0; rw [if_pos rfl])]
    rfl
  rw [t1_v5_apply a1 a2 e (by omega), h6, h9, sge_zero_of_lt _ (by omega),
    sle_of_le _ _ (by decide) (by show _ ≤ 299999; omega)]
  decide

theorem t1_mask (a1 : IVec S2x1000000 32) (a2 : IVec S1000000 32)
    (hI : ∀ e : Fin 1000000, (idxSrc a1 a2 (ix1 e)).toNat < 300000) (e : Fin 1000000) (h : Fin 64) :
    t1_v14 a1 a2 (ix2 e h) = 1#1 := by
  unfold t1_v14
  rw [broadcastInDim_apply _ bcast_S1000000_S1000000x64_0 (t1_v12 a1 a2) (ix2 e h) (ix1 e) (fun a => match a with
    | ⟨0, _⟩ => by show e.val = if (1000000 : Nat) = 1 then 0 else e.val; rw [if_neg (by decide)])]
  unfold t1_v12
  refine reduce_andi_of_all _ _ _ _ _ (fun i => ?_) rfl
  have hlt1 : (i 1).val < 1 := (i 1).isLt
  have hi : i = ix2 (⟨(i 0).val, (i 0).isLt⟩ : Fin 1000000) (0 : Fin 1) := by
    funext d
    match d with
    | ⟨0, _⟩ => rfl
    | ⟨1, _⟩ => exact Fin.ext (by show (i 1).val = 0; omega)
  rw [hi]
  exact t1_v11_apply a1 a2 _ (hI _)

/-- Edge e's message is the row src*3 + etype of the relation part. -/
theorem msg_apply (a0 : IVec S100000 32) (a1 : IVec S2x1000000 32) (a2 : IVec S1000000 32)
    (a4 : FVec Ideal S10000x64 .f32) (a5 : FVec Ideal S3x64x64 .f32) (a6 : FVec Ideal S64x64 .f32) (a7 : FVec Ideal S64 .f32)
    (hI : ∀ e : Fin 1000000, (idxSrc a1 a2 (ix1 e)).toNat < 300000) (e : Fin 1000000) (h : Fin 64) :
    msg (F := Ideal) a0 a1 a2 a4 a5 a6 a7 (ix2 e h)
      = hrFlat (F := Ideal) a0 a4 a5 a6 a7 (ix2 ⟨(idxSrc a1 a2 (ix1 e)).toNat, hI e⟩ h) := by
  unfold msg
  rw [select_apply, t1_mask a1 a2 hI e h, select_one]
  unfold t1_v13
  have hlt : (t1_v5 a1 a2 (ix2 e (0 : Fin 1))).toNat < 300000 := by
    rw [t1_v5_apply a1 a2 e (by have := hI e; omega)]; exact hI e
  rw [Cert.LibSG.gather_row_apply_of_lt (by decide) gather_S300000x64_S1000000x1_S1000000x64_1_0_n_n_0_1_164 rfl rfl rfl rfl rfl rfl rfl
    (hrFlat (F := Ideal) a0 a4 a5 a6 a7) (t1_v5 a1 a2) e h hlt]
  congr 2
  apply Fin.ext
  show (t1_v5 a1 a2 (ix2 e (0 : Fin 1))).toNat = (idxSrc a1 a2 (ix1 e)).toNat
  rw [t1_v5_apply a1 a2 e (by have := hI e; omega)]

/-! ## The sums and the counts per fused row -/

theorem v30_apply (a1 : IVec S2x1000000 32) (a2 : IVec S1000000 32) (e : Fin 1000000) :
    v30 a1 a2 (ix2 e (0 : Fin 1)) = idxDst a1 a2 (ix1 e) := by
  unfold v30
  exact broadcastInDim_apply _ bcast_S1000000_S1000000x1_0 (idxDst a1 a2) (ix2 e (0 : Fin 1)) (ix1 e) (fun a => match a with
    | ⟨0, _⟩ => by show e.val = if (1000000 : Nat) = 1 then 0 else e.val; rw [if_neg (by decide)])

/-- The updates that land in row m: those whose fused destination word has the value m. -/
theorem v30_filter (a1 : IVec S2x1000000 32) (a2 : IVec S1000000 32)
    (hD : ∀ e : Fin 1000000, (idxDst a1 a2 (ix1 e)).toNat < 2 ^ 31) (m : Nat) :
    Finset.univ.filter (fun e : Fin 1000000 => (v30 a1 a2 (ix2 e (0 : Fin 1))).toInt = (m : Int))
      = Finset.univ.filter (fun e : Fin 1000000 => (idxDst a1 a2 (ix1 e)).toNat = m) := by
  have hf := Cert.LibSG.filter_toInt_eq (fun e : Fin 1000000 => idxDst a1 a2 (ix1 e)) hD m
  simp only [v30_apply]
  exact hf

theorem aggFlat_apply (a0 : IVec S100000 32) (a1 : IVec S2x1000000 32) (a2 : IVec S1000000 32)
    (a4 : FVec Ideal S10000x64 .f32) (a5 : FVec Ideal S3x64x64 .f32) (a6 : FVec Ideal S64x64 .f32) (a7 : FVec Ideal S64 .f32)
    (hD : ∀ e : Fin 1000000, (idxDst a1 a2 (ix1 e)).toNat < 2 ^ 31) (m : Fin 300000) (h : Fin 64) :
    aggFlat (F := Ideal) a0 a1 a2 a4 a5 a6 a7 (ix2 m h)
      = ∑ e ∈ Finset.univ.filter (fun e : Fin 1000000 => (idxDst a1 a2 (ix1 e)).toNat = m.val),
          msg (F := Ideal) a0 a1 a2 a4 a5 a6 a7 (ix2 e h) := by
  unfold aggFlat
  rw [Cert.LibSG.scatterAdd_row_apply scatter_S300000x64_S1000000x1_S1000000x64_1_0_0_1 rfl rfl rfl rfl]
  have h0 : v29 (F := Ideal) (ix2 m h) = 0 := by
    unfold v29; rw [broadcastInDim_scalar_apply]; exact Cert.LibSG.ofBits_zero_f32
  rw [h0, zero_add, v30_filter a1 a2 hD m.val]

theorem cntFlat_apply (a1 : IVec S2x1000000 32) (a2 : IVec S1000000 32)
    (hD : ∀ e : Fin 1000000, (idxDst a1 a2 (ix1 e)).toNat < 2 ^ 31) (m : Fin 300000) :
    cntFlat (F := Ideal) a1 a2 (ix1 m)
      = ∑ _e ∈ Finset.univ.filter (fun e : Fin 1000000 => (idxDst a1 a2 (ix1 e)).toNat = m.val), Cert.Spec.oneF := by
  unfold cntFlat
  rw [Cert.LibSG.scatterAdd_vec_apply scatter_S300000_S1000000x1_S1000000_n_0_0_1 rfl rfl rfl rfl]
  have h0 : v33 (F := Ideal) (ix1 m) = 0 := by
    unfold v33; rw [broadcastInDim_scalar_apply]; exact Cert.LibSG.ofBits_zero_f32
  rw [h0, zero_add, v30_filter a1 a2 hD m.val]
  refine Finset.sum_congr rfl fun e _ => ?_
  unfold v32; rw [broadcastInDim_scalar_apply]; rfl

/-! ## The reshapes to [node, relation, coordinate], the means, their sum -/

theorem v36_apply (a0 : IVec S100000 32) (a1 : IVec S2x1000000 32) (a2 : IVec S1000000 32)
    (a4 : FVec Ideal S10000x64 .f32) (a5 : FVec Ideal S3x64x64 .f32) (a6 : FVec Ideal S64x64 .f32) (a7 : FVec Ideal S64 .f32)
    (n : Fin 100000) (r : Fin 3) (h : Fin 64) :
    v36 (F := Ideal) a0 a1 a2 a4 a5 a6 a7 (ix3 n r h)
      = aggFlat (F := Ideal) a0 a1 a2 a4 a5 a6 a7 (ix2 ⟨3 * n.val + r.val, by omega⟩ h) := by
  unfold v36
  exact shapeCast_apply _ shapeCasts_S300000x64_S100000x3x64 (ix3 n r h) (ix2 ⟨3 * n.val + r.val, by omega⟩ h)
    (by rw [Shape.rowMajor_val_two, Shape.rowMajor_val_three]
        show (3 * n.val + r.val) * 64 + h.val = (n.val * 3 + r.val) * 64 + h.val
        omega)

theorem v37_apply (a1 : IVec S2x1000000 32) (a2 : IVec S1000000 32) (n : Fin 100000) (r : Fin 3) :
    v37 (F := Ideal) a1 a2 (ix2 n r) = cntFlat (F := Ideal) a1 a2 (ix1 ⟨3 * n.val + r.val, by omega⟩) := by
  unfold v37
  exact shapeCast_apply _ shapeCasts_S300000_S100000x3 (ix2 n r) (ix1 ⟨3 * n.val + r.val, by omega⟩)
    (by rw [Shape.rowMajor_val_one, Shape.rowMajor_val_two]
        show 3 * n.val + r.val = n.val * 3 + r.val
        omega)

theorem v41_apply (a1 : IVec S2x1000000 32) (a2 : IVec S1000000 32) (n : Fin 100000) (r : Fin 3) (h : Fin 64) :
    v41 (F := Ideal) a1 a2 (ix3 n r h) = max (v37 (F := Ideal) a1 a2 (ix2 n r)) Cert.Spec.oneF := by
  unfold v41
  rw [broadcastInDim_apply _ bcast_S100000x3x1_S100000x3x64_0_1_2 (v40 (F := Ideal) a1 a2) (ix3 n r h) (ix3 n r (0 : Fin 1)) (fun a => match a with
    | ⟨0, _⟩ => by show n.val = if (100000 : Nat) = 1 then 0 else n.val; rw [if_neg (by decide)]
    | ⟨1, _⟩ => by show r.val = if (3 : Nat) = 1 then 0 else r.val; rw [if_neg (by decide)]
    | ⟨2, _⟩ => by show (0 : Nat) = if (1 : Nat) = 1 then 0 else h.val; rw [if_pos rfl])]
  unfold v40
  rw [broadcastInDim_apply _ bcast_S100000x3_S100000x3x1_0_1 (v39 (F := Ideal) a1 a2) (ix3 n r (0 : Fin 1)) (ix2 n r) (fun a => match a with
    | ⟨0, _⟩ => by show n.val = if (100000 : Nat) = 1 then 0 else n.val; rw [if_neg (by decide)]
    | ⟨1, _⟩ => by show r.val = if (3 : Nat) = 1 then 0 else r.val; rw [if_neg (by decide)])]
  unfold v39
  rw [maximumf_apply]
  congr 1

theorem v43_apply (a0 : IVec S100000 32) (a1 : IVec S2x1000000 32) (a2 : IVec S1000000 32)
    (a4 : FVec Ideal S10000x64 .f32) (a5 : FVec Ideal S3x64x64 .f32) (a6 : FVec Ideal S64x64 .f32) (a7 : FVec Ideal S64 .f32)
    (n : Fin 100000) (h : Fin 64) :
    v43 (F := Ideal) a0 a1 a2 a4 a5 a6 a7 (ix2 n h)
      = ∑ r : Fin 3, Ideal.div (v36 (F := Ideal) a0 a1 a2 a4 a5 a6 a7 (ix3 n r h)) (v41 (F := Ideal) a1 a2 (ix3 n r h)) := by
  unfold v43
  have hred : Shape.Reduces S100000x3x64 [1] S100000x64 := by decide
  rw [hostReduceAdd_apply, Ideal.hostReduceAdd_single reducesTo_S100000x3x64_S100000x64_d1 hred]
  have h0 : zeroF (F := Ideal) (Shape.Idx.first h_S_) = 0 := Cert.LibSG.ofBits_zero_f32
  rw [h0, zero_add]
  refine Finset.sum_congr rfl fun r _ => ?_
  have hl : hred.lift (ix2 n h) r = ix3 n r h := by
    funext d
    match d with
    | ⟨0, _⟩ => exact Fin.ext rfl
    | ⟨1, _⟩ => exact Fin.ext rfl
    | ⟨2, _⟩ => exact Fin.ext rfl
  rw [hl]
  unfold v42
  exact hostDivf_apply _ _ _

/-! ## The node features are the specification's -/

section Final
variable (a0 : IVec S100000 32) (a1 : IVec S2x1000000 32) (a2 : IVec S1000000 32)
  (a4 : FVec Ideal S10000x64 .f32) (a5 : FVec Ideal S3x64x64 .f32) (a6 : FVec Ideal S64x64 .f32) (a7 : FVec Ideal S64 .f32)

theorem src_val (hr : Cert.Spec.InRange a0 a1 a2) (e : Fin 1000000) :
    (Cert.Spec.src a1 e).val = (a1 (ix2 (0 : Fin 2) e)).toNat := Nat.mod_eq_of_lt (hr.2.1 0 e)
theorem dst_val (hr : Cert.Spec.InRange a0 a1 a2) (e : Fin 1000000) :
    (Cert.Spec.dst a1 e).val = (a1 (ix2 (1 : Fin 2) e)).toNat := Nat.mod_eq_of_lt (hr.2.1 1 e)
theorem rel_val (hr : Cert.Spec.InRange a0 a1 a2) (e : Fin 1000000) :
    (Cert.Spec.rel a2 e).val = (a2 (ix1 e)).toNat := Nat.mod_eq_of_lt (hr.2.2 e)

theorem idxSrc_val (hr : Cert.Spec.InRange a0 a1 a2) (e : Fin 1000000) :
    (idxSrc a1 a2 (ix1 e)).toNat = 3 * (Cert.Spec.src a1 e).val + (Cert.Spec.rel a2 e).val := by
  rw [idxSrc_toNat a1 a2 e (hr.2.1 0 e) (hr.2.2 e), src_val a0 a1 a2 hr, rel_val a0 a1 a2 hr]

theorem idxDst_val (hr : Cert.Spec.InRange a0 a1 a2) (e : Fin 1000000) :
    (idxDst a1 a2 (ix1 e)).toNat = 3 * (Cert.Spec.dst a1 e).val + (Cert.Spec.rel a2 e).val := by
  rw [idxDst_toNat a1 a2 e (hr.2.1 1 e) (hr.2.2 e), dst_val a0 a1 a2 hr, rel_val a0 a1 a2 hr]

theorem idxSrc_lt (hr : Cert.Spec.InRange a0 a1 a2) (e : Fin 1000000) : (idxSrc a1 a2 (ix1 e)).toNat < 300000 := by
  rw [idxSrc_val a0 a1 a2 hr]
  have h1 := (Cert.Spec.src a1 e).isLt
  have h2 := (Cert.Spec.rel a2 e).isLt
  omega

theorem idxDst_lt (hr : Cert.Spec.InRange a0 a1 a2) (e : Fin 1000000) : (idxDst a1 a2 (ix1 e)).toNat < 2 ^ 31 := by
  rw [idxDst_val a0 a1 a2 hr]
  have h1 := (Cert.Spec.dst a1 e).isLt
  have h2 := (Cert.Spec.rel a2 e).isLt
  omega

/-- Edge e's message is its relation's transform of its source's embedding. -/
theorem msg_eq (hr : Cert.Spec.InRange a0 a1 a2) (e : Fin 1000000) (h : Fin 64) :
    msg (F := Ideal) a0 a1 a2 a4 a5 a6 a7 (ix2 e h)
      = Cert.Spec.hrel a0 a4 a5 (Cert.Spec.rel a2 e) (Cert.Spec.src a1 e) h := by
  rw [msg_apply a0 a1 a2 a4 a5 a6 a7 (idxSrc_lt a0 a1 a2 hr) e h]
  have hi : (⟨(idxSrc a1 a2 (ix1 e)).toNat, idxSrc_lt a0 a1 a2 hr e⟩ : Fin 300000)
      = ⟨3 * (Cert.Spec.src a1 e).val + (Cert.Spec.rel a2 e).val, by
          have h1 := (Cert.Spec.src a1 e).isLt
          have h2 := (Cert.Spec.rel a2 e).isLt
          omega⟩ := Fin.ext (idxSrc_val a0 a1 a2 hr e)
  rw [hi]
  first | exact hrFlat_apply a0 a4 a5 a6 a7 hr.1 _ _ h | exact hrFlat_apply hr.1 _ _ h

/-- The updates into the fused row 3n + r are the edges of relation r that end in n. -/
theorem dst_filter (hr : Cert.Spec.InRange a0 a1 a2) (n : Fin 100000) (r : Fin 3) :
    Finset.univ.filter (fun e : Fin 1000000 => (idxDst a1 a2 (ix1 e)).toNat = 3 * n.val + r.val)
      = Cert.Spec.edgesInto a1 a2 n r := by
  unfold Cert.Spec.edgesInto
  refine Finset.filter_congr fun e _ => ?_
  rw [idxDst_val a0 a1 a2 hr e, Cert.LibSG.fused3_inj (Cert.Spec.rel a2 e).isLt r.isLt, Fin.ext_iff, Fin.ext_iff]

theorem agg_eq (hr : Cert.Spec.InRange a0 a1 a2) (n : Fin 100000) (r : Fin 3) (h : Fin 64) :
    aggFlat (F := Ideal) a0 a1 a2 a4 a5 a6 a7 (ix2 ⟨3 * n.val + r.val, by omega⟩ h)
      = Cert.Spec.agg a0 a1 a2 a4 a5 r n h := by
  rw [aggFlat_apply a0 a1 a2 a4 a5 a6 a7 (idxDst_lt a0 a1 a2 hr) ⟨3 * n.val + r.val, by omega⟩ h]
  show ∑ e ∈ Finset.univ.filter (fun e : Fin 1000000 => (idxDst a1 a2 (ix1 e)).toNat = 3 * n.val + r.val), _ = _
  rw [dst_filter a0 a1 a2 hr n r]
  unfold Cert.Spec.agg
  refine Finset.sum_congr rfl fun e he => ?_
  have her : Cert.Spec.rel a2 e = r := by
    unfold Cert.Spec.edgesInto at he
    exact (Finset.mem_filter.mp he).2.2
  rw [msg_eq a0 a1 a2 a4 a5 a6 a7 hr e h, her]

theorem cnt_eq (hr : Cert.Spec.InRange a0 a1 a2) (n : Fin 100000) (r : Fin 3) :
    cntFlat (F := Ideal) a1 a2 (ix1 ⟨3 * n.val + r.val, by omega⟩) = Cert.Spec.cnt a1 a2 r n := by
  rw [cntFlat_apply a1 a2 (idxDst_lt a0 a1 a2 hr) ⟨3 * n.val + r.val, by omega⟩]
  show ∑ _e ∈ Finset.univ.filter (fun e : Fin 1000000 => (idxDst a1 a2 (ix1 e)).toNat = 3 * n.val + r.val), _ = _
  rw [dst_filter a0 a1 a2 hr n r]
  rfl

/-- THE HOST PART'S RESULT: the node features before the rectifier are the specification's. -/
theorem hostOut_eq (hr : Cert.Spec.InRange a0 a1 a2) (n : Fin 100000) (h : Fin 64) :
    hostOut (F := Ideal) a0 a1 a2 a4 a5 a6 a7 (ix2 n h) = Cert.Spec.nodeOut a0 a1 a2 a4 a5 a6 a7 n h := by
  unfold hostOut
  have hroot : outRoot (F := Ideal) a0 a4 a5 a6 a7 (ix2 n h) = Cert.Spec.root a0 a4 a6 a7 n h := by
    first | exact outRoot_apply a0 a4 a5 a6 a7 hr.1 n h | exact outRoot_apply hr.1 n h
  rw [addf_apply, hroot, v43_apply]
  unfold Cert.Spec.nodeOut
  refine congrArg (fun t => Cert.Spec.root a0 a4 a6 a7 n h + t) ?_
  refine Finset.sum_congr rfl fun r _ => ?_
  rw [v36_apply, v41_apply, v37_apply, agg_eq a0 a1 a2 a4 a5 a6 a7 hr n r h, cnt_eq a0 a1 a2 hr n r]

end Final

end Cert.KernelIdeal.HostVal

end
-- ==== Proof.KI.HostRun.lean ====
import proofs.«415698_j88648124990150_2_alg».proof.Proof.Gen.KernelIdeal.Launch
import Idealize.ShloMosaic.Lib.StableHlo.Run
import proofs.«415698_j88648124990150_2_alg».proof.Proof.KI.HostDefs

noncomputable section

namespace Cert.KernelIdeal.HostVal

open Idealize.ShloMosaic Idealize.ShloMosaic.TcCoe
open Idealize.SL.Sem
open Cert.KernelIdeal.Gen

variable {F : FTy → Type} [FloatOps F]

/-- Every host operation of @main that runs before the kernel region, in program order. -/
abbrev hostAll : List (HloOp τ sig (Elt F)) :=
  List.flatten [Gen.hostOps0, Gen.hostOps0_1, Gen.hostOps0_2, Gen.hostOps0_3, Gen.hostOps0_4, Gen.hostOps0_5, Gen.hostOps0_6, Gen.hostOps0_7, Gen.hostOps0_8]

variable (m : (ℓ : Loc nD τ sig) → Buf (Elt F) ℓ)

set_option maxRecDepth 8192
set_option maxHeartbeats 1600000

/-! ## The arguments: no host operation writes one -/

/-- No host operation writes argument 0: the region finds it as launched. -/
theorem V_arg0 (c : Dev nD) :
    StableHlo.after (hostAll (F := F)) (fun b => m (c, b)) (Proc.devRef .tc main_arg0) = m ((c : Thread nD τ).loc main_arg0) :=
  StableHlo.after_of_forall_not_mem (b := Proc.devRef .tc main_arg0) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- No host operation writes argument 1: the region finds it as launched. -/
theorem V_arg1 (c : Dev nD) :
    StableHlo.after (hostAll (F := F)) (fun b => m (c, b)) (Proc.devRef .tc main_arg1) = m ((c : Thread nD τ).loc main_arg1) :=
  StableHlo.after_of_forall_not_mem (b := Proc.devRef .tc main_arg1) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- No host operation writes argument 2: the region finds it as launched. -/
theorem V_arg2 (c : Dev nD) :
    StableHlo.after (hostAll (F := F)) (fun b => m (c, b)) (Proc.devRef .tc main_arg2) = m ((c : Thread nD τ).loc main_arg2) :=
  StableHlo.after_of_forall_not_mem (b := Proc.devRef .tc main_arg2) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- No host operation writes argument 3: the region finds it as launched. -/
theorem V_arg3 (c : Dev nD) :
    StableHlo.after (hostAll (F := F)) (fun b => m (c, b)) (Proc.devRef .tc main_arg3) = m ((c : Thread nD τ).loc main_arg3) :=
  StableHlo.after_of_forall_not_mem (b := Proc.devRef .tc main_arg3) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- No host operation writes argument 4: the region finds it as launched. -/
theorem V_arg4 (c : Dev nD) :
    StableHlo.after (hostAll (F := F)) (fun b => m (c, b)) (Proc.devRef .tc main_arg4) = m ((c : Thread nD τ).loc main_arg4) :=
  StableHlo.after_of_forall_not_mem (b := Proc.devRef .tc main_arg4) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- No host operation writes argument 5: the region finds it as launched. -/
theorem V_arg5 (c : Dev nD) :
    StableHlo.after (hostAll (F := F)) (fun b => m (c, b)) (Proc.devRef .tc main_arg5) = m ((c : Thread nD τ).loc main_arg5) :=
  StableHlo.after_of_forall_not_mem (b := Proc.devRef .tc main_arg5) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- No host operation writes argument 6: the region finds it as launched. -/
theorem V_arg6 (c : Dev nD) :
    StableHlo.after (hostAll (F := F)) (fun b => m (c, b)) (Proc.devRef .tc main_arg6) = m ((c : Thread nD τ).loc main_arg6) :=
  StableHlo.after_of_forall_not_mem (b := Proc.devRef .tc main_arg6) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- No host operation writes argument 7: the region finds it as launched. -/
theorem V_arg7 (c : Dev nD) :
    StableHlo.after (hostAll (F := F)) (fun b => m (c, b)) (Proc.devRef .tc main_arg7) = m ((c : Thread nD τ).loc main_arg7) :=
  StableHlo.after_of_forall_not_mem (b := Proc.devRef .tc main_arg7) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- No host operation writes argument 8: the region finds it as launched. -/
theorem V_arg8 (c : Dev nD) :
    StableHlo.after (hostAll (F := F)) (fun b => m (c, b)) (Proc.devRef .tc main_arg8) = m ((c : Thread nD τ).loc main_arg8) :=
  StableHlo.after_of_forall_not_mem (b := Proc.devRef .tc main_arg8) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-- No host operation writes argument 9: the region finds it as launched. -/
theorem V_arg9 (c : Dev nD) :
    StableHlo.after (hostAll (F := F)) (fun b => m (c, b)) (Proc.devRef .tc main_arg9) = m ((c : Thread nD τ).loc main_arg9) :=
  StableHlo.after_of_forall_not_mem (b := Proc.devRef .tc main_arg9) _ _ (List.forall_iff_forall_mem.mp (by
    simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append,
      List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The two small windows: the graph words padded and laid out as one row, the head's bias as one row -/

/-- The graph-word window: the words, 2400 words 512 appended, as one row. -/
theorem V_v47 (c : Dev nD) :
    StableHlo.after (hostAll (F := F)) (fun b => m (c, b)) (Proc.devRef .tc main_v47) = batP (m ((c : Thread nD τ).loc main_arg3)) := by
  simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
  after_results_simp
  rfl

/-- The bias window: the head's bias as one row. -/
theorem V_v48 (c : Dev nD) :
    StableHlo.after (hostAll (F := F)) (fun b => m (c, b)) (Proc.devRef .tc main_v48) = linbP (F := F) (m ((c : Thread nD τ).loc main_arg9)) := by
  simp only [hostAll, Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
  after_results_simp
  rfl

/-! ## The node-feature window

From any contents `W` of the arrays, the fold of the operations leaves in the padded node-feature array the pure
term of the seven argument arrays it depends on. Each operation's result at its own array is its function applied to
its operands' contents, and an array it does not write keeps what it had, so the two sides are the same composition
of the same functions; the array-level functions are kept closed so that the comparison stays at the level of that
composition. -/

set_option maxHeartbeats 0 in
attribute [local irreducible] Host.reduce Host.gather Host.scatterAdd Host.reduceAdd pad concatenate broadcastInDim shapeCast
  extractStridedSlice in
/-- The padded node features after all the host operations, from any starting contents. -/
theorem V45_any (W : Valuation τ sig (Elt F)) :
    StableHlo.after (hostAll (F := F)) W (Proc.devRef .tc main_v45)
      = outP (F := F) (W (Proc.devRef .tc main_arg0)) (W (Proc.devRef .tc main_arg1)) (W (Proc.devRef .tc main_arg2))
          (W (Proc.devRef .tc main_arg4)) (W (Proc.devRef .tc main_arg5)) (W (Proc.devRef .tc main_arg6))
          (W (Proc.devRef .tc main_arg7)) := by
  simp only [hostAll, Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  simp only [StableHlo.after_cons, StableHlo.after_nil]
  rfl

/-- The node-feature window: what the region finds in it is the padded node features as a pure term of the
    argument arrays as launched. -/
theorem V_v45 (c : Dev nD) :
    StableHlo.after (hostAll (F := F)) (fun b => m (c, b)) (Proc.devRef .tc main_v45)
      = outP (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  V45_any (fun b => m (c, b))

end Cert.KernelIdeal.HostVal

end
-- ==== Proof.KI.RunVal.lean ====
/-
  The pooling region's value in the words of the specification.

  On entry the region finds, in its four input arrays, what the host part computed: the node features padded with zero
  rows (the specification's node features below row 100000), the graph words padded with the word 512, the head's
  weights, and its bias as a row. With these the region's result is the specification's result array.
-/
import proofs.«415698_j88648124990150_2_alg».proof.Proof.KI.Value
import proofs.«415698_j88648124990150_2_alg».proof.Proof.KI.HostHead
import proofs.«415698_j88648124990150_2_alg».proof.Proof.KI.HostRun

set_option maxRecDepth 16384

noncomputable section

namespace Cert.KernelIdeal.Val

open Cert.KernelIdeal Cert.KernelIdeal.Gen Cert.KernelIdeal.Frm Cert.KernelIdeal.HostVal
open Idealize.ShloMosaic Idealize.ShloMosaic.TcCoe Idealize.ShloMosaic.ValueIdx Idealize.SL.Sem

variable (m : (ℓ : Loc nD τ sig) → Buf (Elt Ideal) ℓ) (ρ : Dev nD → PrngReg)

/-- What the region finds on core `c`, from what the host part computes. -/
theorem entry_of (c : Dev nD)
    (hr : Cert.Spec.InRange (m ((c.tc : Thread nD τ).loc main_arg0)) (m ((c.tc : Thread nD τ).loc main_arg1)) (m ((c.tc : Thread nD τ).loc main_arg2))) :
    Entry m (Cert.Spec.nodeOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg3)) (m ((c.tc : Thread nD τ).loc main_arg8)) (m ((c.tc : Thread nD τ).loc main_arg9)) c where
  feat n h := by
    show V m c main_v45 (ix2 n h) = _
    rw [show V m c main_v45 = outP (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) from V_v45 m c, outP_apply]
    unfold padO
    by_cases hn : n.val < 100000
    · rw [dif_pos hn, dif_pos hn]
      exact hostOut_eq _ _ _ _ _ _ _ hr ⟨n.val, hn⟩ h
    · rw [dif_neg hn, dif_neg hn]
  word n := by
    show V m c main_v47 (ix2 (0 : Fin 1) n) = _
    rw [show V m c main_v47 = batP (m ((c.tc : Thread nD τ).loc main_arg3)) from V_v47 m c, batP_apply]
    rfl
  wgt h j := by
    show V m c main_arg8 (ix2 h j) = _
    rw [V_main_arg8 m c]
  bias j := by
    show V m c main_v48 (ix2 (0 : Fin 1) j) = _
    rw [show V m c main_v48 = linbP (F := Ideal) (m ((c.tc : Thread nD τ).loc main_arg9)) from V_v48 m c, linbP_apply]

/-- THE KERNEL'S RUN, READ: the result array is the specification's, the ten arguments end as they began. -/
theorem run_val (hr : ∀ c : Dev nD, Cert.Spec.InRange (m ((c.tc : Thread nD τ).loc main_arg0)) (m ((c.tc : Thread nD τ).loc main_arg1)) (m ((c.tc : Thread nD τ).loc main_arg2))) :
    θ_run defs (onTc (τ := τ) (main (F := Ideal))) ⟨m, fun _ => 0, ρ⟩ (fun r => ∀ c : Dev nD,
      r.2.mem ((c.tc : Thread nD τ).loc main_v49)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => h c)
    (run_val_of m ρ
      (fun c => Cert.Spec.nodeOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)))
      (fun c => (m ((c.tc : Thread nD τ).loc main_arg3))) (fun c => (m ((c.tc : Thread nD τ).loc main_arg8))) (fun c => (m ((c.tc : Thread nD τ).loc main_arg9)))
      (fun c => entry_of m c (hr c)))

end Cert.KernelIdeal.Val

end
-- ==== Proof.RefHead.lean ====
/-
  The reference's node features before the rectifier are the specification's.

  The reference computes, per node n and coordinate h, the root transform of n's embedding plus the bias, and for each
  of the three relations r the quotient of a scatter-added message sum by max(count, 1): the messages are relation r's
  transform of the source node's embedding, switched off by the mask (edge type = r) on the edges of another relation,
  and scatter-added at the destination node; the counts are the scatter-added masks.  Every index the reference reads
  off an integer array first goes through the negative-index normalisation select(w < 0, w + N, w), the identity on a
  word below 2^31; under the range precondition each such word names a row of the array it indexes, so a gather reads
  that very row and a scatter-add lands on that very row.  A sum over the edges into n of terms switched by "relation
  is r" is the sum over the edges of relation r into n: the specification's aggregate and count.
-/
import proofs.«415698_j88648124990150_2_alg».proof.Proof.Gen.ReferenceIdeal.Read
import proofs.«415698_j88648124990150_2_alg».proof.Proof.Spec
import proofs.«415698_j88648124990150_2_alg».proof.Proof.LibScatterGather
import Idealize.ShloMosaic.Lib.StableHlo.Predicate

noncomputable section

open scoped BigOperators

namespace Cert.RefBridge

open Cert.ReferenceIdeal Cert.ReferenceIdeal.Read Idealize.ShloMosaic Idealize.ShloMosaic.ValueIdx
open Idealize.ShloMosaic.StableHlo.Predicate (slt_iff_toNat cmpi_eq_iff)

/-! ## Words and indices under the range precondition -/

/-- A word below 2^31 is not negative, so the negative-index normalisation leaves it alone. -/
theorem wrap_id (w z N : BitVec 32) (hz : z = 0#32) (hw : w.toNat < 2 ^ 31) :
    Scalar.select (IntOp.cmpi .slt w z) (IntOp.addi w N) w = w := by
  subst hz
  have h : IntOp.cmpi .slt w 0#32 = 0#1 := eq_zero_of_ne_one fun h1 => by
    have h2 : w.toNat < (0#32 : BitVec 32).toNat := (slt_iff_toNat hw (by decide)).1 h1
    exact absurd h2 (Nat.not_lt_zero _)
  rw [h, select_zero]

/-- Every token word is below the table's height. -/
theorem x0_lt (x0 : IVec S100000 32) (hx : ∀ n : Fin 100000, (x0 (ix1 n)).toNat < 10000) (i : S100000.Idx) :
    (x0 i).toNat < 10000 := by
  rw [eq_ix1 i]; exact hx _

/-- Every edge-end word is below the number of nodes. -/
theorem x1_lt (x1 : IVec S2x1000000 32) (he : ∀ (a : Fin 2) (e : Fin 1000000), (x1 (ix2 a e)).toNat < 100000)
    (j : S2x1000000.Idx) : (x1 j).toNat < 100000 := by
  rw [eq_ix2 j]; exact he _ _

/-- Under the range precondition a token word is its own residue. -/
theorem tok_val (x0 : IVec S100000 32) (hx : ∀ n : Fin 100000, (x0 (ix1 n)).toNat < 10000) (n : Fin 100000) :
    (⟨(x0 (ix1 n)).toNat, hx n⟩ : Fin 10000) = Cert.Spec.tok x0 n :=
  Fin.ext (Nat.mod_eq_of_lt (hx n)).symm

theorem src_val (x1 : IVec S2x1000000 32) (he : ∀ (a : Fin 2) (e : Fin 1000000), (x1 (ix2 a e)).toNat < 100000)
    (e : Fin 1000000) : (⟨(x1 (ix2 (0 : Fin 2) e)).toNat, he 0 e⟩ : Fin 100000) = Cert.Spec.src x1 e :=
  Fin.ext (Nat.mod_eq_of_lt (he 0 e)).symm

/-- "The destination word read signed is n" is "the edge's destination is n". -/
theorem dst_iff (x1 : IVec S2x1000000 32) (he : ∀ (a : Fin 2) (e : Fin 1000000), (x1 (ix2 a e)).toNat < 100000)
    (e : Fin 1000000) (n : Fin 100000) :
    (x1 (ix2 (1 : Fin 2) e)).toInt = (n.val : Int) ↔ Cert.Spec.dst x1 e = n := by
  have hlt := he 1 e
  rw [Cert.LibSG.toInt_eq_toNat _ (by omega)]
  constructor
  · intro h
    apply Fin.ext
    show (x1 (ix2 (1 : Fin 2) e)).toNat % 100000 = n.val
    rw [Nat.mod_eq_of_lt hlt]; exact_mod_cast h
  · intro h
    have h2 : (x1 (ix2 (1 : Fin 2) e)).toNat % 100000 = n.val := congrArg Fin.val h
    rw [Nat.mod_eq_of_lt hlt] at h2
    exact_mod_cast h2

/-- "The edge-type word is the word of r" is "the edge's relation is r". -/
theorem rel_iff (x2 : IVec S1000000 32) (ht : ∀ e : Fin 1000000, (x2 (ix1 e)).toNat < 3) (e : Fin 1000000) (r : Fin 3) :
    x2 (ix1 e) = BitVec.ofNat 32 r.val ↔ Cert.Spec.rel x2 e = r := by
  have hlt := ht e
  have hr := r.isLt
  constructor
  · intro h
    apply Fin.ext
    show (x2 (ix1 e)).toNat % 3 = r.val
    rw [h, BitVec.toNat_ofNat]; omega
  · intro h
    have h2 : (x2 (ix1 e)).toNat % 3 = r.val := congrArg Fin.val h
    apply BitVec.eq_of_toNat_eq
    rw [BitVec.toNat_ofNat]; omega

/-- The mask of relation r at edge e: one on the edges of relation r, zero on the others. -/
theorem mask_val (x2 : IVec S1000000 32) (ht : ∀ e : Fin 1000000, (x2 (ix1 e)).toNat < 3) (r : Fin 3) (c : BitVec 32)
    (hc : c = BitVec.ofNat 32 r.val) (e : Fin 1000000) :
    (FloatOps.uitofp (F := Ideal) .f32 (IntOp.cmpi .eq (x2 (ix1 e)) c) : EReal)
      = if Cert.Spec.rel x2 e = r then 1 else 0 := by
  subst hc
  rw [Cert.LibSG.uitofp_bit]
  by_cases h : Cert.Spec.rel x2 e = r
  · rw [if_pos h, if_pos (cmpi_eq_iff.2 ((rel_iff x2 ht e r).2 h))]
  · rw [if_neg h, if_neg fun hh => h ((rel_iff x2 ht e r).1 (cmpi_eq_iff.1 hh))]

/-! ## One relation's aggregate, count and quotient, over any arrays with the right elements -/

/-- The scatter-added masked messages: over the edges into n, relation r's transform of the source's embedding,
    switched off on the edges of another relation. -/
theorem agg_of (x0 : IVec S100000 32) (x1 : IVec S2x1000000 32) (x2 : IVec S1000000 32)
    (x4 : FVec Ideal S10000x64 .f32) (x5 : FVec Ideal S3x64x64 .f32)
    (he : ∀ (a : Fin 2) (e : Fin 1000000), (x1 (ix2 a e)).toNat < 100000) (r : Fin 3)
    (T : FVec Ideal S100000x64 .f32) (hT : ∀ (n : Fin 100000) (h : Fin 64), T (ix2 n h) = Cert.Spec.hrel x0 x4 x5 r n h)
    (si : IVec S1000000x1 32) (hsi : ∀ e : Fin 1000000, si (ix2 e (0 : Fin 1)) = x1 (ix2 (0 : Fin 2) e))
    (di : IVec S1000000x1 32) (hdi : ∀ e : Fin 1000000, di (ix2 e (0 : Fin 1)) = x1 (ix2 (1 : Fin 2) e))
    (M : FVec Ideal S1000000x64 .f32)
    (hM : ∀ (e : Fin 1000000) (h : Fin 64), M (ix2 e h) = if Cert.Spec.rel x2 e = r then 1 else 0)
    (Z : FVec Ideal S100000x64 .f32) (hZ : ∀ (n : Fin 100000) (h : Fin 64), Z (ix2 n h) = 0)
    (n : Fin 100000) (h : Fin 64) :
    Host.scatterAdd scatter_S100000x64_S1000000x1_S1000000x64_1_0_0_1 Z di
        (mulf (Host.gather gather_S100000x64_S1000000x1_S1000000x64_1_0_n_n_0_1_164 T si) M) (ix2 n h)
      = Cert.Spec.agg x0 x1 x2 x4 x5 r n h := by
  rw [Cert.LibSG.scatterAdd_row_apply _ rfl rfl rfl rfl, hZ, zero_add]
  unfold Cert.Spec.agg Cert.Spec.edgesInto
  rw [Finset.sum_filter, Finset.sum_filter]
  refine Finset.sum_congr rfl fun e _ => ?_
  have hg : Host.gather gather_S100000x64_S1000000x1_S1000000x64_1_0_n_n_0_1_164 T si (ix2 e h)
      = Cert.Spec.hrel x0 x4 x5 r (Cert.Spec.src x1 e) h := by
    have hlt : (si (ix2 e (0 : Fin 1))).toNat < 100000 := by rw [hsi]; exact he 0 e
    rw [Cert.LibSG.gather_row_apply_of_lt (by decide) _ rfl rfl rfl rfl rfl rfl rfl T si e h hlt, hT]
    congr 1
    apply Fin.ext
    show (si (ix2 e (0 : Fin 1))).toNat = (x1 (ix2 (0 : Fin 2) e)).toNat % 100000
    rw [hsi, Nat.mod_eq_of_lt (he 0 e)]
  rw [mulf_apply, hg, hM, hdi]
  by_cases h1 : Cert.Spec.dst x1 e = n
  · rw [if_pos ((dst_iff x1 he e n).2 h1)]
    by_cases h2 : Cert.Spec.rel x2 e = r
    · rw [if_pos h2, mul_one, if_pos ⟨h1, h2⟩]
    · rw [if_neg h2, mul_zero, if_neg fun hh => h2 hh.2]
  · rw [if_neg fun hh => h1 ((dst_iff x1 he e n).1 hh), if_neg fun hh => h1 hh.1]

/-- The scatter-added masks: the number of edges of relation r into n, each weighing the float one. -/
theorem cnt_of (x1 : IVec S2x1000000 32) (x2 : IVec S1000000 32)
    (he : ∀ (a : Fin 2) (e : Fin 1000000), (x1 (ix2 a e)).toNat < 100000) (r : Fin 3)
    (di : IVec S1000000x1 32) (hdi : ∀ e : Fin 1000000, di (ix2 e (0 : Fin 1)) = x1 (ix2 (1 : Fin 2) e))
    (Mv : FVec Ideal S1000000 .f32) (hMv : ∀ e : Fin 1000000, Mv (ix1 e) = if Cert.Spec.rel x2 e = r then 1 else 0)
    (Z : FVec Ideal S100000 .f32) (hZ : ∀ n : Fin 100000, Z (ix1 n) = 0) (n : Fin 100000) :
    Host.scatterAdd scatter_S100000_S1000000x1_S1000000_n_0_0_1 Z di Mv (ix1 n) = Cert.Spec.cnt x1 x2 r n := by
  rw [Cert.LibSG.scatterAdd_vec_apply _ rfl rfl rfl rfl, hZ, zero_add]
  unfold Cert.Spec.cnt Cert.Spec.edgesInto
  rw [Finset.sum_filter, Finset.sum_filter]
  refine Finset.sum_congr rfl fun e _ => ?_
  rw [hMv, hdi, show Cert.Spec.oneF = (1 : EReal) from Cert.LibSG.ofBits_one_f32]
  by_cases h1 : Cert.Spec.dst x1 e = n
  · rw [if_pos ((dst_iff x1 he e n).2 h1)]
    by_cases h2 : Cert.Spec.rel x2 e = r
    · rw [if_pos h2, if_pos ⟨h1, h2⟩]
    · rw [if_neg h2, if_neg fun hh => h2 hh.2]
  · rw [if_neg fun hh => h1 ((dst_iff x1 he e n).1 hh), if_neg fun hh => h1 hh.1]

/-! ## The reference's operations at an index -/

section Ops
variable (x0 : IVec S100000 32) (x1 : IVec S2x1000000 32) (x2 : IVec S1000000 32)
  (x4 : FVec Ideal S10000x64 .f32) (x5 : FVec Ideal S3x64x64 .f32) (x6 : FVec Ideal S64x64 .f32)
  (x7 : FVec Ideal S64 .f32)

/-- The token words go through the normalisation untouched. -/
theorem v4_eq (hx : ∀ n : Fin 100000, (x0 (ix1 n)).toNat < 10000) (i : S100000.Idx) :
    val_main_v4 (F := Ideal) x0 i = x0 i := by
  rw [val_main_v4_apply, val_main_v1_apply, val_main_v3_apply]
  refine wrap_id _ _ _ ((val_main_v0_apply _).trans (val_main_c_apply _)) ?_
  have := x0_lt x0 hx i
  omega

/-- THE EMBEDDING ROW: the gather of the table at the token words reads row tok(n). -/
theorem v6_at (hx : ∀ n : Fin 100000, (x0 (ix1 n)).toNat < 10000) (n : Fin 100000) (k : Fin 64) :
    val_main_v6 (F := Ideal) x0 x4 (ix2 n k) = Cert.Spec.emb x0 x4 n k := by
  have hi : idx_main_v5 (ix2 n (0 : Fin 1)) = ix1 n := funext fun a => Fin.ext (by match a with | ⟨0, _⟩ => rfl)
  have h5 : val_main_v5 (F := Ideal) x0 (ix2 n (0 : Fin 1)) = x0 (ix1 n) := by
    rw [val_main_v5_apply, hi, v4_eq x0 hx]
  have hlt : (val_main_v5 (F := Ideal) x0 (ix2 n (0 : Fin 1))).toNat < 10000 := by rw [h5]; exact hx n
  have ht : (⟨(val_main_v5 (F := Ideal) x0 (ix2 n (0 : Fin 1))).toNat, hlt⟩ : Fin 10000) = Cert.Spec.tok x0 n := by
    apply Fin.ext
    show (val_main_v5 (F := Ideal) x0 (ix2 n (0 : Fin 1))).toNat = (x0 (ix1 n)).toNat % 10000
    rw [h5, Nat.mod_eq_of_lt (hx n)]
  unfold val_main_v6
  rw [Cert.LibSG.gather_row_apply_of_lt (by decide) gather_S10000x64_S100000x1_S100000x64_1_0_n_n_0_1_164
    rfl rfl rfl rfl rfl rfl rfl x4 _ n k hlt, ht]
  rfl

/-- The root transform plus the bias. -/
theorem v14_at (hx : ∀ n : Fin 100000, (x0 (ix1 n)).toNat < 10000) (n : Fin 100000) (h : Fin 64) :
    val_main_v14 (F := Ideal) x0 x4 x6 x7 (ix2 n h) = Cert.Spec.root x0 x4 x6 x7 n h := by
  have hl : ∀ k : Fin 64, lidx_main_v11 (ix2 n h) k = ix2 n k := fun k => funext fun a => Fin.ext (by match a with | ⟨0, _⟩ => rfl | ⟨1, _⟩ => rfl)
  have hrr : ∀ k : Fin 64, ridx_main_v11 (ix2 n h) k = ix2 k h := fun k => funext fun a => Fin.ext (by match a with | ⟨0, _⟩ => rfl | ⟨1, _⟩ => rfl)
  have hb : idx_main_v12 (idx_main_v13 (ix2 n h)) = ix1 h := funext fun a => Fin.ext (by match a with | ⟨0, _⟩ => rfl)
  rw [val_main_v14_apply, val_main_v11_apply, val_main_v13_apply, val_main_v12_apply, hb]
  simp only [hl, hrr, v6_at x0 x4 hx]
  rfl

/-- The two rows of the edge list as vectors over the edges. -/
theorem v8_at (e : Fin 1000000) : val_main_v8 (F := Ideal) x1 (ix1 e) = x1 (ix2 (0 : Fin 2) e) := by
  rw [val_main_v8_apply, val_main_v7_apply]
  congr 1
  funext a
  apply Fin.ext
  match a with
  | ⟨0, _⟩ => rfl
  | ⟨1, _⟩ => exact Nat.mod_eq_of_lt e.isLt

theorem v10_at (e : Fin 1000000) : val_main_v10 (F := Ideal) x1 (ix1 e) = x1 (ix2 (1 : Fin 2) e) := by
  rw [val_main_v10_apply, val_main_v9_apply]
  congr 1
  funext a
  apply Fin.ext
  match a with
  | ⟨0, _⟩ => rfl
  | ⟨1, _⟩ => exact Nat.mod_eq_of_lt e.isLt

/-! ### Relation 0 -/

/-- Relation 0's weight matrix: the slice [0, :, :] of the stacked weights. -/
theorem v19_at (k h : Fin 64) : val_main_v19 (F := Ideal) x5 (ix2 k h) = x5 (ix3 (0 : Fin 3) k h) := by
  rw [val_main_v19_apply, val_main_v18_apply]
  congr 1
  funext a
  apply Fin.ext
  have hk := k.isLt
  have hh := h.isLt
  match a with
  | ⟨0, _⟩ => rfl
  | ⟨1, _⟩ => show (k.val * 64 + h.val) / 64 % 64 = k.val; omega
  | ⟨2, _⟩ => show (k.val * 64 + h.val) % 64 = h.val; omega

/-- Relation 0's transform of every node's embedding. -/
theorem v20_at (hx : ∀ n : Fin 100000, (x0 (ix1 n)).toNat < 10000) (n : Fin 100000) (h : Fin 64) :
    val_main_v20 (F := Ideal) x0 x4 x5 (ix2 n h) = Cert.Spec.hrel x0 x4 x5 (0 : Fin 3) n h := by
  have hl : ∀ k : Fin 64, lidx_main_v20 (ix2 n h) k = ix2 n k := fun k => funext fun a => Fin.ext (by match a with | ⟨0, _⟩ => rfl | ⟨1, _⟩ => rfl)
  have hrr : ∀ k : Fin 64, ridx_main_v20 (ix2 n h) k = ix2 k h := fun k => funext fun a => Fin.ext (by match a with | ⟨0, _⟩ => rfl | ⟨1, _⟩ => rfl)
  rw [val_main_v20_apply]
  simp only [hl, hrr, v6_at x0 x4 hx, v19_at x5]
  rfl

/-- The source words of the gather: the first row of the edge list, untouched by the normalisation. -/
theorem v25_eq (he : ∀ (a : Fin 2) (e : Fin 1000000), (x1 (ix2 a e)).toNat < 100000) (i : S1000000.Idx) :
    val_main_v25 (F := Ideal) x1 i = val_main_v8 (F := Ideal) x1 i := by
  rw [val_main_v25_apply, val_main_v22_apply, val_main_v24_apply]
  refine wrap_id _ _ _ ((val_main_v21_apply _).trans (val_main_c_2_apply _)) ?_
  rw [val_main_v8_apply, val_main_v7_apply]
  have := x1_lt x1 he (idx_main_v7 (idx_main_v8 i))
  omega

theorem v26_at (he : ∀ (a : Fin 2) (e : Fin 1000000), (x1 (ix2 a e)).toNat < 100000) (e : Fin 1000000) :
    val_main_v26 (F := Ideal) x1 (ix2 e (0 : Fin 1)) = x1 (ix2 (0 : Fin 2) e) := by
  have hi : idx_main_v26 (ix2 e (0 : Fin 1)) = ix1 e := funext fun a => Fin.ext (by match a with | ⟨0, _⟩ => rfl)
  rw [val_main_v26_apply, hi, v25_eq x1 he, v8_at x1 e]

/-- The mask of relation 0, as a vector over the edges and broadcast along the feature axis. -/
theorem v17_at (ht : ∀ e : Fin 1000000, (x2 (ix1 e)).toNat < 3) (e : Fin 1000000) :
    val_main_v17 (F := Ideal) x2 (ix1 e) = if Cert.Spec.rel x2 e = (0 : Fin 3) then 1 else 0 := by
  rw [val_main_v17_apply, val_main_v16_apply]
  exact mask_val x2 ht (0 : Fin 3) _ ((val_main_v15_apply _).trans (val_main_c_1_apply _)) e

theorem v29_at (ht : ∀ e : Fin 1000000, (x2 (ix1 e)).toNat < 3) (e : Fin 1000000) (h : Fin 64) :
    val_main_v29 (F := Ideal) x2 (ix2 e h) = if Cert.Spec.rel x2 e = (0 : Fin 3) then 1 else 0 := by
  have hi : idx_main_v28 (idx_main_v29 (ix2 e h)) = ix1 e := funext fun a => Fin.ext (by match a with | ⟨0, _⟩ => rfl)
  rw [val_main_v29_apply, val_main_v28_apply, hi, v17_at x2 ht e]

/-- The destination words of the two scatter-adds: the second row of the edge list. -/
theorem v32_at (e : Fin 1000000) :
    val_main_v32 (F := Ideal) x1 (ix2 e (0 : Fin 1)) = x1 (ix2 (1 : Fin 2) e) := by
  have hi : idx_main_v32 (ix2 e (0 : Fin 1)) = ix1 e := funext fun a => Fin.ext (by match a with | ⟨0, _⟩ => rfl)
  rw [val_main_v32_apply, hi, v10_at x1 e]

theorem v35_at (e : Fin 1000000) :
    val_main_v35 (F := Ideal) x1 (ix2 e (0 : Fin 1)) = x1 (ix2 (1 : Fin 2) e) := by
  have hi : idx_main_v35 (ix2 e (0 : Fin 1)) = ix1 e := funext fun a => Fin.ext (by match a with | ⟨0, _⟩ => rfl)
  rw [val_main_v35_apply, hi, v10_at x1 e]

/-- The two zero operands. -/
theorem v31_at (n : Fin 100000) (h : Fin 64) : val_main_v31 (F := Ideal) (ix2 n h) = 0 := by
  rw [val_main_v31_apply, val_main_cst_apply]
  exact Ideal.ofBits_zero_f32

theorem v34_at (n : Fin 100000) : val_main_v34 (F := Ideal) (ix1 n) = 0 := by
  rw [val_main_v34_apply, val_main_cst_4_apply]
  exact Ideal.ofBits_zero_f32

/-- The aggregate of relation 0. -/
theorem v33_at (hx : ∀ n : Fin 100000, (x0 (ix1 n)).toNat < 10000)
    (he : ∀ (a : Fin 2) (e : Fin 1000000), (x1 (ix2 a e)).toNat < 100000)
    (ht : ∀ e : Fin 1000000, (x2 (ix1 e)).toNat < 3) (n : Fin 100000) (h : Fin 64) :
    val_main_v33 (F := Ideal) x0 x1 x2 x4 x5 (ix2 n h) = Cert.Spec.agg x0 x1 x2 x4 x5 (0 : Fin 3) n h := by
  unfold val_main_v33 val_main_v30 val_main_v27
  exact agg_of x0 x1 x2 x4 x5 he (0 : Fin 3) _ (v20_at x0 x4 x5 hx) _ (v26_at x1 he) _ (v32_at x1) _
    (v29_at x2 ht) _ v31_at n h

/-- The count of relation 0. -/
theorem v36_at (he : ∀ (a : Fin 2) (e : Fin 1000000), (x1 (ix2 a e)).toNat < 100000)
    (ht : ∀ e : Fin 1000000, (x2 (ix1 e)).toNat < 3) (n : Fin 100000) :
    val_main_v36 (F := Ideal) x1 x2 (ix1 n) = Cert.Spec.cnt x1 x2 (0 : Fin 3) n := by
  unfold val_main_v36
  exact cnt_of x1 x2 he (0 : Fin 3) _ (v35_at x1) _ (v17_at x2 ht) _ v34_at n

/-- The quotient of relation 0: the aggregate over max(count, 1). -/
theorem v41_at (hx : ∀ n : Fin 100000, (x0 (ix1 n)).toNat < 10000)
    (he : ∀ (a : Fin 2) (e : Fin 1000000), (x1 (ix2 a e)).toNat < 100000)
    (ht : ∀ e : Fin 1000000, (x2 (ix1 e)).toNat < 3) (n : Fin 100000) (h : Fin 64) :
    val_main_v41 (F := Ideal) x0 x1 x2 x4 x5 (ix2 n h)
      = Ideal.div (Cert.Spec.agg x0 x1 x2 x4 x5 (0 : Fin 3) n h) (max (Cert.Spec.cnt x1 x2 (0 : Fin 3) n) Cert.Spec.oneF) := by
  have hi : idx_main_v39 (idx_main_v40 (ix2 n h)) = ix1 n := funext fun a => Fin.ext (by match a with | ⟨0, _⟩ => rfl)
  rw [val_main_v41_apply, val_main_v40_apply, val_main_v39_apply, hi, val_main_v38_apply,
    val_main_v37_apply, val_main_cst_5_apply, v33_at x0 x1 x2 x4 x5 hx he ht, v36_at x1 x2 he ht]
  rfl

/-! ### Relation 1 -/

/-- Relation 1's weight matrix: the slice [1, :, :] of the stacked weights. -/
theorem v47_at (k h : Fin 64) : val_main_v47 (F := Ideal) x5 (ix2 k h) = x5 (ix3 (1 : Fin 3) k h) := by
  rw [val_main_v47_apply, val_main_v46_apply]
  congr 1
  funext a
  apply Fin.ext
  have hk := k.isLt
  have hh := h.isLt
  match a with
  | ⟨0, _⟩ => rfl
  | ⟨1, _⟩ => show (k.val * 64 + h.val) / 64 % 64 = k.val; omega
  | ⟨2, _⟩ => show (k.val * 64 + h.val) % 64 = h.val; omega

/-- Relation 1's transform of every node's embedding. -/
theorem v48_at (hx : ∀ n : Fin 100000, (x0 (ix1 n)).toNat < 10000) (n : Fin 100000) (h : Fin 64) :
    val_main_v48 (F := Ideal) x0 x4 x5 (ix2 n h) = Cert.Spec.hrel x0 x4 x5 (1 : Fin 3) n h := by
  have hl : ∀ k : Fin 64, lidx_main_v48 (ix2 n h) k = ix2 n k := fun k => funext fun a => Fin.ext (by match a with | ⟨0, _⟩ => rfl | ⟨1, _⟩ => rfl)
  have hrr : ∀ k : Fin 64, ridx_main_v48 (ix2 n h) k = ix2 k h := fun k => funext fun a => Fin.ext (by match a with | ⟨0, _⟩ => rfl | ⟨1, _⟩ => rfl)
  rw [val_main_v48_apply]
  simp only [hl, hrr, v6_at x0 x4 hx, v47_at x5]
  rfl

/-- The source words of the gather: the first row of the edge list, untouched by the normalisation. -/
theorem v53_eq (he : ∀ (a : Fin 2) (e : Fin 1000000), (x1 (ix2 a e)).toNat < 100000) (i : S1000000.Idx) :
    val_main_v53 (F := Ideal) x1 i = val_main_v8 (F := Ideal) x1 i := by
  rw [val_main_v53_apply, val_main_v50_apply, val_main_v52_apply]
  refine wrap_id _ _ _ ((val_main_v49_apply _).trans (val_main_c_7_apply _)) ?_
  rw [val_main_v8_apply, val_main_v7_apply]
  have := x1_lt x1 he (idx_main_v7 (idx_main_v8 i))
  omega

theorem v54_at (he : ∀ (a : Fin 2) (e : Fin 1000000), (x1 (ix2 a e)).toNat < 100000) (e : Fin 1000000) :
    val_main_v54 (F := Ideal) x1 (ix2 e (0 : Fin 1)) = x1 (ix2 (0 : Fin 2) e) := by
  have hi : idx_main_v54 (ix2 e (0 : Fin 1)) = ix1 e := funext fun a => Fin.ext (by match a with | ⟨0, _⟩ => rfl)
  rw [val_main_v54_apply, hi, v53_eq x1 he, v8_at x1 e]

/-- The mask of relation 1, as a vector over the edges and broadcast along the feature axis. -/
theorem v45_at (ht : ∀ e : Fin 1000000, (x2 (ix1 e)).toNat < 3) (e : Fin 1000000) :
    val_main_v45 (F := Ideal) x2 (ix1 e) = if Cert.Spec.rel x2 e = (1 : Fin 3) then 1 else 0 := by
  rw [val_main_v45_apply, val_main_v44_apply]
  exact mask_val x2 ht (1 : Fin 3) _ ((val_main_v43_apply _).trans (val_main_c_6_apply _)) e

theorem v57_at (ht : ∀ e : Fin 1000000, (x2 (ix1 e)).toNat < 3) (e : Fin 1000000) (h : Fin 64) :
    val_main_v57 (F := Ideal) x2 (ix2 e h) = if Cert.Spec.rel x2 e = (1 : Fin 3) then 1 else 0 := by
  have hi : idx_main_v56 (idx_main_v57 (ix2 e h)) = ix1 e := funext fun a => Fin.ext (by match a with | ⟨0, _⟩ => rfl)
  rw [val_main_v57_apply, val_main_v56_apply, hi, v45_at x2 ht e]

/-- The destination words of the two scatter-adds: the second row of the edge list. -/
theorem v60_at (e : Fin 1000000) :
    val_main_v60 (F := Ideal) x1 (ix2 e (0 : Fin 1)) = x1 (ix2 (1 : Fin 2) e) := by
  have hi : idx_main_v60 (ix2 e (0 : Fin 1)) = ix1 e := funext fun a => Fin.ext (by match a with | ⟨0, _⟩ => rfl)
  rw [val_main_v60_apply, hi, v10_at x1 e]

theorem v63_at (e : Fin 1000000) :
    val_main_v63 (F := Ideal) x1 (ix2 e (0 : Fin 1)) = x1 (ix2 (1 : Fin 2) e) := by
  have hi : idx_main_v63 (ix2 e (0 : Fin 1)) = ix1 e := funext fun a => Fin.ext (by match a with | ⟨0, _⟩ => rfl)
  rw [val_main_v63_apply, hi, v10_at x1 e]

/-- The two zero operands. -/
theorem v59_at (n : Fin 100000) (h : Fin 64) : val_main_v59 (F := Ideal) (ix2 n h) = 0 := by
  rw [val_main_v59_apply, val_main_cst_9_apply]
  exact Ideal.ofBits_zero_f32

theorem v62_at (n : Fin 100000) : val_main_v62 (F := Ideal) (ix1 n) = 0 := by
  rw [val_main_v62_apply, val_main_cst_10_apply]
  exact Ideal.ofBits_zero_f32

/-- The aggregate of relation 1. -/
theorem v61_at (hx : ∀ n : Fin 100000, (x0 (ix1 n)).toNat < 10000)
    (he : ∀ (a : Fin 2) (e : Fin 1000000), (x1 (ix2 a e)).toNat < 100000)
    (ht : ∀ e : Fin 1000000, (x2 (ix1 e)).toNat < 3) (n : Fin 100000) (h : Fin 64) :
    val_main_v61 (F := Ideal) x0 x1 x2 x4 x5 (ix2 n h) = Cert.Spec.agg x0 x1 x2 x4 x5 (1 : Fin 3) n h := by
  unfold val_main_v61 val_main_v58 val_main_v55
  exact agg_of x0 x1 x2 x4 x5 he (1 : Fin 3) _ (v48_at x0 x4 x5 hx) _ (v54_at x1 he) _ (v60_at x1) _
    (v57_at x2 ht) _ v59_at n h

/-- The count of relation 1. -/
theorem v64_at (he : ∀ (a : Fin 2) (e : Fin 1000000), (x1 (ix2 a e)).toNat < 100000)
    (ht : ∀ e : Fin 1000000, (x2 (ix1 e)).toNat < 3) (n : Fin 100000) :
    val_main_v64 (F := Ideal) x1 x2 (ix1 n) = Cert.Spec.cnt x1 x2 (1 : Fin 3) n := by
  unfold val_main_v64
  exact cnt_of x1 x2 he (1 : Fin 3) _ (v63_at x1) _ (v45_at x2 ht) _ v62_at n

/-- The quotient of relation 1: the aggregate over max(count, 1). -/
theorem v69_at (hx : ∀ n : Fin 100000, (x0 (ix1 n)).toNat < 10000)
    (he : ∀ (a : Fin 2) (e : Fin 1000000), (x1 (ix2 a e)).toNat < 100000)
    (ht : ∀ e : Fin 1000000, (x2 (ix1 e)).toNat < 3) (n : Fin 100000) (h : Fin 64) :
    val_main_v69 (F := Ideal) x0 x1 x2 x4 x5 (ix2 n h)
      = Ideal.div (Cert.Spec.agg x0 x1 x2 x4 x5 (1 : Fin 3) n h) (max (Cert.Spec.cnt x1 x2 (1 : Fin 3) n) Cert.Spec.oneF) := by
  have hi : idx_main_v67 (idx_main_v68 (ix2 n h)) = ix1 n := funext fun a => Fin.ext (by match a with | ⟨0, _⟩ => rfl)
  rw [val_main_v69_apply, val_main_v68_apply, val_main_v67_apply, hi, val_main_v66_apply,
    val_main_v65_apply, val_main_cst_11_apply, v61_at x0 x1 x2 x4 x5 hx he ht, v64_at x1 x2 he ht]
  rfl

/-! ### Relation 2 -/

/-- Relation 2's weight matrix: the slice [2, :, :] of the stacked weights. -/
theorem v75_at (k h : Fin 64) : val_main_v75 (F := Ideal) x5 (ix2 k h) = x5 (ix3 (2 : Fin 3) k h) := by
  rw [val_main_v75_apply, val_main_v74_apply]
  congr 1
  funext a
  apply Fin.ext
  have hk := k.isLt
  have hh := h.isLt
  match a with
  | ⟨0, _⟩ => rfl
  | ⟨1, _⟩ => show (k.val * 64 + h.val) / 64 % 64 = k.val; omega
  | ⟨2, _⟩ => show (k.val * 64 + h.val) % 64 = h.val; omega

/-- Relation 2's transform of every node's embedding. -/
theorem v76_at (hx : ∀ n : Fin 100000, (x0 (ix1 n)).toNat < 10000) (n : Fin 100000) (h : Fin 64) :
    val_main_v76 (F := Ideal) x0 x4 x5 (ix2 n h) = Cert.Spec.hrel x0 x4 x5 (2 : Fin 3) n h := by
  have hl : ∀ k : Fin 64, lidx_main_v76 (ix2 n h) k = ix2 n k := fun k => funext fun a => Fin.ext (by match a with | ⟨0, _⟩ => rfl | ⟨1, _⟩ => rfl)
  have hrr : ∀ k : Fin 64, ridx_main_v76 (ix2 n h) k = ix2 k h := fun k => funext fun a => Fin.ext (by match a with | ⟨0, _⟩ => rfl | ⟨1, _⟩ => rfl)
  rw [val_main_v76_apply]
  simp only [hl, hrr, v6_at x0 x4 hx, v75_at x5]
  rfl

/-- The source words of the gather: the first row of the edge list, untouched by the normalisation. -/
theorem v81_eq (he : ∀ (a : Fin 2) (e : Fin 1000000), (x1 (ix2 a e)).toNat < 100000) (i : S1000000.Idx) :
    val_main_v81 (F := Ideal) x1 i = val_main_v8 (F := Ideal) x1 i := by
  rw [val_main_v81_apply, val_main_v78_apply, val_main_v80_apply]
  refine wrap_id _ _ _ ((val_main_v77_apply _).trans (val_main_c_13_apply _)) ?_
  rw [val_main_v8_apply, val_main_v7_apply]
  have := x1_lt x1 he (idx_main_v7 (idx_main_v8 i))
  omega

theorem v82_at (he : ∀ (a : Fin 2) (e : Fin 1000000), (x1 (ix2 a e)).toNat < 100000) (e : Fin 1000000) :
    val_main_v82 (F := Ideal) x1 (ix2 e (0 : Fin 1)) = x1 (ix2 (0 : Fin 2) e) := by
  have hi : idx_main_v82 (ix2 e (0 : Fin 1)) = ix1 e := funext fun a => Fin.ext (by match a with | ⟨0, _⟩ => rfl)
  rw [val_main_v82_apply, hi, v81_eq x1 he, v8_at x1 e]

/-- The mask of relation 2, as a vector over the edges and broadcast along the feature axis. -/
theorem v73_at (ht : ∀ e : Fin 1000000, (x2 (ix1 e)).toNat < 3) (e : Fin 1000000) :
    val_main_v73 (F := Ideal) x2 (ix1 e) = if Cert.Spec.rel x2 e = (2 : Fin 3) then 1 else 0 := by
  rw [val_main_v73_apply, val_main_v72_apply]
  exact mask_val x2 ht (2 : Fin 3) _ ((val_main_v71_apply _).trans (val_main_c_12_apply _)) e

theorem v85_at (ht : ∀ e : Fin 1000000, (x2 (ix1 e)).toNat < 3) (e : Fin 1000000) (h : Fin 64) :
    val_main_v85 (F := Ideal) x2 (ix2 e h) = if Cert.Spec.rel x2 e = (2 : Fin 3) then 1 else 0 := by
  have hi : idx_main_v84 (idx_main_v85 (ix2 e h)) = ix1 e := funext fun a => Fin.ext (by match a with | ⟨0, _⟩ => rfl)
  rw [val_main_v85_apply, val_main_v84_apply, hi, v73_at x2 ht e]

/-- The destination words of the two scatter-adds: the second row of the edge list. -/
theorem v88_at (e : Fin 1000000) :
    val_main_v88 (F := Ideal) x1 (ix2 e (0 : Fin 1)) = x1 (ix2 (1 : Fin 2) e) := by
  have hi : idx_main_v88 (ix2 e (0 : Fin 1)) = ix1 e := funext fun a => Fin.ext (by match a with | ⟨0, _⟩ => rfl)
  rw [val_main_v88_apply, hi, v10_at x1 e]

theorem v91_at (e : Fin 1000000) :
    val_main_v91 (F := Ideal) x1 (ix2 e (0 : Fin 1)) = x1 (ix2 (1 : Fin 2) e) := by
  have hi : idx_main_v91 (ix2 e (0 : Fin 1)) = ix1 e := funext fun a => Fin.ext (by match a with | ⟨0, _⟩ => rfl)
  rw [val_main_v91_apply, hi, v10_at x1 e]

/-- The two zero operands. -/
theorem v87_at (n : Fin 100000) (h : Fin 64) : val_main_v87 (F := Ideal) (ix2 n h) = 0 := by
  rw [val_main_v87_apply, val_main_cst_15_apply]
  exact Ideal.ofBits_zero_f32

theorem v90_at (n : Fin 100000) : val_main_v90 (F := Ideal) (ix1 n) = 0 := by
  rw [val_main_v90_apply, val_main_cst_16_apply]
  exact Ideal.ofBits_zero_f32

/-- The aggregate of relation 2. -/
theorem v89_at (hx : ∀ n : Fin 100000, (x0 (ix1 n)).toNat < 10000)
    (he : ∀ (a : Fin 2) (e : Fin 1000000), (x1 (ix2 a e)).toNat < 100000)
    (ht : ∀ e : Fin 1000000, (x2 (ix1 e)).toNat < 3) (n : Fin 100000) (h : Fin 64) :
    val_main_v89 (F := Ideal) x0 x1 x2 x4 x5 (ix2 n h) = Cert.Spec.agg x0 x1 x2 x4 x5 (2 : Fin 3) n h := by
  unfold val_main_v89 val_main_v86 val_main_v83
  exact agg_of x0 x1 x2 x4 x5 he (2 : Fin 3) _ (v76_at x0 x4 x5 hx) _ (v82_at x1 he) _ (v88_at x1) _
    (v85_at x2 ht) _ v87_at n h

/-- The count of relation 2. -/
theorem v92_at (he : ∀ (a : Fin 2) (e : Fin 1000000), (x1 (ix2 a e)).toNat < 100000)
    (ht : ∀ e : Fin 1000000, (x2 (ix1 e)).toNat < 3) (n : Fin 100000) :
    val_main_v92 (F := Ideal) x1 x2 (ix1 n) = Cert.Spec.cnt x1 x2 (2 : Fin 3) n := by
  unfold val_main_v92
  exact cnt_of x1 x2 he (2 : Fin 3) _ (v91_at x1) _ (v73_at x2 ht) _ v90_at n

/-- The quotient of relation 2: the aggregate over max(count, 1). -/
theorem v97_at (hx : ∀ n : Fin 100000, (x0 (ix1 n)).toNat < 10000)
    (he : ∀ (a : Fin 2) (e : Fin 1000000), (x1 (ix2 a e)).toNat < 100000)
    (ht : ∀ e : Fin 1000000, (x2 (ix1 e)).toNat < 3) (n : Fin 100000) (h : Fin 64) :
    val_main_v97 (F := Ideal) x0 x1 x2 x4 x5 (ix2 n h)
      = Ideal.div (Cert.Spec.agg x0 x1 x2 x4 x5 (2 : Fin 3) n h) (max (Cert.Spec.cnt x1 x2 (2 : Fin 3) n) Cert.Spec.oneF) := by
  have hi : idx_main_v95 (idx_main_v96 (ix2 n h)) = ix1 n := funext fun a => Fin.ext (by match a with | ⟨0, _⟩ => rfl)
  rw [val_main_v97_apply, val_main_v96_apply, val_main_v95_apply, hi, val_main_v94_apply,
    val_main_v93_apply, val_main_cst_17_apply, v89_at x0 x1 x2 x4 x5 hx he ht, v92_at x1 x2 he ht]
  rfl

end Ops

/-! ## The node features -/

/-- THE REFERENCE'S NODE FEATURES BEFORE THE RECTIFIER ARE THE SPECIFICATION'S: the root part plus the three quotients. -/
theorem ref_nodeOut (x0 : IVec S100000 32) (x1 : IVec S2x1000000 32) (x2 : IVec S1000000 32)
    (x4 : FVec Ideal S10000x64 .f32) (x5 : FVec Ideal S3x64x64 .f32) (x6 : FVec Ideal S64x64 .f32)
    (x7 : FVec Ideal S64 .f32) (hr : Cert.Spec.InRange x0 x1 x2) (n : Fin 100000) (h : Fin 64) :
    Cert.ReferenceIdeal.Read.val_main_v98 (F := Ideal) x0 x1 x2 x4 x5 x6 x7 (ValueIdx.ix2 n h)
      = Cert.Spec.nodeOut x0 x1 x2 x4 x5 x6 x7 n h := by
  obtain ⟨hx, he, ht⟩ := hr
  rw [val_main_v98_apply, val_main_v70_apply, val_main_v42_apply, v14_at x0 x4 x6 x7 hx, v41_at x0 x1 x2 x4 x5 hx he ht,
    v69_at x0 x1 x2 x4 x5 hx he ht, v97_at x0 x1 x2 x4 x5 hx he ht]
  unfold Cert.Spec.nodeOut
  rw [Fin.sum_univ_three]
  simp only [Ideal.addf_def, add_assoc]

end Cert.RefBridge

end
-- ==== Proof.RefTail.lean ====
/-
  The reference's pooling tail is the specification's.

  After the node features (an array o over nodes and channels) the reference rectifies them, adds the rows of the nodes
  of each graph into a [512, 64] array of zeros and a one per node into a [512] array of zeros, both by a scatter-add
  at the nodes' graph words, divides the row sums by max(count, 1), multiplies by the head's matrix and adds its bias.
  A scatter-add read at row g is the sum over the nodes whose graph word, read as a signed integer, is g; for g < 512
  that is the same as the word being the word of g, which is how the specification names the nodes of graph g. A word
  outside [0, 512) is no graph's: the scatter drops it and no nodesOf set contains it.
-/
import proofs.«415698_j88648124990150_2_alg».proof.Proof.Gen.ReferenceIdeal.Read
import proofs.«415698_j88648124990150_2_alg».proof.Proof.Spec
import proofs.«415698_j88648124990150_2_alg».proof.Proof.LibScatterGather

noncomputable section

open scoped BigOperators

namespace Cert.RefBridge

open Cert.ReferenceIdeal Cert.ReferenceIdeal.Gen Cert.ReferenceIdeal.Read Idealize.ShloMosaic Idealize.ShloMosaic.ValueIdx

/-- A 32-bit word read as a signed integer is g < 512 exactly when it is the word of g. -/
theorem toInt_eq_iff (w : BitVec 32) (g : Fin 512) : w.toInt = (g.val : Int) ↔ w = BitVec.ofNat 32 g.val := by
  have hg : (BitVec.ofNat 32 g.val).toInt = (g.val : Int) := by
    rw [BitVec.toInt_eq_toNat_cond, BitVec.toNat_ofNat]
    have := g.isLt
    omega
  constructor
  · intro h; exact BitVec.toInt_inj.1 (h.trans hg.symm)
  · rintro rfl; exact hg

/-- The nodes a scatter-add at the graph words sends to row g are the specification's nodes of graph g. -/
theorem filter_toInt_eq_nodesOf (b : IVec ⟨1, ![100000]⟩ 32) (g : Fin 512) :
    Finset.univ.filter (fun n : Fin 100000 => (b (ix1 n)).toInt = (g.val : Int)) = Cert.Spec.nodesOf b g := by
  unfold Cert.Spec.nodesOf
  exact Finset.filter_congr fun n _ => toInt_eq_iff _ g

section
variable (x0 : (⟨S100000, .i32⟩ : BufTy).Contents (Elt Ideal)) (x1 : (⟨S2x1000000, .i32⟩ : BufTy).Contents (Elt Ideal))
  (x2 : (⟨S1000000, .i32⟩ : BufTy).Contents (Elt Ideal)) (x3 : (⟨S100000, .i32⟩ : BufTy).Contents (Elt Ideal))
  (x4 : (⟨S10000x64, .f32⟩ : BufTy).Contents (Elt Ideal)) (x5 : (⟨S3x64x64, .f32⟩ : BufTy).Contents (Elt Ideal))
  (x6 : (⟨S64x64, .f32⟩ : BufTy).Contents (Elt Ideal)) (x7 : (⟨S64, .f32⟩ : BufTy).Contents (Elt Ideal))
  (x8 : (⟨S64x2, .f32⟩ : BufTy).Contents (Elt Ideal)) (x9 : (⟨S2, .f32⟩ : BufTy).Contents (Elt Ideal))

/-- The rectified features at (n, h). -/
theorem v99_ix (n : Fin 100000) (h : Fin 64) :
    val_main_v99 (F := Ideal) x0 x1 x2 x4 x5 x6 x7 (ix2 n h)
      = max (val_main_v98 (F := Ideal) x0 x1 x2 x4 x5 x6 x7 (ix2 n h)) 0 := by
  rw [val_main_v99_apply, val_main_call0_v0_apply, val_main_call0_cst_apply]
  simp only [Ideal.maximumf_def, Ideal.ofBits_def, Ideal.ofBits_zero_f32]

/-- The start index the scatter-adds read for node n is its graph word. -/
theorem v101_ix (n : Fin 100000) : val_main_v101 (F := Ideal) x3 (ix2 n (0 : Fin 1)) = x3 (ix1 n) := by
  rw [val_main_v101_apply]
  exact congrArg x3 (funext fun a => Fin.ext (by match a with | ⟨0, _⟩ => rfl))

theorem v105_ix (n : Fin 100000) : val_main_v105 (F := Ideal) x3 (ix2 n (0 : Fin 1)) = x3 (ix1 n) := by
  rw [val_main_v105_apply]
  exact congrArg x3 (funext fun a => Fin.ext (by match a with | ⟨0, _⟩ => rfl))

/-- The row sums at (g, h): the rectified features of graph g's nodes, added. -/
theorem v102_ix (g : Fin 512) (h : Fin 64) :
    val_main_v102 (F := Ideal) x0 x1 x2 x3 x4 x5 x6 x7 (ix2 g h)
      = ∑ n ∈ Cert.Spec.nodesOf x3 g, max (val_main_v98 (F := Ideal) x0 x1 x2 x4 x5 x6 x7 (ix2 n h)) 0 := by
  unfold val_main_v102
  rw [Cert.LibSG.scatterAdd_row_apply _ rfl rfl rfl rfl, val_main_v100_apply, val_main_cst_18_apply]
  simp only [Ideal.ofBits_def, Ideal.ofBits_zero_f32, zero_add, v101_ix, v99_ix]
  rw [filter_toInt_eq_nodesOf]

/-- The counts at g: a one per node of graph g. -/
theorem v106_ix (g : Fin 512) :
    val_main_v106 (F := Ideal) x3 (ix1 g) = ∑ _n ∈ Cert.Spec.nodesOf x3 g, Cert.Spec.oneF := by
  unfold val_main_v106
  rw [Cert.LibSG.scatterAdd_vec_apply _ rfl rfl rfl rfl, val_main_v104_apply, val_main_cst_20_apply]
  simp only [Ideal.ofBits_def, Ideal.ofBits_zero_f32, zero_add, v105_ix, val_main_v103_apply, val_main_cst_19_apply]
  rw [filter_toInt_eq_nodesOf]

/-- The divisor at (g, h): max(count of graph g, 1). -/
theorem v110_ix (g : Fin 512) (h : Fin 64) :
    val_main_v110 (F := Ideal) x3 (ix2 g h) = max (val_main_v106 (F := Ideal) x3 (ix1 g)) Cert.Spec.oneF := by
  rw [val_main_v110_apply, val_main_v109_apply, val_main_v108_apply, val_main_v107_apply, val_main_cst_21_apply]
  simp only [Ideal.maximumf_def, Ideal.ofBits_def]
  exact congrArg (fun i => max (val_main_v106 (F := Ideal) x3 i) Cert.Spec.oneF)
    (funext fun a => Fin.ext (by match a with | ⟨0, _⟩ => rfl))

/-- The bias at (g, j). -/
theorem v114_ix (g : Fin 512) (j : Fin 2) : val_main_v114 (F := Ideal) x9 (ix2 g j) = x9 (ix1 j) := by
  rw [val_main_v114_apply, val_main_v113_apply]
  exact congrArg x9 (funext fun a => Fin.ext (by match a with | ⟨0, _⟩ => rfl))

/-- The reference's result, read from the node features on, is the specification's pooling of them. -/
theorem ref_tail (i : S512x2.Idx) :
    val_main_v115 (F := Ideal) x0 x1 x2 x3 x4 x5 x6 x7 x8 x9 i
      = Cert.Spec.poolArr (fun n h => val_main_v98 (F := Ideal) x0 x1 x2 x4 x5 x6 x7 (ix2 n h)) x3 x8 x9 i := by
  obtain ⟨g, j, rfl⟩ : ∃ g j, i = ix2 g j := ⟨i 0, i 1, eq_ix2 i⟩
  rw [Cert.Spec.poolArr_ix2, val_main_v115_apply, val_main_v112_apply, v114_ix]
  simp only [Ideal.addf_def]
  unfold Cert.Spec.pool
  refine congrArg (fun s : EReal => s + x9 (ix1 j)) (Finset.sum_congr rfl fun k _ => ?_)
  have e1 : lidx_main_v112 (ix2 g j) k = ix2 g k :=
    funext fun a => Fin.ext (by match a with | ⟨0, _⟩ => rfl | ⟨1, _⟩ => rfl)
  have e2 : ridx_main_v112 (ix2 g j) k = ix2 k j :=
    funext fun a => Fin.ext (by match a with | ⟨0, _⟩ => rfl | ⟨1, _⟩ => rfl)
  rw [e1, e2, val_main_v111_apply, v102_ix, v110_ix, v106_ix]
  simp only [Ideal.hostDivf_def]
  rfl

end

end Cert.RefBridge

end
-- ==== Proof.RefIsG.lean ====
/-
  The reference's result is G.

  The reference's node features are the specification's nodeOut at every node and channel (the head), and its result
  read from those features on is the specification's pooling of them (the tail); G is the pooling of nodeOut.
-/
import proofs.«415698_j88648124990150_2_alg».proof.Proof.RefHead
import proofs.«415698_j88648124990150_2_alg».proof.Proof.RefTail

noncomputable section

namespace Cert.RefBridge

open Cert.ReferenceIdeal Cert.ReferenceIdeal.Gen Cert.ReferenceIdeal.Read Idealize.ShloMosaic Idealize.ShloMosaic.ValueIdx

/-- Under the range precondition the reference computes G. -/
theorem ref_is_G (x0 : (⟨S100000, .i32⟩ : BufTy).Contents (Elt Ideal)) (x1 : (⟨S2x1000000, .i32⟩ : BufTy).Contents (Elt Ideal))
    (x2 : (⟨S1000000, .i32⟩ : BufTy).Contents (Elt Ideal)) (x3 : (⟨S100000, .i32⟩ : BufTy).Contents (Elt Ideal))
    (x4 : (⟨S10000x64, .f32⟩ : BufTy).Contents (Elt Ideal)) (x5 : (⟨S3x64x64, .f32⟩ : BufTy).Contents (Elt Ideal))
    (x6 : (⟨S64x64, .f32⟩ : BufTy).Contents (Elt Ideal)) (x7 : (⟨S64, .f32⟩ : BufTy).Contents (Elt Ideal))
    (x8 : (⟨S64x2, .f32⟩ : BufTy).Contents (Elt Ideal)) (x9 : (⟨S2, .f32⟩ : BufTy).Contents (Elt Ideal))
    (hr : Cert.Spec.InRange x0 x1 x2) :
    val_main_v115 (F := Ideal) x0 x1 x2 x3 x4 x5 x6 x7 x8 x9 = Cert.Spec.G x0 x1 x2 x3 x4 x5 x6 x7 x8 x9 := by
  funext i
  rw [ref_tail]
  unfold Cert.Spec.G
  have hhead : (fun (n : Fin 100000) (h : Fin 64) => val_main_v98 (F := Ideal) x0 x1 x2 x4 x5 x6 x7 (ix2 n h))
      = Cert.Spec.nodeOut x0 x1 x2 x4 x5 x6 x7 :=
    funext fun n => funext fun h => ref_nodeOut x0 x1 x2 x4 x5 x6 x7 hr n h
  rw [hhead]

end Cert.RefBridge

end
-- ==== Proof.PreDecode.lean ====
/-
  The precondition read back.  The printed predicate is a conjunction of `jnp.all` tests; its last three say that
  every token, every edge end and every edge type is at least 0 and below its extent (10000, 100000, 3), the
  comparisons signed.  A conjunction of one-bit words is 1 only if every conjunct is; an and-reduction to a scalar
  is 1 only if every element is; and a 32-bit word w with 0 ≤ w and w < n signed, n below 2^31, reads unsigned as
  a number below n.  Together: the three ranges of `Cert.Spec.InRange`.
-/
import proofs.«415698_j88648124990150_2_alg».proof.Pre_finite_inputs
import proofs.«415698_j88648124990150_2_alg».proof.Proof.Gen.Pre_finite_inputs
import proofs.«415698_j88648124990150_2_alg».proof.Proof.Spec
import proofs.«415698_j88648124990150_2_alg».proof.Defs
import Idealize.ShloMosaic.Lib.ReduceAll
import Idealize.ShloMosaic.Lib.StableHlo.Predicate
import Idealize.ShloMosaic.Lib.ValueIdx

namespace Cert.PreDecode

open Idealize.ShloMosaic Idealize.ShloMosaic.ValueIdx Idealize.SL.Sem

/-- The scalar shape has one index. -/
local instance : Subsingleton (⟨0, ![]⟩ : Shape).Idx := ⟨fun a b => funext fun d => d.elim0⟩

/-- A word that tests nonnegative and below `n`, both signed, with `n` below 2^31, reads unsigned below `n`:
    nonnegative means the top bit is clear, so the signed and the unsigned readings agree. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  have hw : 2 * w.toNat < 2 ^ 32 := (Scalar.nonneg_iff w).1 h0
  have hw' : w.toNat < 2 ^ 31 := by omega
  rw [IntOp.cmpi_slt, StableHlo.Predicate.toInt_eq_toNat_of_lt hw', StableHlo.Predicate.toInt_ofNat_small n hn] at h1
  exact_mod_cast h1

/-- One `jnp.all((x >= 0) & (x < n))` read back at every element. -/
theorem range_of_all {s : Shape} {axes : List (Fin s.rank)} (x : IVec s 32) (n : Nat) (hn : n < 2 ^ 31)
    (hb : (⟨0, ![]⟩ : Shape).BroadcastsInDim s (![] : Fin 0 → Fin s.rank)) (hr : s.ReducesTo axes ⟨0, ![]⟩)
    (h0 : 0 < (⟨0, ![]⟩ : Shape).numel) (init : IVec ⟨0, ![]⟩ 1)
    (h : Host.reduce IntOp.andi
        (andi (cmpi .sge x (broadcastInDim s ![] hb (constantI ⟨0, ![]⟩ 32 0#32)))
              (cmpi .slt x (broadcastInDim s ![] hb (constantI ⟨0, ![]⟩ 32 (BitVec.ofNat 32 n)))))
        init hr h0 ix0 = 1#1)
    (i : s.Idx) : (x i).toNat < n := by
  have e := Host.reduce_andi_all _ _ hr h0 ix0 h i
  have e' : IntOp.andi (IntOp.cmpi .sge (x i) 0#32) (IntOp.cmpi .slt (x i) (BitVec.ofNat 32 n)) = 1#1 := e
  obtain ⟨e0, e1⟩ := IntOp.andi_eq_one.1 e'
  exact toNat_lt_of_signed_range (x i) n hn e0 e1

section
variable [Cert.Pre_finite_inputs.Facts] {F : FTy → Type} [FloatOps F]

open Cert.Pre_finite_inputs

/-- The last part of the predicate: the token test arrives as the array `v33` of its elementwise bits; the edge-end
    and edge-type tests are made here. -/
theorem part2_eq_one (a1 : IVec S2x1000000 32) (a2 : IVec S1000000 32) (v28 : IVec S_ 1) (v33 : IVec S100000 1)
    (h : fn_part2 (F := F) a1 a2 v28 v33 ix0 = 1#1) :
    (Host.reduce IntOp.andi v33 (constantI S_ 1 1#1) Facts.reducesTo_S100000_S_d0 Facts.h_S_ ix0 = 1#1) ∧
      (∀ i, (a1 i).toNat < 100000) ∧ (∀ i, (a2 i).toNat < 3) := by
  unfold fn_part2 at h
  dsimp only at h
  change IntOp.andi (IntOp.andi (IntOp.andi _ _) _) _ = 1#1 at h
  rw [IntOp.andi_eq_one, IntOp.andi_eq_one, IntOp.andi_eq_one] at h
  obtain ⟨⟨⟨_, h33⟩, h41⟩, h48⟩ := h
  exact ⟨h33, range_of_all a1 100000 (by decide) _ _ _ _ h41, range_of_all a2 3 (by decide) _ _ _ _ h48⟩

/-- The middle part: the token test is made here and handed on. -/
theorem part1_eq_one (a0 : IVec S100000 32) (a1 : IVec S2x1000000 32) (a2 : IVec S1000000 32)
    (a8 : FVec F S64x2 .f32) (a9 : FVec F S2 .f32) (v13 : IVec S_ 1) (v16 : IVec S64 1)
    (h : fn_part1 (F := F) a0 a1 a2 a8 a9 v13 v16 ix0 = 1#1) :
    (∀ i, (a0 i).toNat < 10000) ∧ (∀ i, (a1 i).toNat < 100000) ∧ (∀ i, (a2 i).toNat < 3) := by
  unfold fn_part1 at h
  dsimp only at h
  obtain ⟨h33, h1, h2⟩ := part2_eq_one a1 a2 _ _ h
  exact ⟨range_of_all a0 10000 (by decide) _ _ _ _ h33, h1, h2⟩

/-- THE RANGES: where the printed precondition is all ones, every token names a table row, every edge end a node and
    every edge type a relation. -/
theorem inRange_of_pre (a0 : IVec ⟨1, ![100000]⟩ 32) (a1 : IVec ⟨2, ![2, 1000000]⟩ 32) (a2 : IVec ⟨1, ![1000000]⟩ 32)
    (a3 : IVec ⟨1, ![100000]⟩ 32) (a4 : FVec F ⟨2, ![10000, 64]⟩ .f32) (a5 : FVec F ⟨3, ![3, 64, 64]⟩ .f32)
    (a6 : FVec F ⟨2, ![64, 64]⟩ .f32) (a7 : FVec F ⟨1, ![64]⟩ .f32) (a8 : FVec F ⟨2, ![64, 2]⟩ .f32)
    (a9 : FVec F ⟨1, ![2]⟩ .f32)
    (h : Cert.Pre_finite_inputs.fn (F := F) a0 a1 a2 a3 a4 a5 a6 a7 a8 a9 = fun _ => 1#1) :
    Cert.Spec.InRange a0 a1 a2 := by
  have h0 := congrFun h ix0
  unfold Cert.Pre_finite_inputs.fn at h0
  dsimp only at h0
  obtain ⟨hx, hei, het⟩ := part1_eq_one a0 a1 a2 a8 a9 _ _ h0
  exact ⟨fun n => hx (ix1 n), fun a e => hei (ix2 a e), fun e => het (ix1 e)⟩

end

/-! ## The same, in the three forms the claims take the precondition -/

theorem inRange_of_Pre_Kernel [Cert.Pre_finite_inputs.Facts]
    (m : (ℓ : Loc Cert.Kernel.nD Cert.Kernel.τ Cert.Kernel.sig) → Buf (Elt Bits) ℓ) (h : Cert.Pre_Kernel m)
    (c : Dev Cert.Kernel.nD) :
    Cert.Spec.InRange (m ((c.tc : Thread Cert.Kernel.nD Cert.Kernel.τ).loc Cert.Kernel.main_arg0))
      (m ((c.tc : Thread Cert.Kernel.nD Cert.Kernel.τ).loc Cert.Kernel.main_arg1))
      (m ((c.tc : Thread Cert.Kernel.nD Cert.Kernel.τ).loc Cert.Kernel.main_arg2)) :=
  inRange_of_pre (F := Bits) _ _ _ _ _ _ _ _ _ _ (h c)

theorem inRange_of_Pre_KernelIdeal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
  inRange_of_pre (F := Ideal) _ _ _ _ _ _ _ _ _ _ (h c)

theorem inRange_of_Pre_ReferenceIdeal [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Spec.InRange
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2)) :=
  inRange_of_pre (F := Ideal) _ _ _ _ _ _ _ _ _ _ (h c)

end Cert.PreDecode
-- ==== Proof.lean ====
/-
  The claim: the pooled RGCN kernel and its jnp reference compute the same [512, 2] logits over the extended reals.

  Both programs are the function `Cert.Spec.G` of the ten argument arrays (Proof/Spec.lean): per node the root transform of
  its token's embedding plus, per relation, the mean over the incoming edges of that relation of the source's transformed
  embedding; the rectified features mean-pooled per graph; the linear head.  The kernel fuses the three relations into one
  gather at row 3·src + type and one scatter-add at row 3·dst + type, which is the per-relation masked form exactly when
  every edge type is below 3 and no index leaves its array: the precondition states these ranges, and nothing else of it
  is used (no law here needs finiteness: only x·1 = x, x·0 = 0, 0 + x = x and the associativity and commutativity of +).
  The kernel pools by a one-hot matrix product accumulated over 40 tiles of 2560 nodes, the padded tail carrying the
  graph word 512 that matches no graph; the reference pools by a scatter-add that drops out-of-range graph words.
  The frames: the kernel's region is run case by case (first point, inner points, last point) with the two accumulators
  carried between points; the reference is a host program whose run is read back operation by operation.
-/
import proofs.«415698_j88648124990150_2_alg».proof.Defs
import proofs.«415698_j88648124990150_2_alg».proof.Proof.Gen.Kernel
import proofs.«415698_j88648124990150_2_alg».proof.Proof.Gen.KernelIdeal
import proofs.«415698_j88648124990150_2_alg».proof.Proof.Gen.ReferenceIdeal
import proofs.«415698_j88648124990150_2_alg».proof.Proof.Gen.Pre_finite_inputs
import proofs.«415698_j88648124990150_2_alg».proof.Proof.Gen.ReferenceIdeal.Run
import proofs.«415698_j88648124990150_2_alg».proof.Proof.Gen.ReferenceIdeal.Read
import proofs.«415698_j88648124990150_2_alg».proof.Proof.K.Frame
import proofs.«415698_j88648124990150_2_alg».proof.Proof.KI.Frame
import proofs.«415698_j88648124990150_2_alg».proof.Proof.KI.RunVal
import proofs.«415698_j88648124990150_2_alg».proof.Proof.RefIsG
import proofs.«415698_j88648124990150_2_alg».proof.Proof.PreDecode
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre : Cert.Pre_finite_inputs.Facts]

/-- The word-level kernel runs to the end and leaves its arguments as they were. -/
theorem frame_k : Cert.frame_Kernel := fun m ρ _ => Cert.Kernel.Frm.frame m ρ

/-- So does the idealized kernel. -/
theorem frame_ki : Cert.frame_KernelIdeal := fun m ρ _ => Cert.KernelIdeal.Frm.frame m ρ

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: widening the rounded one-hot matrix back to f32 is the identity at Ideal. -/
theorem preserves : Cert.preserves_Kernel_KernelIdeal := IdealRules.truncf_extf.statement _ .f32 .bf16

/-- Both runs end at `Cert.Spec.G` of arguments that agree. -/
theorem algebraic : Cert.algebraic_KernelIdeal_ReferenceIdeal := by
  intro m ρ m' ρ' hpre hagree
  have hr := Cert.PreDecode.inRange_of_Pre_KernelIdeal m hpre
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Val.run_val m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v115_eq]
  obtain ⟨e0, e1, e2, e3, e4, e5, e6, e7, e8, e9⟩ := hagree c
  rw [e0, e1, e2, e3, e4, e5, e6, e7, e8, e9]
  exact Cert.RefBridge.ref_is_G _ _ _ _ _ _ _ _ _ _ (hr c)

end

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
